-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S128x128 : Shape := ⟨2, ![128, 128]⟩
abbrev S384x128 : Shape := ⟨2, ![384, 128]⟩
abbrev S384 : Shape := ⟨1, ![384]⟩
abbrev S_ : Shape := ⟨0, ![]⟩
abbrev S1x500000 : Shape := ⟨2, ![1, 500000]⟩
abbrev S500000 : Shape := ⟨1, ![500000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  reducesTo_S500000_S_d0 : S500000.ReducesTo [0] S_

variable [Facts]

def fn_part7 {F : FTy → Type} [FloatOps F] (main_arg4 : IVec S2x500000 32) (main_v116 : IVec S_ 1) (main_v120 : IVec S500000 1) : IVec S_ 1 :=
  let main_c_45 : IVec S_ 1 := constantI S_ 1 1#1
  let main_v121 : IVec S_ 1 := (fun x v => Host.reduce IntOp.andi x v reducesTo_S500000_S_d0 h_S_) main_v120 main_c_45
  let main_v122 : IVec S_ 1 := andi main_v116 main_v121
  let main_v123 : IVec S1x500000 32 := (extractStridedSlice S1x500000 ![0, 0] · slices_S2x500000_S1x500000_0_0) main_arg4
  let main_v124 : IVec S500000 32 := shapeCast S500000 main_v123 shapeCasts_S1x500000_S500000
  let main_c_46 : IVec S_ 32 := constantI S_ 32 4294917296#32
  let main_v125 : IVec S500000 32 := broadcastInDim S500000 ![] bcast_S_S500000 main_c_46
  let main_v126 : IVec S500000 1 := cmpi .sge main_v124 main_v125
  let main_c_47 : IVec S_ 1 := constantI S_ 1 1#1
  let main_v127 : IVec S_ 1 := (fun x v => Host.reduce IntOp.andi x v reducesTo_S500000_S_d0 h_S_) main_v126 main_c_47
  let main_v128 : IVec S_ 1 := andi main_v122 main_v127
  let main_v129 : IVec S1x500000 32 := (extractStridedSlice S1x500000 ![0, 0] · slices_S2x500000_S1x500000_0_0) main_arg4
  let main_v130 : IVec S500000 32 := shapeCast S500000 main_v129 shapeCasts_S1x500000_S500000
  let main_c_48 : IVec S_ 32 := constantI S_ 32 50000#32
  let main_v131 : IVec S500000 32 := broadcastInDim S500000 ![] bcast_S_S500000 main_c_48
  let main_v132 : IVec S500000 1 := cmpi .slt main_v130 main_v131
  let main_c_49 : IVec S_ 1 := constantI S_ 1 1#1
  let main_v133 : IVec S_ 1 := (fun x v => Host.reduce IntOp.andi x v reducesTo_S500000_S_d0 h_S_) main_v132 main_c_49
  let main_v134 : IVec S_ 1 := andi main_v128 main_v133
  main_v134

def fn_part6 {F : FTy → Type} [FloatOps F] (main_arg2 : IVec S2x500000 32) (main_arg3 : IVec S2x500000 32) (main_arg4 : IVec S2x500000 32) (main_v98 : IVec S_ 1) (main_v102 : IVec S500000 1) : IVec S_ 1 :=
  let main_c_39 : IVec S_ 1 := constantI S_ 1 1#1
  let main_v103 : IVec S_ 1 := (fun x v => Host.reduce IntOp.andi x v reducesTo_S500000_S_d0 h_S_) main_v102 main_c_39
  let main_v104 : IVec S_ 1 := andi main_v98 main_v103
  let main_v105 : IVec S1x500000 32 := (extractStridedSlice S1x500000 ![0, 0] · slices_S2x500000_S1x500000_0_0) main_arg2
  let main_v106 : IVec S500000 32 := shapeCast S500000 main_v105 shapeCasts_S1x500000_S500000
  let main_c_40 : IVec S_ 32 := constantI S_ 32 50000#32
  let main_v107 : IVec S500000 32 := broadcastInDim S500000 ![] bcast_S_S500000 main_c_40
  let main_v108 : IVec S500000 1 := cmpi .slt main_v106 main_v107
  let main_c_41 : IVec S_ 1 := constantI S_ 1 1#1
  let main_v109 : IVec S_ 1 := (fun x v => Host.reduce IntOp.andi x v reducesTo_S500000_S_d0 h_S_) main_v108 main_c_41
  let main_v110 : IVec S_ 1 := andi main_v104 main_v109
  let main_v111 : IVec S1x500000 32 := (extractStridedSlice S1x500000 ![0, 0] · slices_S2x500000_S1x500000_0_0) main_arg3
  let main_v112 : IVec S500000 32 := shapeCast S500000 main_v111 shapeCasts_S1x500000_S500000
  let main_c_42 : IVec S_ 32 := constantI S_ 32 4294917296#32
  let main_v113 : IVec S500000 32 := broadcastInDim S500000 ![] bcast_S_S500000 main_c_42
  let main_v114 : IVec S500000 1 := cmpi .sge main_v112 main_v113
  let main_c_43 : IVec S_ 1 := constantI S_ 1 1#1
  let main_v115 : IVec S_ 1 := (fun x v => Host.reduce IntOp.andi x v reducesTo_S500000_S_d0 h_S_) main_v114 main_c_43
  let main_v116 : IVec S_ 1 := andi main_v110 main_v115
  let main_v117 : IVec S1x500000 32 := (extractStridedSlice S1x500000 ![0, 0] · slices_S2x500000_S1x500000_0_0) main_arg3
  let main_v118 : IVec S500000 32 := shapeCast S500000 main_v117 shapeCasts_S1x500000_S500000
  let main_c_44 : IVec S_ 32 := constantI S_ 32 50000#32
  let main_v119 : IVec S500000 32 := broadcastInDim S500000 ![] bcast_S_S500000 main_c_44
  let main_v120 : IVec S500000 1 := cmpi .slt main_v118 main_v119
  fn_part7 (F := F) main_arg4 main_v116 main_v120

def fn_part5 {F : FTy → Type} [FloatOps F] (main_arg2 : IVec S2x500000 32) (main_arg3 : IVec S2x500000 32) (main_arg4 : IVec S2x500000 32) (main_arg21 : FVec F S384 .f32) (main_arg22 : FVec F S384 .f32) (main_v83 : IVec S_ 1) (main_v84 : FVec F S384x128 .f32) (main_cst_32 : FVec F S_ .f32) : IVec S_ 1 :=
  let main_v85 : FVec F S384x128 .f32 := broadcastInDim S384x128 ![] bcast_S_S384x128 main_cst_32
  let main_v86 : IVec S384x128 1 := cmpf .olt main_v84 main_v85
  let main_c_33 : IVec S_ 1 := constantI S_ 1 1#1
  let main_v87 : IVec S_ 1 := (fun x v => Host.reduce IntOp.andi x v reducesTo_S384x128_S_d0_1 h_S_) main_v86 main_c_33
  let main_v88 : IVec S_ 1 := andi main_v83 main_v87
  let main_v89 : FVec F S384 .f32 := Host.absf main_arg21
  let main_cst_34 : FVec F S_ .f32 := constant S_ .f32 0x7F800000#32
  let main_v90 : FVec F S384 .f32 := broadcastInDim S384 ![] bcast_S_S384 main_cst_34
  let main_v91 : IVec S384 1 := cmpf .olt main_v89 main_v90
  let main_c_35 : IVec S_ 1 := constantI S_ 1 1#1
  let main_v92 : IVec S_ 1 := (fun x v => Host.reduce IntOp.andi x v reducesTo_S384_S_d0 h_S_) main_v91 main_c_35
  let main_v93 : IVec S_ 1 := andi main_v88 main_v92
  let main_v94 : FVec F S384 .f32 := Host.absf main_arg22
  let main_cst_36 : FVec F S_ .f32 := constant S_ .f32 0x7F800000#32
  let main_v95 : FVec F S384 .f32 := broadcastInDim S384 ![] bcast_S_S384 main_cst_36
  let main_v96 : IVec S384 1 := cmpf .olt main_v94 main_v95
  let main_c_37 : IVec S_ 1 := constantI S_ 1 1#1
  let main_v97 : IVec S_ 1 := (fun x v => Host.reduce IntOp.andi x v reducesTo_S384_S_d0 h_S_) main_v96 main_c_37
  let main_v98 : IVec S_ 1 := andi main_v93 main_v97
  let main_v99 : IVec S1x500000 32 := (extractStridedSlice S1x500000 ![0, 0] · slices_S2x500000_S1x500000_0_0) main_arg2
  let main_v100 : IVec S500000 32 := shapeCast S500000 main_v99 shapeCasts_S1x500000_S500000
  let main_c_38 : IVec S_ 32 := constantI S_ 32 4294917296#32
  let main_v101 : IVec S500000 32 := broadcastInDim S500000 ![] bcast_S_S500000 main_c_38
  let main_v102 : IVec S500000 1 := cmpi .sge main_v100 main_v101
  fn_part6 (F := F) main_arg2 main_arg3 main_arg4 main_v98 main_v102

def fn_part4 {F : FTy → Type} [FloatOps F] (main_arg2 : IVec S2x500000 32) (main_arg3 : IVec S2x500000 32) (main_arg4 : IVec S2x500000 32) (main_arg17 : FVec F S128x128 .f32) (main_arg18 : FVec F S128x128 .f32) (main_arg19 : FVec F S384x128 .f32) (main_arg20 : FVec F S384x128 .f32) (main_arg21 : FVec F S384 .f32) (main_arg22 : FVec F S384 .f32) (main_v63 : IVec S_ 1) (main_v67 : IVec S_ 1) : IVec S_ 1 :=
  let main_v68 : IVec S_ 1 := andi main_v63 main_v67
  let main_v69 : FVec F S128x128 .f32 := Host.absf main_arg17
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128x128 .f32 := Host.absf main_arg18
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S384x128 .f32 := Host.absf main_arg19
  let main_cst_30 : FVec F S_ .f32 := constant S_ .f32 0x7F800000#32
  let main_v80 : FVec F S384x128 .f32 := broadcastInDim S384x128 ![] bcast_S_S384x128 main_cst_30
  let main_v81 : IVec S384x128 1 := cmpf .olt main_v79 main_v80
  let main_c_31 : IVec S_ 1 := constantI S_ 1 1#1
  let main_v82 : IVec S_ 1 := (fun x v => Host.reduce IntOp.andi x v reducesTo_S384x128_S_d0_1 h_S_) main_v81 main_c_31
  let main_v83 : IVec S_ 1 := andi main_v78 main_v82
  let main_v84 : FVec F S384x128 .f32 := Host.absf main_arg20
  let main_cst_32 : FVec F S_ .f32 := constant S_ .f32 0x7F800000#32
  fn_part5 (F := F) main_arg2 main_arg3 main_arg4 main_arg21 main_arg22 main_v83 main_v84 main_cst_32

def fn_part3 {F : FTy → Type} [FloatOps F] (main_arg2 : IVec S2x500000 32) (main_arg3 : IVec S2x500000 32) (main_arg4 : IVec S2x500000 32) (main_arg14 : FVec F S384x128 .f32) (main_arg15 : FVec F S384 .f32) (main_arg16 : FVec F S384 .f32) (main_arg17 : FVec F S128x128 .f32) (main_arg18 : FVec F S128x128 .f32) (main_arg19 : FVec F S384x128 .f32) (main_arg20 : FVec F S384x128 .f32) (main_arg21 : FVec F S384 .f32) (main_arg22 : FVec F S384 .f32) (main_v48 : IVec S_ 1) (main_v49 : FVec F S384x128 .f32) (main_v50 : FVec F S384x128 .f32) : IVec S_ 1 :=
  let main_v51 : IVec S384x128 1 := cmpf .olt main_v49 main_v50
  let main_c_19 : IVec S_ 1 := constantI S_ 1 1#1
  let main_v52 : IVec S_ 1 := (fun x v => Host.reduce IntOp.andi x v reducesTo_S384x128_S_d0_1 h_S_) main_v51 main_c_19
  let main_v53 : IVec S_ 1 := andi main_v48 main_v52
  let main_v54 : FVec F S384x128 .f32 := Host.absf main_arg14
  let main_cst_20 : FVec F S_ .f32 := constant S_ .f32 0x7F800000#32
  let main_v55 : FVec F S384x128 .f32 := broadcastInDim S384x128 ![] bcast_S_S384x128 main_cst_20
  let main_v56 : IVec S384x128 1 := cmpf .olt main_v54 main_v55
  let main_c_21 : IVec S_ 1 := constantI S_ 1 1#1
  let main_v57 : IVec S_ 1 := (fun x v => Host.reduce IntOp.andi x v reducesTo_S384x128_S_d0_1 h_S_) main_v56 main_c_21
  let main_v58 : IVec S_ 1 := andi main_v53 main_v57
  let main_v59 : FVec F S384 .f32 := Host.absf main_arg15
  let main_cst_22 : FVec F S_ .f32 := constant S_ .f32 0x7F800000#32
  let main_v60 : FVec F S384 .f32 := broadcastInDim S384 ![] bcast_S_S384 main_cst_22
  let main_v61 : IVec S384 1 := cmpf .olt main_v59 main_v60
  let main_c_23 : IVec S_ 1 := constantI S_ 1 1#1
  let main_v62 : IVec S_ 1 := (fun x v => Host.reduce IntOp.andi x v reducesTo_S384_S_d0 h_S_) main_v61 main_c_23
  let main_v63 : IVec S_ 1 := andi main_v58 main_v62
  let main_v64 : FVec F S384 .f32 := Host.absf main_arg16
  let main_cst_24 : FVec F S_ .f32 := constant S_ .f32 0x7F800000#32
  let main_v65 : FVec F S384 .f32 := broadcastInDim S384 ![] bcast_S_S384 main_cst_24
  let main_v66 : IVec S384 1 := cmpf .olt main_v64 main_v65
  let main_c_25 : IVec S_ 1 := constantI S_ 1 1#1
  let main_v67 : IVec S_ 1 := (fun x v => Host.reduce IntOp.andi x v reducesTo_S384_S_d0 h_S_) main_v66 main_c_25
  fn_part4 (F := F) main_arg2 main_arg3 main_arg4 main_arg17 main_arg18 main_arg19 main_arg20 main_arg21 main_arg22 main_v63 main_v67

def fn_part2 {F : FTy → Type} [FloatOps F] (main_arg2 : IVec S2x500000 32) (main_arg3 : IVec S2x500000 32) (main_arg4 : IVec S2x500000 32) (main_arg10 : FVec F S384 .f32) (main_arg11 : FVec F S128x128 .f32) (main_arg12 : FVec F S128x128 .f32) (main_arg13 : FVec F S384x128 .f32) (main_arg14 : FVec F S384x128 .f32) (main_arg15 : FVec F S384 .f32) (main_arg16 : FVec F S384 .f32) (main_arg17 : FVec F S128x128 .f32) (main_arg18 : FVec F S128x128 .f32) (main_arg19 : FVec F S384x128 .f32) (main_arg20 : FVec F S384x128 .f32) (main_arg21 : FVec F S384 .f32) (main_arg22 : FVec F S384 .f32) (main_v33 : IVec S_ 1) : IVec S_ 1 :=
  let main_v34 : FVec F S384 .f32 := Host.absf main_arg10
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S384x128 .f32 := Host.absf main_arg13
  let main_cst_18 : FVec F S_ .f32 := constant S_ .f32 0x7F800000#32
  let main_v50 : FVec F S384x128 .f32 := broadcastInDim S384x128 ![] bcast_S_S384x128 main_cst_18
  fn_part3 (F := F) main_arg2 main_arg3 main_arg4 main_arg14 main_arg15 main_arg16 main_arg17 main_arg18 main_arg19 main_arg20 main_arg21 main_arg22 main_v48 main_v49 main_v50

def fn_part1 {F : FTy → Type} [FloatOps F] (main_arg2 : IVec S2x500000 32) (main_arg3 : IVec S2x500000 32) (main_arg4 : IVec S2x500000 32) (main_arg7 : FVec F S384x128 .f32) (main_arg8 : FVec F S384x128 .f32) (main_arg9 : FVec F S384 .f32) (main_arg10 : FVec F S384 .f32) (main_arg11 : FVec F S128x128 .f32) (main_arg12 : FVec F S128x128 .f32) (main_arg13 : FVec F S384x128 .f32) (main_arg14 : FVec F S384x128 .f32) (main_arg15 : FVec F S384 .f32) (main_arg16 : FVec F S384 .f32) (main_arg17 : FVec F S128x128 .f32) (main_arg18 : FVec F S128x128 .f32) (main_arg19 : FVec F S384x128 .f32) (main_arg20 : FVec F S384x128 .f32) (main_arg21 : FVec F S384 .f32) (main_arg22 : FVec F S384 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S384x128 .f32 := Host.absf main_arg7
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S384x128 .f32 := Host.absf main_arg8
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S384 .f32 := Host.absf main_arg9
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg2 main_arg3 main_arg4 main_arg10 main_arg11 main_arg12 main_arg13 main_arg14 main_arg15 main_arg16 main_arg17 main_arg18 main_arg19 main_arg20 main_arg21 main_arg22 main_v33

def fn {F : FTy → Type} [FloatOps F] (main_arg0 : FVec F S50000x128 .f32) (main_arg1 : FVec F S50000x128 .f32) (main_arg2 : IVec S2x500000 32) (main_arg3 : IVec S2x500000 32) (main_arg4 : IVec S2x500000 32) (main_arg5 : FVec F S128x128 .f32) (main_arg6 : FVec F S128x128 .f32) (main_arg7 : FVec F S384x128 .f32) (main_arg8 : FVec F S384x128 .f32) (main_arg9 : FVec F S384 .f32) (main_arg10 : FVec F S384 .f32) (main_arg11 : FVec F S128x128 .f32) (main_arg12 : FVec F S128x128 .f32) (main_arg13 : FVec F S384x128 .f32) (main_arg14 : FVec F S384x128 .f32) (main_arg15 : FVec F S384 .f32) (main_arg16 : FVec F S384 .f32) (main_arg17 : FVec F S128x128 .f32) (main_arg18 : FVec F S128x128 .f32) (main_arg19 : FVec F S384x128 .f32) (main_arg20 : FVec F S384x128 .f32) (main_arg21 : FVec F S384 .f32) (main_arg22 : FVec F S384 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg3 main_arg4 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x128 : Shape := ⟨2, ![50000, 128]⟩
abbrev S2x500000 : Shape := ⟨2, ![2, 500000]⟩
abbrev S128x128 : Shape := ⟨2, ![128, 128]⟩
abbrev S384x128 : Shape := ⟨2, ![384, 128]⟩
abbrev S384 : Shape := ⟨1, ![384]⟩
abbrev S128x384 : Shape := ⟨2, ![128, 384]⟩
abbrev S1x384 : Shape := ⟨2, ![1, 384]⟩
abbrev S5000x128 : Shape := ⟨2, ![5000, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S500000x128 : Shape := ⟨2, ![500000, 128]⟩
abbrev S2000x128 : Shape := ⟨2, ![2000, 128]⟩
abbrev S2000x384 : Shape := ⟨2, ![2000, 384]⟩
abbrev S1000x128 : Shape := ⟨2, ![1000, 128]⟩
abbrev S1000x384 : Shape := ⟨2, ![1000, 384]⟩
abbrev S1x50000x128 : Shape := ⟨3, ![1, 50000, 128]⟩
abbrev S2x50000x128 : Shape := ⟨3, ![2, 50000, 128]⟩

abbrev nBuf : Space → Nat
  | .hbm => 145
  | .vmem => 50
  | .smem => 0
  | _ => 0

abbrev hbmTy0_0 (i : Nat) : BufTy := match i % 128 with
  | 0 => ⟨S50000x128, .f32⟩
  | 1 => ⟨S50000x128, .f32⟩
  | 2 => ⟨S2x500000, .i32⟩
  | 3 => ⟨S2x500000, .i32⟩
  | 4 => ⟨S2x500000, .i32⟩
  | 5 => ⟨S128x128, .f32⟩
  | 6 => ⟨S128x128, .f32⟩
  | 7 => ⟨S384x128, .f32⟩
  | 8 => ⟨S384x128, .f32⟩
  | 9 => ⟨S384, .f32⟩
  | 10 => ⟨S384, .f32⟩
  | 11 => ⟨S128x128, .f32⟩
  | 12 => ⟨S128x128, .f32⟩
  | 13 => ⟨S384x128, .f32⟩
  | 14 => ⟨S384x128, .f32⟩
  | 15 => ⟨S384, .f32⟩
  | 16 => ⟨S384, .f32⟩
  | 17 => ⟨S128x128, .f32⟩
  | 18 => ⟨S128x128, .f32⟩
  | 19 => ⟨S384x128, .f32⟩
  | 20 => ⟨S384x128, .f32⟩
  | 21 => ⟨S384, .f32⟩
  | 22 => ⟨S384, .f32⟩
  | 23 => ⟨S128x128, .f32⟩
  | 24 => ⟨S128x128, .f32⟩
  | 25 => ⟨S128x128, .f32⟩
  | 26 => ⟨S128x128, .f32⟩
  | 27 => ⟨S128x128, .f32⟩
  | 28 => ⟨S128x128, .f32⟩
  | 29 => ⟨S128x384, .f32⟩
  | 30 => ⟨S128x384, .f32⟩
  | 31 => ⟨S128x384, .f32⟩
  | 32 => ⟨S128x384, .f32⟩
  | 33 => ⟨S128x384, .f32⟩
  | 34 => ⟨S128x384, .f32⟩
  | 35 => ⟨S1x384, .f32⟩
  | 36 => ⟨S1x384, .f32⟩
  | 37 => ⟨S1x384, .f32⟩
  | 38 => ⟨S1x384, .f32⟩
  | 39 => ⟨S1x384, .f32⟩
  | 40 => ⟨S1x384, .f32⟩
  | 41 => ⟨S50000x128, .f32⟩
  | 42 => ⟨S50000x128, .f32⟩
  | 43 => ⟨S50000x128, .f32⟩
  | 44 => ⟨S50000x128, .f32⟩
  | 45 => ⟨S50000x128, .f32⟩
  | 46 => ⟨S50000x128, .f32⟩
  | 47 => ⟨S1x500000, .i32⟩
  | 48 => ⟨S500000, .i32⟩
  | 49 => ⟨S_, .i32⟩
  | 50 => ⟨S500000, .i32⟩
  | 51 => ⟨S500000, .i1⟩
  | 52 => ⟨S_, .i32⟩
  | 53 => ⟨S500000, .i32⟩
  | 54 => ⟨S500000, .i32⟩
  | 55 => ⟨S500000, .i32⟩
  | 56 => ⟨S500000x1, .i32⟩
  | 57 => ⟨S1, .i32⟩
  | 58 => ⟨S_, .i32⟩
  | 59 => ⟨S500000x1, .i32⟩
  | 60 => ⟨S500000x1, .i1⟩
  | 61 => ⟨S1x1, .i32⟩
  | 62 => ⟨S500000x1, .i32⟩
  | 63 => ⟨S500000x1, .i1⟩
  | 64 => ⟨S500000x1, .i1⟩
  | 65 => ⟨S_, .i1⟩
  | 66 => ⟨S500000, .i1⟩
  | 67 => ⟨S500000x128, .f32⟩
  | 68 => ⟨S500000x128, .i1⟩
  | 69 => ⟨S_, .f32⟩
  | 70 => ⟨S500000x128, .f32⟩
  | 71 => ⟨S500000x128, .f32⟩
  | 72 => ⟨S1x500000, .i32⟩
  | 73 => ⟨S500000, .i32⟩
  | 74 => ⟨S_, .f32⟩
  | 75 => ⟨S50000x128, .f32⟩
  | 76 => ⟨S500000x1, .i32⟩
  | 77 => ⟨S50000x128, .f32⟩
  | 78 => ⟨S1x500000, .i32⟩
  | 79 => ⟨S500000, .i32⟩
  | 80 => ⟨S_, .i32⟩
  | 81 => ⟨S500000, .i32⟩
  | 82 => ⟨S500000, .i1⟩
  | 83 => ⟨S_, .i32⟩
  | 84 => ⟨S500000, .i32⟩
  | 85 => ⟨S500000, .i32⟩
  | 86 => ⟨S500000, .i32⟩
  | 87 => ⟨S500000x1, .i32⟩
  | 88 => ⟨S1, .i32⟩
  | 89 => ⟨S_, .i32⟩
  | 90 => ⟨S500000x1, .i32⟩
  | 91 => ⟨S500000x1, .i1⟩
  | 92 => ⟨S1x1, .i32⟩
  | 93 => ⟨S500000x1, .i32⟩
  | 94 => ⟨S500000x1, .i1⟩
  | 95 => ⟨S500000x1, .i1⟩
  | 96 => ⟨S_, .i1⟩
  | 97 => ⟨S500000, .i1⟩
  | 98 => ⟨S500000x128, .f32⟩
  | 99 => ⟨S500000x128, .i1⟩
  | 100 => ⟨S_, .f32⟩
  | 101 => ⟨S500000x128, .f32⟩
  | 102 => ⟨S500000x128, .f32⟩
  | 103 => ⟨S1x500000, .i32⟩
  | 104 => ⟨S500000, .i32⟩
  | 105 => ⟨S_, .f32⟩
  | 106 => ⟨S50000x128, .f32⟩
  | 107 => ⟨S500000x1, .i32⟩
  | 108 => ⟨S50000x128, .f32⟩
  | 109 => ⟨S1x500000, .i32⟩
  | 110 => ⟨S500000, .i32⟩
  | 111 => ⟨S_, .i32⟩
  | 112 => ⟨S500000, .i32⟩
  | 113 => ⟨S500000, .i1⟩
  | 114 => ⟨S_, .i32⟩
  | 115 => ⟨S500000, .i32⟩
  | 116 => ⟨S500000, .i32⟩
  | 117 => ⟨S500000, .i32⟩
  | 118 => ⟨S500000x1, .i32⟩
  | 119 => ⟨S1, .i32⟩
  | 120 => ⟨S_, .i32⟩
  | 121 => ⟨S500000x1, .i32⟩
  | 122 => ⟨S500000x1, .i1⟩
  | 123 => ⟨S1x1, .i32⟩
  | 124 => ⟨S500000x1, .i32⟩
  | 125 => ⟨S500000x1, .i1⟩
  | 126 => ⟨S500000x1, .i1⟩
  | 127 => ⟨S_, .i1⟩
  | _ => ⟨S50000x128, .f32⟩

abbrev hbmTy0_1 (i : Nat) : BufTy := match i % 128 with
  | 0 => ⟨S500000, .i1⟩
  | 1 => ⟨S500000x128, .f32⟩
  | 2 => ⟨S500000x128, .i1⟩
  | 3 => ⟨S_, .f32⟩
  | 4 => ⟨S500000x128, .f32⟩
  | 5 => ⟨S500000x128, .f32⟩
  | 6 => ⟨S1x500000, .i32⟩
  | 7 => ⟨S500000, .i32⟩
  | 8 => ⟨S_, .f32⟩
  | 9 => ⟨S50000x128, .f32⟩
  | 10 => ⟨S500000x1, .i32⟩
  | 11 => ⟨S50000x128, .f32⟩
  | 12 => ⟨S50000x128, .f32⟩
  | 13 => ⟨S50000x128, .f32⟩
  | 14 => ⟨S1x50000x128, .f32⟩
  | 15 => ⟨S1x50000x128, .f32⟩
  | 16 => ⟨S2x50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x384, .f32⟩
  | .local _ .vmem, ⟨27, _⟩ => ⟨S128x384, .f32⟩
  | .local _ .vmem, ⟨28, _⟩ => ⟨S1x384, .f32⟩
  | .local _ .vmem, ⟨29, _⟩ => ⟨S1x384, .f32⟩
  | .local _ .vmem, ⟨30, _⟩ => ⟨S2000x128, .f32⟩
  | .local _ .vmem, ⟨31, _⟩ => ⟨S2000x128, .f32⟩
  | .local _ .vmem, ⟨32, _⟩ => ⟨S1000x128, .f32⟩
  | .local _ .vmem, ⟨33, _⟩ => ⟨S1000x128, .f32⟩
  | .local _ .vmem, ⟨34, _⟩ => ⟨S1000x128, .f32⟩
  | .local _ .vmem, ⟨35, _⟩ => ⟨S1000x128, .f32⟩
  | .local _ .vmem, ⟨36, _⟩ => ⟨S128x384, .f32⟩
  | .local _ .vmem, ⟨37, _⟩ => ⟨S128x384, .f32⟩
  | .local _ .vmem, ⟨38, _⟩ => ⟨S1x384, .f32⟩
  | .local _ .vmem, ⟨39, _⟩ => ⟨S1x384, .f32⟩
  | .local _ .vmem, ⟨40, _⟩ => ⟨S1000x128, .f32⟩
  | .local _ .vmem, ⟨41, _⟩ => ⟨S1000x128, .f32⟩
  | .local _ .vmem, ⟨42, _⟩ => ⟨S1000x128, .f32⟩
  | .local _ .vmem, ⟨43, _⟩ => ⟨S1000x128, .f32⟩
  | .local _ .vmem, ⟨44, _⟩ => ⟨S128x384, .f32⟩
  | .local _ .vmem, ⟨45, _⟩ => ⟨S128x384, .f32⟩
  | .local _ .vmem, ⟨46, _⟩ => ⟨S1x384, .f32⟩
  | .local _ .vmem, ⟨47, _⟩ => ⟨S1x384, .f32⟩
  | .local _ .vmem, ⟨48, _⟩ => ⟨S1000x128, .f32⟩
  | .local _ .vmem, ⟨49, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18_0 : Ref sig .tc := ⟨.hbm, 41, rfl⟩
abbrev main_v18_1 : Ref sig .tc := ⟨.hbm, 42, rfl⟩
abbrev main_v18_2 : Ref sig .tc := ⟨.hbm, 43, rfl⟩
abbrev main_v19_0 : Ref sig .tc := ⟨.hbm, 44, rfl⟩
abbrev main_v19_1 : Ref sig .tc := ⟨.hbm, 45, rfl⟩
abbrev main_v19_2 : Ref sig .tc := ⟨.hbm, 46, rfl⟩
abbrev main_v20 : Ref sig .tc := ⟨.hbm, 47, rfl⟩
abbrev main_v21 : Ref sig .tc := ⟨.hbm, 48, rfl⟩
abbrev main_call0_c : Ref sig .tc := ⟨.hbm, 49, rfl⟩
abbrev main_call0_v0 : Ref sig .tc := ⟨.hbm, 50, rfl⟩
abbrev main_call0_v1 : Ref sig .tc := ⟨.hbm, 51, rfl⟩
abbrev main_call0_c_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_c_1 : Ref sig .tc := ⟨.hbm, 57, rfl⟩
abbrev main_call0_c_2 : Ref sig .tc := ⟨.hbm, 58, rfl⟩
abbrev main_call0_v6 : Ref sig .tc := ⟨.hbm, 59, rfl⟩
abbrev main_call0_v7 : Ref sig .tc := ⟨.hbm, 60, rfl⟩
abbrev main_call0_v8 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_c_3 : Ref sig .tc := ⟨.hbm, 65, rfl⟩
abbrev main_call0_v12 : Ref sig .tc := ⟨.hbm, 66, rfl⟩
abbrev main_call0_v13 : Ref sig .tc := ⟨.hbm, 67, rfl⟩
abbrev main_call0_v14 : Ref sig .tc := ⟨.hbm, 68, rfl⟩
abbrev main_call0_cst : Ref sig .tc := ⟨.hbm, 69, rfl⟩
abbrev main_call0_v15 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_cst : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_call1_c : Ref sig .tc := ⟨.hbm, 80, rfl⟩
abbrev main_call1_v0 : Ref sig .tc := ⟨.hbm, 81, rfl⟩
abbrev main_call1_v1 : Ref sig .tc := ⟨.hbm, 82, rfl⟩
abbrev main_call1_c_0 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_c_1 : Ref sig .tc := ⟨.hbm, 88, rfl⟩
abbrev main_call1_c_2 : Ref sig .tc := ⟨.hbm, 89, rfl⟩
abbrev main_call1_v6 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_c_3 : Ref sig .tc := ⟨.hbm, 96, rfl⟩
abbrev main_call1_v12 : Ref sig .tc := ⟨.hbm, 97, rfl⟩
abbrev main_call1_v13 : Ref sig .tc := ⟨.hbm, 98, rfl⟩
abbrev main_call1_v14 : Ref sig .tc := ⟨.hbm, 99, rfl⟩
abbrev main_call1_cst : Ref sig .tc := ⟨.hbm, 100, rfl⟩
abbrev main_call1_v15 : Ref sig .tc := ⟨.hbm, 101, rfl⟩
abbrev main_v30 : Ref sig .tc := ⟨.hbm, 102, rfl⟩
abbrev main_v31 : Ref sig .tc := ⟨.hbm, 103, rfl⟩
abbrev main_v32 : Ref sig .tc := ⟨.hbm, 104, rfl⟩
abbrev main_cst_0 : Ref sig .tc := ⟨.hbm, 105, rfl⟩
abbrev main_v33 : Ref sig .tc := ⟨.hbm, 106, rfl⟩
abbrev main_v34 : Ref sig .tc := ⟨.hbm, 107, rfl⟩
abbrev main_v35 : Ref sig .tc := ⟨.hbm, 108, rfl⟩
abbrev main_v36 : Ref sig .tc := ⟨.hbm, 109, rfl⟩
abbrev main_v37 : Ref sig .tc := ⟨.hbm, 110, rfl⟩
abbrev main_call2_c : Ref sig .tc := ⟨.hbm, 111, rfl⟩
abbrev main_call2_v0 : Ref sig .tc := ⟨.hbm, 112, rfl⟩
abbrev main_call2_v1 : Ref sig .tc := ⟨.hbm, 113, rfl⟩
abbrev main_call2_c_0 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_call2_v5 : Ref sig .tc := ⟨.hbm, 118, rfl⟩
abbrev main_call2_c_1 : Ref sig .tc := ⟨.hbm, 119, rfl⟩
abbrev main_call2_c_2 : Ref sig .tc := ⟨.hbm, 120, rfl⟩
abbrev main_call2_v6 : Ref sig .tc := ⟨.hbm, 121, rfl⟩
abbrev main_call2_v7 : Ref sig .tc := ⟨.hbm, 122, rfl⟩
abbrev main_call2_v8 : Ref sig .tc := ⟨.hbm, 123, rfl⟩
abbrev main_call2_v9 : Ref sig .tc := ⟨.hbm, 124, rfl⟩
abbrev main_call2_v10 : Ref sig .tc := ⟨.hbm, 125, rfl⟩
abbrev main_call2_v11 : Ref sig .tc := ⟨.hbm, 126, rfl⟩
abbrev main_call2_c_3 : Ref sig .tc := ⟨.hbm, 127, rfl⟩
abbrev main_call2_v12 : Ref sig .tc := ⟨.hbm, 128, rfl⟩
abbrev main_call2_v13 : Ref sig .tc := ⟨.hbm, 129, rfl⟩
abbrev main_call2_v14 : Ref sig .tc := ⟨.hbm, 130, rfl⟩
abbrev main_call2_cst : Ref sig .tc := ⟨.hbm, 131, rfl⟩
abbrev main_call2_v15 : Ref sig .tc := ⟨.hbm, 132, rfl⟩
abbrev main_v38 : Ref sig .tc := ⟨.hbm, 133, rfl⟩
abbrev main_v39 : Ref sig .tc := ⟨.hbm, 134, rfl⟩
abbrev main_v40 : Ref sig .tc := ⟨.hbm, 135, rfl⟩
abbrev main_cst_1 : Ref sig .tc := ⟨.hbm, 136, rfl⟩
abbrev main_v41 : Ref sig .tc := ⟨.hbm, 137, rfl⟩
abbrev main_v42 : Ref sig .tc := ⟨.hbm, 138, rfl⟩
abbrev main_v43 : Ref sig .tc := ⟨.hbm, 139, rfl⟩
abbrev main_v44 : Ref sig .tc := ⟨.hbm, 140, rfl⟩
abbrev main_v45 : Ref sig .tc := ⟨.hbm, 141, rfl⟩
abbrev main_v46 : Ref sig .tc := ⟨.hbm, 142, rfl⟩
abbrev main_v47 : Ref sig .tc := ⟨.hbm, 143, rfl⟩
abbrev main_v48 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg6_1 : Ref sig .tc := ⟨.vmem, 41, rfl⟩
abbrev cc3_stg7_0 : Ref sig .tc := ⟨.vmem, 42, rfl⟩
abbrev cc3_stg7_1 : Ref sig .tc := ⟨.vmem, 43, rfl⟩
abbrev cc3_stg8_0 : Ref sig .tc := ⟨.vmem, 44, rfl⟩
abbrev cc3_stg9_0 : Ref sig .tc := ⟨.vmem, 45, rfl⟩
abbrev cc3_stg10_0 : Ref sig .tc := ⟨.vmem, 46, rfl⟩
abbrev cc3_stg11_0 : Ref sig .tc := ⟨.vmem, 47, rfl⟩
abbrev cc3_stg12_0 : Ref sig .tc := ⟨.vmem, 48, rfl⟩
abbrev cc3_stg12_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem6_1 : DmaSem sig := 41
abbrev cc3_sem7_0 : DmaSem sig := 42
abbrev cc3_sem7_1 : DmaSem sig := 43
abbrev cc3_sem8_0 : DmaSem sig := 44
abbrev cc3_sem9_0 : DmaSem sig := 45
abbrev cc3_sem10_0 : DmaSem sig := 46
abbrev cc3_sem11_0 : DmaSem sig := 47
abbrev cc3_sem12_0 : DmaSem sig := 48
abbrev cc3_sem12_1 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x384 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x384 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x384 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x384 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S128x384 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128x384 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x384 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x384 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 2 → Memref sig .tc .vmem S1000x128 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

class Facts₀ : Prop where
  transposes_S128x128_S128x128_1_0 : S128x128.Transposes [1, 0] S128x128
  transposes_S384x128_S128x384_1_0 : S384x128.Transposes [1, 0] S128x384
  shapeCasts_S384_S1x384 : S384.ShapeCasts S1x384
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  slices_S2x500000_S1x500000_1_0 : S2x500000.Slices ![1, 0] S1x500000
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  broadcasts_S1x384_S1000x384 : S1x384.Broadcasts S1000x384
  slices_S1000x384_o0_0_S1000x128 : S1000x384.Slices ![0, 0] S1000x128
  slices_S1000x384_o0_128_S1000x128 : S1000x384.Slices ![0, 128] S1000x128
  slices_S1000x384_o0_256_S1000x128 : S1000x384.Slices ![0, 256] S1000x128
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  dot_S5000x128_S128x128_S5000x128_1_0_0_1_n_n_wf : DotDims.WF S5000x128 S128x128 S5000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S2000x128_S128x384_S2000x384_1_0_0_1_n_n_wf : DotDims.WF S2000x128 S128x384 S2000x384 [1] [0] [0] [1] [] []
  dot_S1000x128_S128x384_S1000x384_1_0_0_1_n_n_wf : DotDims.WF S1000x128 S128x384 S1000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x384.size a ≤ S128x384.size a
  hwx2_2 : ∀ i : grid2.Coords, EltTy.bits .f32 = 32 ∨ (Rect.block (s := S128x384) S128x384.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x384.size a ≤ S128x384.size a
  hwx2_3 : ∀ i : grid2.Coords, EltTy.bits .f32 = 32 ∨ (Rect.block (s := S128x384) S128x384.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x384.size a ≤ S1x384.size a
  hwx2_4 : ∀ i : grid2.Coords, EltTy.bits .f32 = 32 ∨ (Rect.block (s := S1x384) S1x384.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x384.size a ≤ S1x384.size a
  hwx2_5 : ∀ i : grid2.Coords, EltTy.bits .f32 = 32 ∨ (Rect.block (s := S1x384) S1x384.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S50000x128.size a
  hwx3_0 : ∀ i : grid3.Coords, EltTy.bits .f32 = 32 ∨ (Rect.block (s := S50000x128) S1000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x128.size a ≤ S50000x128.size a
  hwx3_1 : ∀ i : grid3.Coords, EltTy.bits .f32 = 32 ∨ (Rect.block (s := S50000x128) S1000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x384.size a ≤ S128x384.size a
  hwx3_2 : ∀ i : grid3.Coords, EltTy.bits .f32 = 32 ∨ (Rect.block (s := S128x384) S128x384.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x384.size a ≤ S128x384.size a
  hwx3_3 : ∀ i : grid3.Coords, EltTy.bits .f32 = 32 ∨ (Rect.block (s := S128x384) S128x384.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x384.size a ≤ S1x384.size a
  hwx3_4 : ∀ i : grid3.Coords, EltTy.bits .f32 = 32 ∨ (Rect.block (s := S1x384) S1x384.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x384.size a ≤ S1x384.size a
  hwx3_5 : ∀ i : grid3.Coords, EltTy.bits .f32 = 32 ∨ (Rect.block (s := S1x384) S1x384.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1000x128.size a ≤ S50000x128.size a
  hwx3_6 : ∀ i : grid3.Coords, EltTy.bits .f32 = 32 ∨ (Rect.block (s := S50000x128) S1000x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1000x128.size a ≤ S50000x128.size a
  hwx3_7 : ∀ i : grid3.Coords, EltTy.bits .f32 = 32 ∨ (Rect.block (s := S50000x128) S1000x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x384.size a ≤ S128x384.size a
  hwx3_8 : ∀ i : grid3.Coords, EltTy.bits .f32 = 32 ∨ (Rect.block (s := S128x384) S128x384.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128x384.size a ≤ S128x384.size a
  hwx3_9 : ∀ i : grid3.Coords, EltTy.bits .f32 = 32 ∨ (Rect.block (s := S128x384) S128x384.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x384.size a ≤ S1x384.size a
  hwx3_10 : ∀ i : grid3.Coords, EltTy.bits .f32 = 32 ∨ (Rect.block (s := S1x384) S1x384.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x384.size a ≤ S1x384.size a
  hwx3_11 : ∀ i : grid3.Coords, EltTy.bits .f32 = 32 ∨ (Rect.block (s := S1x384) S1x384.size (cc3_transform_11 i) (hinb3_11 i)).WholeWords (EltTy.packing .f32)
  hstage3_12 : ∀ j, (stage3_12 j).IsWhole
  nbuf3_12 : grid3.bufCount reads3_12 false = 2
  hreads3_12 : ∀ i i' : grid3.Coords, (∀ a, reads3_12 a = true → i a = i' a) → cc3_transform_12 i = cc3_transform_12 i'
  hinb3_12 : ∀ (i : grid3.Coords) a, (cc3_transform_12 i a + 1) * S1000x128.size a ≤ S50000x128.size a
  hwx3_12 : ∀ i : grid3.Coords, EltTy.bits .f32 = 32 ∨ (Rect.block (s := S50000x128) S1000x128.size (cc3_transform_12 i) (hinb3_12 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def dot_S1000x128_S128x384_S1000x384_1_0_0_1_n_n : DotDims S1000x128 S128x384 S1000x384 where
  lhsContracting := [1]
  rhsContracting := [0]
  lhsNonContracting := [0]
  rhsNonContracting := [1]
  lhsBatch := []
  rhsBatch := []
  wf := dot_S1000x128_S128x384_S1000x384_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18_1) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v18_2) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v19_1) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v19_2) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v19_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S128x384.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S128x384.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v12) S1x384.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v13) S1x384.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v44) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v18_1) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S1000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v8) S128x384.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v9) S128x384.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v14) S1x384.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v15) S1x384.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v18_2) S1000x128.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v43) S1000x128.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_v10) S128x384.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v11) S128x384.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v16) S1x384.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v17) S1x384.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v45) S1000x128.size cc3_transform_12 reads3_12 true false 2 stage3_12 sem3_12
    hrank3 hreads3_12 hinb3_12 nbuf3_12 (Memref.isWhole_whole _) hwx3_12 hstage3_12

abbrev win3 : Fin 13 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | ⟨_ + 13, h⟩ => absurd h (Nat.not_lt.2 (Nat.le_add_left _ _))
abbrev spec3 : Fin 13 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S128x128 : Shape := ⟨2, ![128, 128]⟩
abbrev S384x128 : Shape := ⟨2, ![384, 128]⟩
abbrev S384 : Shape := ⟨1, ![384]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S128x384 : Shape := ⟨2, ![128, 384]⟩
abbrev S50000x384 : Shape := ⟨2, ![50000, 384]⟩
abbrev S1x384 : Shape := ⟨2, ![1, 384]⟩
abbrev S1x50000x128 : Shape := ⟨3, ![1, 50000, 128]⟩
abbrev S2x50000x128 : Shape := ⟨3, ![2, 50000, 128]⟩

abbrev nBuf : Space → Nat
  | .hbm => 228
  | .vmem => 0
  | .smem => 0
  | _ => 0

abbrev hbmTy0_0 (i : Nat) : BufTy := match i % 128 with
  | 0 => ⟨S50000x128, .f32⟩
  | 1 => ⟨S50000x128, .f32⟩
  | 2 => ⟨S2x500000, .i32⟩
  | 3 => ⟨S2x500000, .i32⟩
  | 4 => ⟨S2x500000, .i32⟩
  | 5 => ⟨S128x128, .f32⟩
  | 6 => ⟨S128x128, .f32⟩
  | 7 => ⟨S384x128, .f32⟩
  | 8 => ⟨S384x128, .f32⟩
  | 9 => ⟨S384, .f32⟩
  | 10 => ⟨S384, .f32⟩
  | 11 => ⟨S128x128, .f32⟩
  | 12 => ⟨S128x128, .f32⟩
  | 13 => ⟨S384x128, .f32⟩
  | 14 => ⟨S384x128, .f32⟩
  | 15 => ⟨S384, .f32⟩
  | 16 => ⟨S384, .f32⟩
  | 17 => ⟨S128x128, .f32⟩
  | 18 => ⟨S128x128, .f32⟩
  | 19 => ⟨S384x128, .f32⟩
  | 20 => ⟨S384x128, .f32⟩
  | 21 => ⟨S384, .f32⟩
  | 22 => ⟨S384, .f32⟩
  | 23 => ⟨S128x128, .f32⟩
  | 24 => ⟨S50000x128, .f32⟩
  | 25 => ⟨S128x128, .f32⟩
  | 26 => ⟨S50000x128, .f32⟩
  | 27 => ⟨S1x500000, .i32⟩
  | 28 => ⟨S500000, .i32⟩
  | 29 => ⟨S_, .i32⟩
  | 30 => ⟨S500000, .i32⟩
  | 31 => ⟨S500000, .i1⟩
  | 32 => ⟨S_, .i32⟩
  | 33 => ⟨S500000, .i32⟩
  | 34 => ⟨S500000, .i32⟩
  | 35 => ⟨S500000, .i32⟩
  | 36 => ⟨S500000x1, .i32⟩
  | 37 => ⟨S500000x128, .f32⟩
  | 38 => ⟨S1x500000, .i32⟩
  | 39 => ⟨S500000, .i32⟩
  | 40 => ⟨S_, .f32⟩
  | 41 => ⟨S50000x128, .f32⟩
  | 42 => ⟨S500000x1, .i32⟩
  | 43 => ⟨S50000x128, .f32⟩
  | 44 => ⟨S128x384, .f32⟩
  | 45 => ⟨S50000x384, .f32⟩
  | 46 => ⟨S1x384, .f32⟩
  | 47 => ⟨S50000x384, .f32⟩
  | 48 => ⟨S50000x384, .f32⟩
  | 49 => ⟨S128x384, .f32⟩
  | 50 => ⟨S50000x384, .f32⟩
  | 51 => ⟨S1x384, .f32⟩
  | 52 => ⟨S50000x384, .f32⟩
  | 53 => ⟨S50000x384, .f32⟩
  | 54 => ⟨S50000x128, .f32⟩
  | 55 => ⟨S50000x128, .f32⟩
  | 56 => ⟨S50000x128, .f32⟩
  | 57 => ⟨S50000x128, .f32⟩
  | 58 => ⟨S50000x128, .f32⟩
  | 59 => ⟨S50000x128, .f32⟩
  | 60 => ⟨S50000x128, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S50000x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S50000x128, .f32⟩
  | 85 => ⟨S50000x128, .f32⟩
  | 86 => ⟨S50000x128, .f32⟩
  | 87 => ⟨S128x128, .f32⟩
  | 88 => ⟨S50000x128, .f32⟩
  | 89 => ⟨S128x128, .f32⟩
  | 90 => ⟨S50000x128, .f32⟩
  | 91 => ⟨S1x500000, .i32⟩
  | 92 => ⟨S500000, .i32⟩
  | 93 => ⟨S_, .i32⟩
  | 94 => ⟨S500000, .i32⟩
  | 95 => ⟨S500000, .i1⟩
  | 96 => ⟨S_, .i32⟩
  | 97 => ⟨S500000, .i32⟩
  | 98 => ⟨S500000, .i32⟩
  | 99 => ⟨S500000, .i32⟩
  | 100 => ⟨S500000x1, .i32⟩
  | 101 => ⟨S500000x128, .f32⟩
  | 102 => ⟨S1x500000, .i32⟩
  | 103 => ⟨S500000, .i32⟩
  | 104 => ⟨S_, .f32⟩
  | 105 => ⟨S50000x128, .f32⟩
  | 106 => ⟨S500000x1, .i32⟩
  | 107 => ⟨S50000x128, .f32⟩
  | 108 => ⟨S128x384, .f32⟩
  | 109 => ⟨S50000x384, .f32⟩
  | 110 => ⟨S1x384, .f32⟩
  | 111 => ⟨S50000x384, .f32⟩
  | 112 => ⟨S50000x384, .f32⟩
  | 113 => ⟨S128x384, .f32⟩
  | 114 => ⟨S50000x384, .f32⟩
  | 115 => ⟨S1x384, .f32⟩
  | 116 => ⟨S50000x384, .f32⟩
  | 117 => ⟨S50000x384, .f32⟩
  | 118 => ⟨S50000x128, .f32⟩
  | 119 => ⟨S50000x128, .f32⟩
  | 120 => ⟨S50000x128, .f32⟩
  | 121 => ⟨S50000x128, .f32⟩
  | 122 => ⟨S50000x128, .f32⟩
  | 123 => ⟨S50000x128, .f32⟩
  | 124 => ⟨S50000x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S50000x128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S_, .f32⟩
  | 12 => ⟨S50000x128, .f32⟩
  | 13 => ⟨S50000x128, .f32⟩
  | 14 => ⟨S50000x128, .f32⟩
  | 15 => ⟨S50000x128, .f32⟩
  | 16 => ⟨S50000x128, .f32⟩
  | 17 => ⟨S_, .f32⟩
  | 18 => ⟨S50000x128, .f32⟩
  | 19 => ⟨S50000x128, .f32⟩
  | 20 => ⟨S50000x128, .f32⟩
  | 21 => ⟨S50000x128, .f32⟩
  | 22 => ⟨S50000x128, .f32⟩
  | 23 => ⟨S128x128, .f32⟩
  | 24 => ⟨S50000x128, .f32⟩
  | 25 => ⟨S128x128, .f32⟩
  | 26 => ⟨S50000x128, .f32⟩
  | 27 => ⟨S1x500000, .i32⟩
  | 28 => ⟨S500000, .i32⟩
  | 29 => ⟨S_, .i32⟩
  | 30 => ⟨S500000, .i32⟩
  | 31 => ⟨S500000, .i1⟩
  | 32 => ⟨S_, .i32⟩
  | 33 => ⟨S500000, .i32⟩
  | 34 => ⟨S500000, .i32⟩
  | 35 => ⟨S500000, .i32⟩
  | 36 => ⟨S500000x1, .i32⟩
  | 37 => ⟨S500000x128, .f32⟩
  | 38 => ⟨S1x500000, .i32⟩
  | 39 => ⟨S500000, .i32⟩
  | 40 => ⟨S_, .f32⟩
  | 41 => ⟨S50000x128, .f32⟩
  | 42 => ⟨S500000x1, .i32⟩
  | 43 => ⟨S50000x128, .f32⟩
  | 44 => ⟨S128x384, .f32⟩
  | 45 => ⟨S50000x384, .f32⟩
  | 46 => ⟨S1x384, .f32⟩
  | 47 => ⟨S50000x384, .f32⟩
  | 48 => ⟨S50000x384, .f32⟩
  | 49 => ⟨S128x384, .f32⟩
  | 50 => ⟨S50000x384, .f32⟩
  | 51 => ⟨S1x384, .f32⟩
  | 52 => ⟨S50000x384, .f32⟩
  | 53 => ⟨S50000x384, .f32⟩
  | 54 => ⟨S50000x128, .f32⟩
  | 55 => ⟨S50000x128, .f32⟩
  | 56 => ⟨S50000x128, .f32⟩
  | 57 => ⟨S50000x128, .f32⟩
  | 58 => ⟨S50000x128, .f32⟩
  | 59 => ⟨S50000x128, .f32⟩
  | 60 => ⟨S50000x128, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S50000x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S50000x128, .f32⟩
  | 85 => ⟨S50000x128, .f32⟩
  | 86 => ⟨S50000x128, .f32⟩
  | 87 => ⟨S50000x128, .f32⟩
  | 88 => ⟨S_, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S1x50000x128, .f32⟩
  | 98 => ⟨S1x50000x128, .f32⟩
  | 99 => ⟨S2x50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_c : Ref sig .tc := ⟨.hbm, 29, rfl⟩
abbrev main_v6 : Ref sig .tc := ⟨.hbm, 30, rfl⟩
abbrev main_v7 : Ref sig .tc := ⟨.hbm, 31, rfl⟩
abbrev main_c_0 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_1 : Ref sig .tc := ⟨.hbm, 63, rfl⟩
abbrev main_v37 : Ref sig .tc := ⟨.hbm, 64, rfl⟩
abbrev main_v38 : Ref sig .tc := ⟨.hbm, 65, rfl⟩
abbrev main_cst_2 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_3 : Ref sig .tc := ⟨.hbm, 72, rfl⟩
abbrev main_v44 : Ref sig .tc := ⟨.hbm, 73, rfl⟩
abbrev main_v45 : Ref sig .tc := ⟨.hbm, 74, rfl⟩
abbrev main_cst_4 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_5 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_6 : Ref sig .tc := ⟨.hbm, 93, rfl⟩
abbrev main_v62 : Ref sig .tc := ⟨.hbm, 94, rfl⟩
abbrev main_v63 : Ref sig .tc := ⟨.hbm, 95, rfl⟩
abbrev main_c_7 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_8 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_9 : Ref sig .tc := ⟨.hbm, 127, rfl⟩
abbrev main_v93 : Ref sig .tc := ⟨.hbm, 128, rfl⟩
abbrev main_v94 : Ref sig .tc := ⟨.hbm, 129, rfl⟩
abbrev main_cst_10 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_11 : Ref sig .tc := ⟨.hbm, 136, rfl⟩
abbrev main_v100 : Ref sig .tc := ⟨.hbm, 137, rfl⟩
abbrev main_v101 : Ref sig .tc := ⟨.hbm, 138, rfl⟩
abbrev main_cst_12 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_13 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_c_14 : Ref sig .tc := ⟨.hbm, 157, rfl⟩
abbrev main_v118 : Ref sig .tc := ⟨.hbm, 158, rfl⟩
abbrev main_v119 : Ref sig .tc := ⟨.hbm, 159, rfl⟩
abbrev main_c_15 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_16 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_cst_17 : Ref sig .tc := ⟨.hbm, 191, rfl⟩
abbrev main_v149 : Ref sig .tc := ⟨.hbm, 192, rfl⟩
abbrev main_v150 : Ref sig .tc := ⟨.hbm, 193, rfl⟩
abbrev main_cst_18 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_cst_19 : Ref sig .tc := ⟨.hbm, 200, rfl⟩
abbrev main_v156 : Ref sig .tc := ⟨.hbm, 201, rfl⟩
abbrev main_v157 : Ref sig .tc := ⟨.hbm, 202, rfl⟩
abbrev main_cst_20 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_cst_21 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_cst_22 : Ref sig .tc := ⟨.hbm, 216, rfl⟩
abbrev main_v169 : Ref sig .tc := ⟨.hbm, 217, rfl⟩
abbrev main_v170 : Ref sig .tc := ⟨.hbm, 218, rfl⟩
abbrev main_call0_cst : Ref sig .tc := ⟨.hbm, 219, rfl⟩
abbrev main_call0_v0 : Ref sig .tc := ⟨.hbm, 220, rfl⟩
abbrev main_v171 : Ref sig .tc := ⟨.hbm, 221, rfl⟩
abbrev main_call1_cst : Ref sig .tc := ⟨.hbm, 222, rfl⟩
abbrev main_call1_v0 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩

abbrev nD : Nat := 1
abbrev τ : Topo := Topo.v7x

variable {F : FTy → Type} [FloatOps F]

class Facts₀ : Prop where
  transposes_S128x128_S128x128_1_0 : S128x128.Transposes [1, 0] S128x128
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  bcast_S_S50000x128 : S_.BroadcastsInDim S50000x128 (![] : Fin 0 → Fin S50000x128.rank)
  transposes_S384x128_S128x384_1_0 : S384x128.Transposes [1, 0] S128x384
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  dot_S50000x128_S128x128_S50000x128_1_0_0_1_n_n_wf : DotDims.WF S50000x128 S128x128 S50000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S50000x128_S128x384_S50000x384_1_0_0_1_n_n_wf : DotDims.WF S50000x128 S128x384 S50000x384 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf

class Facts : Prop extends Facts₀ where

variable [Facts]
-- ==== Proof.Spec.lean ====
/-
  The mathematics both programs compute, as functions of whole arrays over the extended reals.

  One layer of the message-passing update: node features are projected by a square weight matrix (`lin`: x Wᵀ); the
  projected source features are gathered along the edges and summed per target node (kept abstract here: both
  programs apply the same gather and the same segment sum); the target projection `tx` and the aggregate `h` go
  through one gated recurrent cell (`gru`): with gi = tx wihᵀ + bih and gh = h whhᵀ + bhh, both of width 3·128 and
  cut into thirds (r, z, n),
    r = σ(gi_r + gh_r),  z = σ(gi_z + gh_z),  n = tanh(gi_n + r · gh_n),  out = (1 − z) · n + z · h,
  where σ(x) = 1 / (1 + e^(−x)).  The two outputs are max(out, 0) for the single edge type and
  max((out₂ + out₃) / 2, 0) for the two edge types that share a target node type.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- Node features: 50000 nodes, 128 channels. -/
abbrev SN : Shape := ⟨2, ![50000, 128]⟩
/-- A square projection matrix. -/
abbrev SW : Shape := ⟨2, ![128, 128]⟩
/-- A gate weight matrix: the three gates' rows stacked. -/
abbrev SG : Shape := ⟨2, ![384, 128]⟩
/-- A gate bias. -/
abbrev SB : Shape := ⟨1, ![384]⟩

/-- The words of 1.0, 0.0 and 2.0, read as extended reals. -/
def one : EReal := Ideal.ofBits .f32 0x3F800000#32
def zero : EReal := Ideal.ofBits .f32 0x00000000#32
def two : EReal := Ideal.ofBits .f32 0x40000000#32

/-- The logistic function as the reference spells it: 1 / (1 + e^(−x)), with the word of 1.0 for both ones. -/
def sig (x : EReal) : EReal := Ideal.div one (one + Ideal.exp (-x))

/-- x Wᵀ: entry (p, q) is the sum over k of x (p, k) · W (q, k). -/
def lin (x : FVec Ideal SN .f32) (W : FVec Ideal SW .f32) : FVec Ideal SN .f32 :=
  fun i => ∑ k : Fin 128, x (ix2 (i 0) k) * W (ix2 (i 1) k)

/-- Entry (p, c) of t Wᵀ + b for a gate weight matrix W and bias b. -/
def gate (t : FVec Ideal SN .f32) (W : FVec Ideal SG .f32) (b : FVec Ideal SB .f32) (p : Fin 50000) (c : Fin 384) : EReal :=
  (∑ k : Fin 128, t (ix2 p k) * W (ix2 c k)) + b (ix1 c)

/-- Column q of the first, second and third of the three gates. -/
def c0 (q : Fin 128) : Fin 384 := ⟨q.val, by omega⟩
def c1 (q : Fin 128) : Fin 384 := ⟨128 + q.val, by omega⟩
def c2 (q : Fin 128) : Fin 384 := ⟨256 + q.val, by omega⟩

/-- The gated recurrent cell at node p, channel q. -/
def gruAt (tx h : FVec Ideal SN .f32) (wih whh : FVec Ideal SG .f32) (bih bhh : FVec Ideal SB .f32)
    (p : Fin 50000) (q : Fin 128) : EReal :=
  (one - sig (gate tx wih bih p (c1 q) + gate h whh bhh p (c1 q)))
      * Ideal.tanh (gate tx wih bih p (c2 q) + sig (gate tx wih bih p (c0 q) + gate h whh bhh p (c0 q)) * gate h whh bhh p (c2 q))
    + sig (gate tx wih bih p (c1 q) + gate h whh bhh p (c1 q)) * h (ix2 p q)

/-- The cell on whole arrays. -/
def gru (tx h : FVec Ideal SN .f32) (wih whh : FVec Ideal SG .f32) (bih bhh : FVec Ideal SB .f32) : FVec Ideal SN .f32 :=
  fun i => gruAt tx h wih whh bih bhh (i 0) (i 1)

/-- The output for the node type reached by one edge type: max(cell, 0). -/
def outSingle (g : FVec Ideal SN .f32) : FVec Ideal SN .f32 := fun i => max (g i) zero

/-- The output for the node type reached by two edge types: max((cell₂ + cell₃) / 2, 0). -/
def outDual (g2 g3 : FVec Ideal SN .f32) : FVec Ideal SN .f32 := fun i => max (Ideal.div (g2 i + g3 i) two) zero

/-! ## The same functions over weights already transposed, and biases already laid out as one row

The kernel's program transposes every weight matrix and reshapes every bias on the host before its kernels run; the
kernels then compute with [128, 128] and [128, 384] matrices and [1, 384] rows. -/

/-- A gate weight matrix transposed. -/
abbrev SGt : Shape := ⟨2, ![128, 384]⟩
/-- A gate bias as one row. -/
abbrev SB2 : Shape := ⟨2, ![1, 384]⟩

/-- x Wt for an already transposed Wt: entry (p, q) is the sum over k of x (p, k) · Wt (k, q). -/
def linT (x : FVec Ideal SN .f32) (Wt : FVec Ideal SW .f32) : FVec Ideal SN .f32 :=
  fun i => ∑ k : Fin 128, x (ix2 (i 0) k) * Wt (ix2 k (i 1))

/-- Entry (p, c) of t Wt + b for a transposed gate matrix and a one-row bias. -/
def gateT (t : FVec Ideal SN .f32) (Wt : FVec Ideal SGt .f32) (b : FVec Ideal SB2 .f32) (p : Fin 50000) (c : Fin 384) : EReal :=
  (∑ k : Fin 128, t (ix2 p k) * Wt (ix2 k c)) + b (ix2 (0 : Fin 1) c)

/-- The cell at node p, channel q, over transposed weights. -/
def gruAtT (tx h : FVec Ideal SN .f32) (wihT whhT : FVec Ideal SGt .f32) (bih bhh : FVec Ideal SB2 .f32)
    (p : Fin 50000) (q : Fin 128) : EReal :=
  (one - sig (gateT tx wihT bih p (c1 q) + gateT h whhT bhh p (c1 q)))
      * Ideal.tanh (gateT tx wihT bih p (c2 q) + sig (gateT tx wihT bih p (c0 q) + gateT h whhT bhh p (c0 q)) * gateT h whhT bhh p (c2 q))
    + sig (gateT tx wihT bih p (c1 q) + gateT h whhT bhh p (c1 q)) * h (ix2 p q)

/-- The cell on whole arrays, over transposed weights. -/
def gruT (tx h : FVec Ideal SN .f32) (wihT whhT : FVec Ideal SGt .f32) (bih bhh : FVec Ideal SB2 .f32) : FVec Ideal SN .f32 :=
  fun i => gruAtT tx h wihT whhT bih bhh (i 0) (i 1)

end Cert.Spec

end
-- ==== Proof.KDefs.lean ====
/-
  The host-side pieces of the kernel's program that are carried as whole functions: the per-target-node sum of gathered
  source rows (a row gather along the edges' source indices followed by a segment sum over the edges' target
  indices), the stacking of the two outputs, and the range condition on the source indices under which the kernel's
  guarded take is the plain gather.
-/
import proofs.«408718_j59854664237684_1_alg».proof.KernelIdeal
import proofs.«408718_j59854664237684_1_alg».proof.Proof.Gen.KernelIdeal
import Idealize.ShloMosaic.PureOps.Ideal
import proofs.«408718_j59854664237684_1_alg».proof.Proof.Spec

noncomputable section

namespace Cert.KV

open Idealize.ShloMosaic Cert.KernelIdeal Cert.KernelIdeal.Gen

/-- Row 0 of an edge list: the source node of every edge. -/
def srcRow (E : IVec S2x500000 32) : IVec S500000 32 :=
  shapeCast S500000 (extractStridedSlice S1x500000 ![0, 0] E slices_S2x500000_S1x500000_0_0) shapeCasts_S1x500000_S500000

/-- Row 1 of an edge list: the target node of every edge. -/
def dstRow (E : IVec S2x500000 32) : IVec S500000 32 :=
  shapeCast S500000 (extractStridedSlice S1x500000 ![1, 0] E slices_S2x500000_S1x500000_1_0) shapeCasts_S1x500000_S500000

/-- NumPy's reading of a possibly negative row number: a negative word has the table's height added. -/
def wrapRow (r : IVec S500000 32) : IVec S500000 32 :=
  select (cmpi .slt r (broadcastInDim S500000 ![] bcast_S_S500000 (constantI S_ 32 0#32)))
    (addi r (broadcastInDim S500000 ![] bcast_S_S500000 (constantI S_ 32 50000#32))) r

/-- The messages: row `wrapRow (srcRow E) e` of the table for every edge e. -/
def msgs (sx : FVec Ideal S50000x128 .f32) (E : IVec S2x500000 32) : FVec Ideal S500000x128 .f32 :=
  Host.gather gather_S50000x128_S500000x1_S500000x128_1_0_n_n_0_1_1128 sx
    (broadcastInDim S500000x1 ![0] bcast_S500000_S500000x1_0 (wrapRow (srcRow E)))

/-- The aggregate: for every node the sum of the messages of the edges whose target it is. -/
def agg (sx : FVec Ideal S50000x128 .f32) (E : IVec S2x500000 32) : FVec Ideal S50000x128 .f32 :=
  Host.scatterAdd scatter_S50000x128_S500000x1_S500000x128_1_0_0_1
    (broadcastInDim S50000x128 ![] bcast_S_S50000x128 (constant S_ .f32 0x00000000#32))
    (broadcastInDim S500000x1 ![0] bcast_S500000_S500000x1_0 (dstRow E)) (msgs sx E)

/-- The two outputs stacked along a new leading axis. -/
def stack (a b : FVec Ideal S50000x128 .f32) : FVec Ideal S2x50000x128 .f32 :=
  concatenate S2x50000x128 0
    [⟨S1x50000x128, broadcastInDim S1x50000x128 ![1, 2] bcast_S50000x128_S1x50000x128_1_2 a⟩,
     ⟨S1x50000x128, broadcastInDim S1x50000x128 ![1, 2] bcast_S50000x128_S1x50000x128_1_2 b⟩]
    concatenates_S1x50000x128_S1x50000x128_S2x50000x128_d0

/-- Every source index is a row number of the 50000-row table in NumPy's sense: at least −50000 and below 50000. -/
def InRange (E : IVec S2x500000 32) : Prop :=
  ∀ e : S500000.Idx, IntOp.cmpi .sge (srcRow E e) 4294917296#32 = 1#1 ∧ IntOp.cmpi .slt (srcRow E e) 50000#32 = 1#1

/-- One edge type's cell: the target projection and the aggregate of the gathered source projection through the cell. -/
def edgeCell (x_src x_tgt : FVec Ideal S50000x128 .f32) (E : IVec S2x500000 32) (Ws Wt : FVec Ideal S128x128 .f32)
    (wih whh : FVec Ideal S384x128 .f32) (bih bhh : FVec Ideal S384 .f32) : FVec Ideal S50000x128 .f32 :=
  Spec.gru (Spec.lin x_tgt Wt) (agg (Spec.lin x_src Ws) E) wih whh bih bhh

/-- The whole result as a function of the 23 arguments: edge type 1 goes from node type a to node type b, edge types 2
    and 3 from b to a; the b-side output is max(cell₁, 0), the a-side output max((cell₂ + cell₃) / 2, 0). -/
def result (x_a x_b : FVec Ideal S50000x128 .f32) (E1 E2 E3 : IVec S2x500000 32)
    (Ws1 Wt1 : FVec Ideal S128x128 .f32) (wih1 whh1 : FVec Ideal S384x128 .f32) (bih1 bhh1 : FVec Ideal S384 .f32)
    (Ws2 Wt2 : FVec Ideal S128x128 .f32) (wih2 whh2 : FVec Ideal S384x128 .f32) (bih2 bhh2 : FVec Ideal S384 .f32)
    (Ws3 Wt3 : FVec Ideal S128x128 .f32) (wih3 whh3 : FVec Ideal S384x128 .f32) (bih3 bhh3 : FVec Ideal S384 .f32) :
    FVec Ideal S2x50000x128 .f32 :=
  stack
    (Spec.outDual (edgeCell x_b x_a E2 Ws2 Wt2 wih2 whh2 bih2 bhh2) (edgeCell x_b x_a E3 Ws3 Wt3 wih3 whh3 bih3 bhh3))
    (Spec.outSingle (edgeCell x_a x_b E1 Ws1 Wt1 wih1 whh1 bih1 bhh1))

end Cert.KV

end
-- ==== Proof.PreIdx.lean ====
/-
  What the precondition says about the edge lists: every source index of each of the three edge lists is a row number of
  the 50000-row table in NumPy's sense.
-/
import proofs.«408718_j59854664237684_1_alg».proof.Defs
import proofs.«408718_j59854664237684_1_alg».proof.Proof.Gen.Pre_finite_inputs
import proofs.«408718_j59854664237684_1_alg».proof.Proof.KDefs
import Idealize.ShloMosaic.Lib.ReduceAll

noncomputable section

namespace Cert.KV

open Idealize.ShloMosaic Idealize.ShloMosaic.TcCoe Idealize.SL.Sem Cert.KernelIdeal

/-- The scalar shape has one index. -/
local instance subsingletonScalarIdx : Subsingleton Cert.Pre_finite_inputs.S_.Idx := ⟨fun a b => funext fun d => d.elim0⟩

/-- The last stretch of the precondition (its conjunction with what came before, the second test of the second edge list
    still to be reduced, and the two tests of the third edge list): if it is 1, what came before is 1, that pending
    test holds everywhere, and the third edge list is in range. -/
theorem of_part7 (E4 : IVec S2x500000 32) (v116 : IVec Cert.Pre_finite_inputs.S_ 1) (v120 : IVec Cert.Pre_finite_inputs.S500000 1)
    (j : Cert.Pre_finite_inputs.S_.Idx) (e : Cert.Pre_finite_inputs.fn_part7 (F := Ideal) E4 v116 v120 j = 1#1) :
    v116 j = 1#1 ∧ (∀ i, v120 i = 1#1) ∧ InRange E4 := by
  dsimp only [Cert.Pre_finite_inputs.fn_part7] at e
  obtain ⟨e128, e133⟩ := IntOp.andi_eq_one.1 e
  obtain ⟨e122, e127⟩ := IntOp.andi_eq_one.1 e128
  obtain ⟨e116, e121⟩ := IntOp.andi_eq_one.1 e122
  exact ⟨e116, fun i => Host.reduce_andi_all _ _ _ _ j e121 i,
    fun i => ⟨Host.reduce_andi_all _ _ _ _ j e127 i, Host.reduce_andi_all _ _ _ _ j e133 i⟩⟩

/-- The stretch before it (the first test of the first edge list still to be reduced, its second test, and the second
    edge list's two tests, then the last stretch): if it is 1, all three edge lists are in range. -/
theorem of_part6 (E2 E3 E4 : IVec S2x500000 32) (v98 : IVec Cert.Pre_finite_inputs.S_ 1) (v102 : IVec Cert.Pre_finite_inputs.S500000 1)
    (j : Cert.Pre_finite_inputs.S_.Idx) (e : Cert.Pre_finite_inputs.fn_part6 (F := Ideal) E2 E3 E4 v98 v102 j = 1#1) :
    (∀ i, v102 i = 1#1) ∧ (∀ i : S500000.Idx, IntOp.cmpi .slt (srcRow E2 i) 50000#32 = 1#1) ∧ InRange E3 ∧ InRange E4 := by
  dsimp only [Cert.Pre_finite_inputs.fn_part6] at e
  obtain ⟨e116, e120, h4⟩ := of_part7 _ _ _ j e
  obtain ⟨e110, e115⟩ := IntOp.andi_eq_one.1 e116
  obtain ⟨e104, e109⟩ := IntOp.andi_eq_one.1 e110
  obtain ⟨-, e103⟩ := IntOp.andi_eq_one.1 e104
  exact ⟨fun i => Host.reduce_andi_all _ _ _ _ j e103 i, fun i => Host.reduce_andi_all _ _ _ _ j e109 i,
    fun i => ⟨Host.reduce_andi_all _ _ _ _ j e115 i, e120 i⟩, h4⟩

theorem inRange_of_pre (m : (ℓ : Loc nD τ sig) → Buf (Elt Ideal) ℓ) (h : Cert.Pre_KernelIdeal m) (c : Dev nD) :
    InRange (m ((c.tc : Thread nD τ).loc main_arg2)) ∧ InRange (m ((c.tc : Thread nD τ).loc main_arg3))
      ∧ InRange (m ((c.tc : Thread nD τ).loc main_arg4)) := by
  have e := congrFun (h c) ValueIdx.ix0
  dsimp only [Cert.Pre_finite_inputs.fn, Cert.Pre_finite_inputs.fn_part1, Cert.Pre_finite_inputs.fn_part2, Cert.Pre_finite_inputs.fn_part3,
    Cert.Pre_finite_inputs.fn_part4, Cert.Pre_finite_inputs.fn_part5] at e
  obtain ⟨e102, e108, h3, h4⟩ := of_part6 _ _ _ _ _ _ e
  exact ⟨fun i => ⟨e102 i, e108 i⟩, h3, h4⟩

end Cert.KV

end
-- ==== Proof.SpecLaws.lean ====
/-
  Laws joining the two spellings of the specification: the logistic function spelt with the word of 1.0 is the
  library's; half a sum is the sum divided by two; a product with a transposed matrix is the product with the
  matrix's rows; the cell over transposed weights and one-row biases is the cell.
-/
import proofs.«408718_j59854664237684_1_alg».proof.Proof.Spec
import Idealize.ShloMosaic.Lib.Pipeline.Value

noncomputable section

namespace Cert.Spec

open Idealize.ShloMosaic Idealize.ShloMosaic.ValueIdx

/-! ## The whole-array functions read at an entry (p, q) -/

theorem lin_apply (x : FVec Ideal SN .f32) (W : FVec Ideal SW .f32) (p : Fin 50000) (q : Fin 128) :
    lin x W (ix2 p q) = ∑ k : Fin 128, x (ix2 p k) * W (ix2 q k) := rfl

theorem linT_apply (x : FVec Ideal SN .f32) (Wt : FVec Ideal SW .f32) (p : Fin 50000) (q : Fin 128) :
    linT x Wt (ix2 p q) = ∑ k : Fin 128, x (ix2 p k) * Wt (ix2 k q) := rfl

theorem gru_apply (tx h : FVec Ideal SN .f32) (wih whh : FVec Ideal SG .f32) (bih bhh : FVec Ideal SB .f32)
    (p : Fin 50000) (q : Fin 128) : gru tx h wih whh bih bhh (ix2 p q) = gruAt tx h wih whh bih bhh p q := rfl

theorem gruT_apply (tx h : FVec Ideal SN .f32) (wihT whhT : FVec Ideal SGt .f32) (bih bhh : FVec Ideal SB2 .f32)
    (p : Fin 50000) (q : Fin 128) : gruT tx h wihT whhT bih bhh (ix2 p q) = gruAtT tx h wihT whhT bih bhh p q := rfl

theorem outSingle_apply (g : FVec Ideal SN .f32) (i : SN.Idx) : outSingle g i = max (g i) zero := rfl

theorem outDual_apply (g2 g3 : FVec Ideal SN .f32) (i : SN.Idx) :
    outDual g2 g3 i = max (Ideal.div (g2 i + g3 i) two) zero := rfl

/-- Every index of a node-feature array is a pair of a node and a channel. -/
theorem exists_ix2 (i : SN.Idx) : ∃ (p : Fin 50000) (q : Fin 128), i = ix2 p q := ⟨i 0, i 1, eq_ix2 i⟩

/-! ## The laws -/

/-- The word of 1.0 is the extended real 1. -/
theorem ofBits_one : Ideal.ofBits .f32 0x3F800000#32 = (1 : EReal) := by
  have h : Ideal.ofBits .f32 0x3F800000#32 = ((1 : ℝ) : EReal) := by
    simp [Ideal.ofBits, Ideal.ieee, -EReal.coe_mul]; norm_num
  rw [h, EReal.coe_one]

/-- 1 / (1 + e^(−x)) spelt with the word of 1.0 is the logistic function. -/
theorem sig_eq_logistic (x : EReal) : sig x = Ideal.logistic x := by
  unfold sig one Ideal.logistic
  rw [ofBits_one]

/-- On every extended real, the product with 0.5 is the quotient by 2.0: division by a nonzero real is the product
    with its reciprocal. -/
theorem mul_half_eq_div_two (x : EReal) : x * Ideal.ofBits .f32 0x3F000000#32 = Ideal.div x two := by
  have h2 : Ideal.ofBits .f32 0x40000000#32 = ((2 : ℝ) : EReal) := by
    simp [Ideal.ofBits, Ideal.ieee, -EReal.coe_mul]; norm_num
  have hh : Ideal.ofBits .f32 0x3F000000#32 = ((1 / 2 : ℝ) : EReal) := by
    simp [Ideal.ofBits, Ideal.ieee, -EReal.coe_mul]; norm_num
  unfold two
  rw [h2, hh, Ideal.div_coe (by norm_num : (2 : ℝ) ≠ 0)]

/-- Entry (k, q) of a transposed square matrix is entry (q, k) of the matrix. -/
theorem transpose_sq_apply (W : FVec Ideal SW .f32) (h : SW.Transposes [1, 0] SW) (k q : Fin 128) :
    transpose SW [1, 0] W h (ix2 k q) = W (ix2 q k) :=
  transpose_apply [1, 0] W h (ix2 k q) (ix2 q k) (fun b => match b with
    | ⟨0, _⟩ => rfl
    | ⟨1, _⟩ => rfl)

/-- x times a transposed matrix is x Wᵀ. -/
theorem linT_transpose (x : FVec Ideal SN .f32) (W : FVec Ideal SW .f32) (h : SW.Transposes [1, 0] SW) :
    linT x (transpose SW [1, 0] W h) = lin x W := by
  funext i
  obtain ⟨p, q, rfl⟩ := exists_ix2 i
  rw [linT_apply, lin_apply]
  exact Finset.sum_congr rfl fun k _ => by rw [transpose_sq_apply]

/-- Entry (k, c) of a transposed gate matrix is entry (c, k) of the matrix. -/
theorem transpose_gate_apply (W : FVec Ideal SG .f32) (h : SG.Transposes [1, 0] SGt) (k : Fin 128) (c : Fin 384) :
    transpose SGt [1, 0] W h (ix2 k c) = W (ix2 c k) :=
  transpose_apply [1, 0] W h (ix2 k c) (ix2 c k) (fun b => match b with
    | ⟨0, _⟩ => rfl
    | ⟨1, _⟩ => rfl)

/-- Entry (0, c) of a bias laid out as one row is entry c of the bias. -/
theorem row_bias_apply (b : FVec Ideal SB .f32) (h : SB.ShapeCasts SB2) (c : Fin 384) :
    shapeCast SB2 b h (ix2 (0 : Fin 1) c) = b (ix1 c) := by
  refine shapeCast_apply b h (ix2 (0 : Fin 1) c) (ix1 c) ?_
  rw [Shape.rowMajor_val_two, Shape.rowMajor_val_one]
  show c.val = 0 * 384 + c.val
  omega

/-- A gate over the transposed matrix and the one-row bias is the gate. -/
theorem gateT_transpose (t : FVec Ideal SN .f32) (W : FVec Ideal SG .f32) (b : FVec Ideal SB .f32)
    (ht : SG.Transposes [1, 0] SGt) (hb : SB.ShapeCasts SB2) (p : Fin 50000) (c : Fin 384) :
    gateT t (transpose SGt [1, 0] W ht) (shapeCast SB2 b hb) p c = gate t W b p c := by
  unfold gateT gate
  rw [row_bias_apply]
  congr 1
  exact Finset.sum_congr rfl fun k _ => by rw [transpose_gate_apply]

/-- The cell over transposed weights and one-row biases is the cell. -/
theorem gruT_transpose (tx h : FVec Ideal SN .f32) (wih whh : FVec Ideal SG .f32) (bih bhh : FVec Ideal SB .f32)
    (ht : SG.Transposes [1, 0] SGt) (hb : SB.ShapeCasts SB2) :
    gruT tx h (transpose SGt [1, 0] wih ht) (transpose SGt [1, 0] whh ht) (shapeCast SB2 bih hb) (shapeCast SB2 bhh hb)
      = gru tx h wih whh bih bhh := by
  funext i
  obtain ⟨p, q, rfl⟩ := exists_ix2 i
  rw [gruT_apply, gru_apply]
  unfold gruAtT gruAt
  rw [gateT_transpose tx wih bih ht hb p (c0 q), gateT_transpose tx wih bih ht hb p (c1 q),
    gateT_transpose tx wih bih ht hb p (c2 q), gateT_transpose h whh bhh ht hb p (c0 q),
    gateT_transpose h whh bhh ht hb p (c1 q), gateT_transpose h whh bhh ht hb p (c2 q)]

end Cert.Spec

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.KLin0.lean ====
/-
  Region 0 (the first fused projection kernel): each of its three output arrays, after the pipeline has run over the
  ten row blocks, is the input array times the corresponding (already transposed) weight matrix.

  At a point of the grid the body stores, into each output's block, the product of the input's row block with one
  whole matrix (the changes of float format around the product are the identity over the extended reals). Entry by
  entry that product is the row of the block times the column of the matrix, and the block's rows are rows
  5000 b … 5000 b + 4999 of the input array, b the block's index: so what the point writes back is block b of the
  whole product. The ten blocks tile the array (row r lies in block r / 5000), so the array ends holding the product.
-/
import proofs.«408718_j59854664237684_1_alg».proof.Proof.Gen.KernelIdeal.Frame
import proofs.«408718_j59854664237684_1_alg».proof.Proof.Spec
import proofs.«408718_j59854664237684_1_alg».proof.Proof.SpecLaws
import proofs.«408718_j59854664237684_1_alg».proof.Proof.LibPlainMatmul

set_option maxRecDepth 16384

noncomputable section

namespace Cert.KV

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-! ## The payloads at an entry -/

/-- The printed dimension numbers are those of a plain [5000, 128] x [128, 128] product. -/
theorem lin0_dot : dot_S5000x128_S128x128_S5000x128_1_0_0_1_n_n = DotDims.plain 5000 128 128 := rfl

/-- The first payload at an entry: the row of the block times the column of the matrix (the changes of float format
    are the identity over the extended reals, the shape cast is to the same shape). -/
theorem lin0_pay2 (x : Vec Ideal S5000x128 .f32) (W : Vec Ideal S128x128 .f32) (p : Fin 5000) (q : Fin 128) :
    k0_pay2 x W (ix2 p q) = ∑ k : Fin 128, x (ix2 p k) * W (ix2 k q) := by
  unfold k0_pay2 k0_pay1
  rw [shapeCast_self, lin0_dot]
  exact Cert.PlainMatmul.apply none _ _ p q

/-- The second and third payloads are the same product. -/
theorem lin0_pay3 : k0_pay3 (F := Ideal) = k0_pay2 := rfl
theorem lin0_pay4 : k0_pay4 (F := Ideal) = k0_pay2 := rfl

/-- A block of rows of x Wt from the same block of rows of x and the whole of Wt: when the block `xb` holds rows
    5000 b … 5000 b + 4999 of `x` and `Wb` holds `Wt`, the payload at entry j of the block is x Wt at the entry of the
    array that lies 5000 b rows further down. -/
theorem lin0_block (xb : Vec Ideal S5000x128 .f32) (Wb : Vec Ideal S128x128 .f32)
    (x : FVec Ideal Spec.SN .f32) (Wt : FVec Ideal Spec.SW .f32) (b : ℕ)
    (hx : ∀ (p : Fin 5000) (k : Fin 128) (r : Fin 50000), r.val = b * 5000 + p.val → xb (ix2 p k) = x (ix2 r k))
    (hW : ∀ k q : Fin 128, Wb (ix2 k q) = Wt (ix2 k q))
    (j : S5000x128.Idx) (i : Spec.SN.Idx) (h0 : (i 0).val = b * 5000 + (j 0).val) (h1 : (i 1).val = (j 1).val) :
    k0_pay2 xb Wb j = Spec.linT x Wt i := by
  obtain ⟨p, q, rfl⟩ : ∃ (p : Fin 5000) (q : Fin 128), j = ix2 p q := ⟨j 0, j 1, eq_ix2 j⟩
  obtain ⟨r, q', rfl⟩ := Spec.exists_ix2 i
  obtain rfl : q' = q := Fin.ext h1
  rw [lin0_pay2, Spec.linT_apply]
  exact Finset.sum_congr rfl fun k _ => by rw [hx p k r h0, hW]

/-! ## From the blocks to the arrays -/

theorem lin0_zero_off : (![0, 0] : Fin 2 → Nat) = fun _ => 0 := funext fun a => by fin_cases a <;> rfl

/-- The printed index maps over the grid: the input's row block is the outputs' row block, every column block is 0,
    and the three matrices are whole at every point. -/
theorem lin0_maps : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_5.index t (0 : Fin 2) = win0_4.index t (0 : Fin 2) ∧ win0_6.index t (0 : Fin 2) = win0_4.index t (0 : Fin 2)
    ∧ win0_4.index t (1 : Fin 2) = 0 ∧ win0_5.index t (1 : Fin 2) = 0 ∧ win0_6.index t (1 : Fin 2) = 0 :=
  (by decide +kernel : ∀ t : Fin grid0.N, _)

/-- Every row block is some point's, for each of the three outputs. -/
theorem lin0_onto : ∀ q0 : Fin 10, ∃ t : Fin cfg0.N, win0_4.index t = ![q0.val, 0] ∧ win0_5.index t = ![q0.val, 0] ∧ win0_6.index t = ![q0.val, 0] :=
  (by decide +kernel : ∀ q0 : Fin 10, ∃ t : Fin grid0.N, win0_4.index t = ![q0.val, 0] ∧ win0_5.index t = ![q0.val, 0] ∧ win0_6.index t = ![q0.val, 0])

/-- The input window's block at point t holds rows 5000 b … 5000 b + 4999 of the input array, b the block index. -/
theorem lin0_rows (c : Dev nD) (t : Fin cfg0.N) (p : Fin 5000) (k : Fin 128) (r : Fin 50000)
    (hr : r.val = win0_4.index t (0 : Fin 2) * 5000 + p.val) :
    iblk0 V c 0 t (ix2 p k) = V c main_arg0 (ix2 r k) := by
  obtain ⟨e0, e1, -⟩ := lin0_maps t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Each matrix window's block at any point is the whole matrix. -/
theorem lin0_mat1 (c : Dev nD) (t : Fin cfg0.N) (k q : Fin 128) : iblk0 V c 1 t (ix2 k q) = V c main_v0 (ix2 k q) := by
  obtain ⟨-, -, e2, e3, -⟩ := lin0_maps t
  show V c main_v0 (((cfg0.win 1).blk t).view.emb (ix2 k q)) = V c main_v0 (ix2 k q)
  refine congrArg (V c main_v0) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega
theorem lin0_mat2 (c : Dev nD) (t : Fin cfg0.N) (k q : Fin 128) : iblk0 V c 2 t (ix2 k q) = V c main_v3 (ix2 k q) := by
  obtain ⟨-, -, -, -, e4, e5, -⟩ := lin0_maps t
  show V c main_v3 (((cfg0.win 2).blk t).view.emb (ix2 k q)) = V c main_v3 (ix2 k q)
  refine congrArg (V c main_v3) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega
theorem lin0_mat3 (c : Dev nD) (t : Fin cfg0.N) (k q : Fin 128) : iblk0 V c 3 t (ix2 k q) = V c main_v5 (ix2 k q) := by
  obtain ⟨-, -, -, -, -, -, e6, e7, -⟩ := lin0_maps t
  show V c main_v5 (((cfg0.win 3).blk t).view.emb (ix2 k q)) = V c main_v5 (ix2 k q)
  refine congrArg (V c main_v5) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- What point t writes back to the first output is block t of x Wt for the first matrix. -/
theorem lin0_wb4 (c : Dev nD) (t : Fin cfg0.N) :
    (dat0 (F := Ideal) V c).flushed 4 t = ((cfg0.win 4).blk t).view.read (Elt Ideal) (Spec.linT (V c main_arg0) (V c main_v0)) := by
  show (cfg0.win 4).cut (grid0.coords t) ((dat0 V c).after 4 t) = _
  rw [after0_4]
  unfold out0_4
  rw [View.canon_unit_zero lin0_zero_off]
  simp only [View.ld_unit_zero (S := S5000x128) lin0_zero_off, View.ld_unit_zero (S := S128x128) lin0_zero_off]
  obtain ⟨-, -, -, -, -, -, -, -, -, -, e10, -⟩ := lin0_maps t
  funext j
  refine lin0_block (iblk0 V c 0 t) (iblk0 V c 1 t) (V c main_arg0) (V c main_v0) (win0_4.index t (0 : Fin 2))
    (lin0_rows V c t) (lin0_mat1 V c t) _ _ ?_ ?_
  · show win0_4.index t (0 : Fin 2) * 5000 + 1 * (j 0).val = win0_4.index t (0 : Fin 2) * 5000 + (j 0).val
    omega
  · show win0_4.index t (1 : Fin 2) * 128 + 1 * (j 1).val = (j 1).val
    omega

/-- What point t writes back to the second output is block t of x Wt for the second matrix. -/
theorem lin0_wb5 (c : Dev nD) (t : Fin cfg0.N) :
    (dat0 (F := Ideal) V c).flushed 5 t = ((cfg0.win 5).blk t).view.read (Elt Ideal) (Spec.linT (V c main_arg0) (V c main_v3)) := by
  show (cfg0.win 5).cut (grid0.coords t) ((dat0 V c).after 5 t) = _
  rw [after0_5]
  unfold out0_5
  rw [View.canon_unit_zero lin0_zero_off, lin0_pay3]
  simp only [View.ld_unit_zero (S := S5000x128) lin0_zero_off, View.ld_unit_zero (S := S128x128) lin0_zero_off]
  obtain ⟨-, -, -, -, -, -, -, -, e8, -, -, e11, -⟩ := lin0_maps t
  funext j
  refine lin0_block (iblk0 V c 0 t) (iblk0 V c 2 t) (V c main_arg0) (V c main_v3) (win0_4.index t (0 : Fin 2))
    (lin0_rows V c t) (lin0_mat2 V c t) _ _ ?_ ?_
  · show win0_5.index t (0 : Fin 2) * 5000 + 1 * (j 0).val = win0_4.index t (0 : Fin 2) * 5000 + (j 0).val
    omega
  · show win0_5.index t (1 : Fin 2) * 128 + 1 * (j 1).val = (j 1).val
    omega

/-- What point t writes back to the third output is block t of x Wt for the third matrix. -/
theorem lin0_wb6 (c : Dev nD) (t : Fin cfg0.N) :
    (dat0 (F := Ideal) V c).flushed 6 t = ((cfg0.win 6).blk t).view.read (Elt Ideal) (Spec.linT (V c main_arg0) (V c main_v5)) := by
  show (cfg0.win 6).cut (grid0.coords t) ((dat0 V c).after 6 t) = _
  rw [after0_6]
  unfold out0_6
  rw [View.canon_unit_zero lin0_zero_off, lin0_pay4]
  simp only [View.ld_unit_zero (S := S5000x128) lin0_zero_off, View.ld_unit_zero (S := S128x128) lin0_zero_off]
  obtain ⟨-, -, -, -, -, -, -, -, -, e9, -, -, e12⟩ := lin0_maps t
  funext j
  refine lin0_block (iblk0 V c 0 t) (iblk0 V c 3 t) (V c main_arg0) (V c main_v5) (win0_4.index t (0 : Fin 2))
    (lin0_rows V c t) (lin0_mat3 V c t) _ _ ?_ ?_
  · show win0_6.index t (0 : Fin 2) * 5000 + 1 * (j 0).val = win0_4.index t (0 : Fin 2) * 5000 + (j 0).val
    omega
  · show win0_6.index t (1 : Fin 2) * 128 + 1 * (j 1).val = (j 1).val
    omega

/-- An entry of an output array is in point t's block iff each coordinate is in the block's range on its axis. -/
theorem lin0_mem4 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v18_0).slice (win0_4.rect t)).set ↔ _
  rw [View.set_slice_whole, Rect.mem_set_unit]
  exact Iff.rfl
theorem lin0_mem5 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v18_1).slice (win0_5.rect t)).set ↔ _
  rw [View.set_slice_whole, Rect.mem_set_unit]
  exact Iff.rfl
theorem lin0_mem6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v18_2).slice (win0_6.rect t)).set ↔ _
  rw [View.set_slice_whole, Rect.mem_set_unit]
  exact Iff.rfl

/-- Row r of an output array is written by the point whose row block is r / 5000. -/
theorem lin0_all4 (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht, -, -⟩ := lin0_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [lin0_mem4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega
theorem lin0_all5 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, -, ht, -⟩ := lin0_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [lin0_mem5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega
theorem lin0_all6 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, -, -, ht⟩ := lin0_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [lin0_mem6]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-! ## The three output arrays after the run -/

theorem arr0_4 (c : Dev nD) : (dat0 (F := Ideal) V c).arrAt 4 cfg0.N = Spec.linT (V c main_arg0) (V c main_v0) :=
  (dat0 (F := Ideal) V c).arrAt_eq_of_cover 4 _ (fun t _ => lin0_wb4 V c t) lin0_all4
theorem arr0_5 (c : Dev nD) : (dat0 (F := Ideal) V c).arrAt 5 cfg0.N = Spec.linT (V c main_arg0) (V c main_v3) :=
  (dat0 (F := Ideal) V c).arrAt_eq_of_cover 5 _ (fun t _ => lin0_wb5 V c t) lin0_all5
theorem arr0_6 (c : Dev nD) : (dat0 (F := Ideal) V c).arrAt 6 cfg0.N = Spec.linT (V c main_arg0) (V c main_v5) :=
  (dat0 (F := Ideal) V c).arrAt_eq_of_cover 6 _ (fun t _ => lin0_wb6 V c t) lin0_all6

end Cert.KV

end
-- ==== Proof.KLin1.lean ====
/-
  Region 1 (the second fused projection kernel): each of its three output arrays, after the pipeline has run over the
  ten row blocks, is the input array times the corresponding (already transposed) weight matrix.

  At a point of the grid the body stores, into each output's block, the product of the input's row block with one
  whole matrix (the changes of float format around the product are the identity over the extended reals). Entry by
  entry that product is the row of the block times the column of the matrix, and the block's rows are rows
  5000 b … 5000 b + 4999 of the input array, b the block's index: so what the point writes back is block b of the
  whole product. The ten blocks tile the array (row r lies in block r / 5000), so the array ends holding the product.
-/
import proofs.«408718_j59854664237684_1_alg».proof.Proof.Gen.KernelIdeal.Frame
import proofs.«408718_j59854664237684_1_alg».proof.Proof.Spec
import proofs.«408718_j59854664237684_1_alg».proof.Proof.SpecLaws
import proofs.«408718_j59854664237684_1_alg».proof.Proof.LibPlainMatmul

set_option maxRecDepth 16384

noncomputable section

namespace Cert.KV

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-! ## The payloads at an entry -/

/-- The printed dimension numbers are those of a plain [5000, 128] x [128, 128] product. -/
theorem lin1_dot : dot_S5000x128_S128x128_S5000x128_1_0_0_1_n_n = DotDims.plain 5000 128 128 := rfl

/-- The first payload at an entry: the row of the block times the column of the matrix (the changes of float format
    are the identity over the extended reals, the shape cast is to the same shape). -/
theorem lin1_pay2 (x : Vec Ideal S5000x128 .f32) (W : Vec Ideal S128x128 .f32) (p : Fin 5000) (q : Fin 128) :
    k1_pay2 x W (ix2 p q) = ∑ k : Fin 128, x (ix2 p k) * W (ix2 k q) := by
  unfold k1_pay2 k1_pay1
  rw [shapeCast_self, lin1_dot]
  exact Cert.PlainMatmul.apply none _ _ p q

/-- The second and third payloads are the same product. -/
theorem lin1_pay3 : k1_pay3 (F := Ideal) = k1_pay2 := rfl
theorem lin1_pay4 : k1_pay4 (F := Ideal) = k1_pay2 := rfl

/-- A block of rows of x Wt from the same block of rows of x and the whole of Wt: when the block `xb` holds rows
    5000 b … 5000 b + 4999 of `x` and `Wb` holds `Wt`, the payload at entry j of the block is x Wt at the entry of the
    array that lies 5000 b rows further down. -/
theorem lin1_block (xb : Vec Ideal S5000x128 .f32) (Wb : Vec Ideal S128x128 .f32)
    (x : FVec Ideal Spec.SN .f32) (Wt : FVec Ideal Spec.SW .f32) (b : ℕ)
    (hx : ∀ (p : Fin 5000) (k : Fin 128) (r : Fin 50000), r.val = b * 5000 + p.val → xb (ix2 p k) = x (ix2 r k))
    (hW : ∀ k q : Fin 128, Wb (ix2 k q) = Wt (ix2 k q))
    (j : S5000x128.Idx) (i : Spec.SN.Idx) (h0 : (i 0).val = b * 5000 + (j 0).val) (h1 : (i 1).val = (j 1).val) :
    k1_pay2 xb Wb j = Spec.linT x Wt i := by
  obtain ⟨p, q, rfl⟩ : ∃ (p : Fin 5000) (q : Fin 128), j = ix2 p q := ⟨j 0, j 1, eq_ix2 j⟩
  obtain ⟨r, q', rfl⟩ := Spec.exists_ix2 i
  obtain rfl : q' = q := Fin.ext h1
  rw [lin1_pay2, Spec.linT_apply]
  exact Finset.sum_congr rfl fun k _ => by rw [hx p k r h0, hW]

/-! ## From the blocks to the arrays -/

theorem lin1_zero_off : (![0, 0] : Fin 2 → Nat) = fun _ => 0 := funext fun a => by fin_cases a <;> rfl

/-- The printed index maps over the grid: the input's row block is the outputs' row block, every column block is 0,
    and the three matrices are whole at every point. -/
theorem lin1_maps : ∀ t : Fin cfg1.N, win1_0.index t (0 : Fin 2) = win1_4.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_5.index t (0 : Fin 2) = win1_4.index t (0 : Fin 2) ∧ win1_6.index t (0 : Fin 2) = win1_4.index t (0 : Fin 2)
    ∧ win1_4.index t (1 : Fin 2) = 0 ∧ win1_5.index t (1 : Fin 2) = 0 ∧ win1_6.index t (1 : Fin 2) = 0 :=
  (by decide +kernel : ∀ t : Fin grid1.N, _)

/-- Every row block is some point's, for each of the three outputs. -/
theorem lin1_onto : ∀ q0 : Fin 10, ∃ t : Fin cfg1.N, win1_4.index t = ![q0.val, 0] ∧ win1_5.index t = ![q0.val, 0] ∧ win1_6.index t = ![q0.val, 0] :=
  (by decide +kernel : ∀ q0 : Fin 10, ∃ t : Fin grid1.N, win1_4.index t = ![q0.val, 0] ∧ win1_5.index t = ![q0.val, 0] ∧ win1_6.index t = ![q0.val, 0])

/-- The input window's block at point t holds rows 5000 b … 5000 b + 4999 of the input array, b the block index. -/
theorem lin1_rows (c : Dev nD) (t : Fin cfg1.N) (p : Fin 5000) (k : Fin 128) (r : Fin 50000)
    (hr : r.val = win1_4.index t (0 : Fin 2) * 5000 + p.val) :
    iblk1 V c 0 t (ix2 p k) = V c main_arg1 (ix2 r k) := by
  obtain ⟨e0, e1, -⟩ := lin1_maps t
  show V c main_arg1 (((cfg1.win 0).blk t).view.emb (ix2 p k)) = V c main_arg1 (ix2 r k)
  refine congrArg (V c main_arg1) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- Each matrix window's block at any point is the whole matrix. -/
theorem lin1_mat1 (c : Dev nD) (t : Fin cfg1.N) (k q : Fin 128) : iblk1 V c 1 t (ix2 k q) = V c main_v1 (ix2 k q) := by
  obtain ⟨-, -, e2, e3, -⟩ := lin1_maps t
  show V c main_v1 (((cfg1.win 1).blk t).view.emb (ix2 k q)) = V c main_v1 (ix2 k q)
  refine congrArg (V c main_v1) (funext fun a => Fin.ext ?_)
  match a with
  | ⟨0, _⟩ => show win1_1.index t (0 : Fin 2) * 128 + 1 * k.val = k.val; omega
  | ⟨1, _⟩ => show win1_1.index t (1 : Fin 2) * 128 + 1 * q.val = q.val; omega
theorem lin1_mat2 (c : Dev nD) (t : Fin cfg1.N) (k q : Fin 128) : iblk1 V c 2 t (ix2 k q) = V c main_v2 (ix2 k q) := by
  obtain ⟨-, -, -, -, e4, e5, -⟩ := lin1_maps t
  show V c main_v2 (((cfg1.win 2).blk t).view.emb (ix2 k q)) = V c main_v2 (ix2 k q)
  refine congrArg (V c main_v2) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega
theorem lin1_mat3 (c : Dev nD) (t : Fin cfg1.N) (k q : Fin 128) : iblk1 V c 3 t (ix2 k q) = V c main_v4 (ix2 k q) := by
  obtain ⟨-, -, -, -, -, -, e6, e7, -⟩ := lin1_maps t
  show V c main_v4 (((cfg1.win 3).blk t).view.emb (ix2 k q)) = V c main_v4 (ix2 k q)
  refine congrArg (V c main_v4) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- What point t writes back to the first output is block t of x Wt for the first matrix. -/
theorem lin1_wb4 (c : Dev nD) (t : Fin cfg1.N) :
    (dat1 (F := Ideal) V c).flushed 4 t = ((cfg1.win 4).blk t).view.read (Elt Ideal) (Spec.linT (V c main_arg1) (V c main_v1)) := by
  show (cfg1.win 4).cut (grid1.coords t) ((dat1 V c).after 4 t) = _
  rw [after1_4]
  unfold out1_4
  rw [View.canon_unit_zero lin1_zero_off]
  simp only [View.ld_unit_zero (S := S5000x128) lin1_zero_off, View.ld_unit_zero (S := S128x128) lin1_zero_off]
  obtain ⟨-, -, -, -, -, -, -, -, -, -, e10, -⟩ := lin1_maps t
  funext j
  refine lin1_block (iblk1 V c 0 t) (iblk1 V c 1 t) (V c main_arg1) (V c main_v1) (win1_4.index t (0 : Fin 2))
    (lin1_rows V c t) (lin1_mat1 V c t) _ _ ?_ ?_
  · show win1_4.index t (0 : Fin 2) * 5000 + 1 * (j 0).val = win1_4.index t (0 : Fin 2) * 5000 + (j 0).val
    omega
  · show win1_4.index t (1 : Fin 2) * 128 + 1 * (j 1).val = (j 1).val
    omega

/-- What point t writes back to the second output is block t of x Wt for the second matrix. -/
theorem lin1_wb5 (c : Dev nD) (t : Fin cfg1.N) :
    (dat1 (F := Ideal) V c).flushed 5 t = ((cfg1.win 5).blk t).view.read (Elt Ideal) (Spec.linT (V c main_arg1) (V c main_v2)) := by
  show (cfg1.win 5).cut (grid1.coords t) ((dat1 V c).after 5 t) = _
  rw [after1_5]
  unfold out1_5
  rw [View.canon_unit_zero lin1_zero_off, lin1_pay3]
  simp only [View.ld_unit_zero (S := S5000x128) lin1_zero_off, View.ld_unit_zero (S := S128x128) lin1_zero_off]
  obtain ⟨-, -, -, -, -, -, -, -, e8, -, -, e11, -⟩ := lin1_maps t
  funext j
  refine lin1_block (iblk1 V c 0 t) (iblk1 V c 2 t) (V c main_arg1) (V c main_v2) (win1_4.index t (0 : Fin 2))
    (lin1_rows V c t) (lin1_mat2 V c t) _ _ ?_ ?_
  · show win1_5.index t (0 : Fin 2) * 5000 + 1 * (j 0).val = win1_4.index t (0 : Fin 2) * 5000 + (j 0).val
    omega
  · show win1_5.index t (1 : Fin 2) * 128 + 1 * (j 1).val = (j 1).val
    omega

/-- What point t writes back to the third output is block t of x Wt for the third matrix. -/
theorem lin1_wb6 (c : Dev nD) (t : Fin cfg1.N) :
    (dat1 (F := Ideal) V c).flushed 6 t = ((cfg1.win 6).blk t).view.read (Elt Ideal) (Spec.linT (V c main_arg1) (V c main_v4)) := by
  show (cfg1.win 6).cut (grid1.coords t) ((dat1 V c).after 6 t) = _
  rw [after1_6]
  unfold out1_6
  rw [View.canon_unit_zero lin1_zero_off, lin1_pay4]
  simp only [View.ld_unit_zero (S := S5000x128) lin1_zero_off, View.ld_unit_zero (S := S128x128) lin1_zero_off]
  obtain ⟨-, -, -, -, -, -, -, -, -, e9, -, -, e12⟩ := lin1_maps t
  funext j
  refine lin1_block (iblk1 V c 0 t) (iblk1 V c 3 t) (V c main_arg1) (V c main_v4) (win1_4.index t (0 : Fin 2))
    (lin1_rows V c t) (lin1_mat3 V c t) _ _ ?_ ?_
  · show win1_6.index t (0 : Fin 2) * 5000 + 1 * (j 0).val = win1_4.index t (0 : Fin 2) * 5000 + (j 0).val
    omega
  · show win1_6.index t (1 : Fin 2) * 128 + 1 * (j 1).val = (j 1).val
    omega

/-- An entry of an output array is in point t's block iff each coordinate is in the block's range on its axis. -/
theorem lin1_mem4 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v19_0).slice (win1_4.rect t)).set ↔ _
  rw [View.set_slice_whole, Rect.mem_set_unit]
  exact Iff.rfl
theorem lin1_mem5 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v19_1).slice (win1_5.rect t)).set ↔ _
  rw [View.set_slice_whole, Rect.mem_set_unit]
  exact Iff.rfl
theorem lin1_mem6 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v19_2).slice (win1_6.rect t)).set ↔ _
  rw [View.set_slice_whole, Rect.mem_set_unit]
  exact Iff.rfl

/-- Row r of an output array is written by the point whose row block is r / 5000. -/
theorem lin1_all4 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht, -, -⟩ := lin1_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [lin1_mem4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega
theorem lin1_all5 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, -, ht, -⟩ := lin1_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [lin1_mem5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega
theorem lin1_all6 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, -, -, ht⟩ := lin1_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [lin1_mem6]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-! ## The three output arrays after the run -/

theorem arr1_4 (c : Dev nD) : (dat1 (F := Ideal) V c).arrAt 4 cfg1.N = Spec.linT (V c main_arg1) (V c main_v1) :=
  (dat1 (F := Ideal) V c).arrAt_eq_of_cover 4 _ (fun t _ => lin1_wb4 V c t) lin1_all4
theorem arr1_5 (c : Dev nD) : (dat1 (F := Ideal) V c).arrAt 5 cfg1.N = Spec.linT (V c main_arg1) (V c main_v2) :=
  (dat1 (F := Ideal) V c).arrAt_eq_of_cover 5 _ (fun t _ => lin1_wb5 V c t) lin1_all5
theorem arr1_6 (c : Dev nD) : (dat1 (F := Ideal) V c).arrAt 6 cfg1.N = Spec.linT (V c main_arg1) (V c main_v4) :=
  (dat1 (F := Ideal) V c).arrAt_eq_of_cover 6 _ (fun t _ => lin1_wb6 V c t) lin1_all6

end Cert.KV

end
-- ==== Proof.KWalk1.lean ====
/-
  The buffers after the two projection kernels (the boundary before the gathers): the six projected feature arrays
  are x Wᵀ of the arguments; the transposed gate matrices, the one-row biases and the edge lists are what the host
  operations before the kernels made of the arguments.
-/
import proofs.«408718_j59854664237684_1_alg».proof.Proof.Gen.KernelIdeal.Frame
import proofs.«408718_j59854664237684_1_alg».proof.Proof.Spec
import proofs.«408718_j59854664237684_1_alg».proof.Proof.SpecLaws
import proofs.«408718_j59854664237684_1_alg».proof.Proof.KDefs
import proofs.«408718_j59854664237684_1_alg».proof.Proof.KLin0
import proofs.«408718_j59854664237684_1_alg».proof.Proof.KLin1

set_option maxRecDepth 16384

noncomputable section

namespace Cert.KV

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ## Before the kernels: the host operations over the launch memory

Eighteen host operations run before the first kernel: twelve transposes and six reshapes, each of an argument into
a fresh buffer. A buffer none of them writes holds the launch memory; a buffer one of them writes holds that
operation's function of the argument. -/

/-- A buffer the host operations before the kernels do not write keeps the launch memory's contents. -/
local macro "host0_keeps" : tactic =>
  `(tactic| exact StableHlo.after_of_forall_not_mem _ _ (List.forall_iff_forall_mem.mp (by
      simp only [hostOps0, List.Forall, StableHlo.unary_writes, StableHlo.reshape_writes, Finset.mem_singleton]
      repeat' apply And.intro
      all_goals exact StableHlo.devRef_ne_of_ne (by decide))))

theorem W1_arg0 (c : Dev nD) : W1 m ρ c (Proc.devRef .tc main_arg0) = m ((c : Thread nD τ).loc main_arg0) := by
  host0_keeps
theorem W1_arg1 (c : Dev nD) : W1 m ρ c (Proc.devRef .tc main_arg1) = m ((c : Thread nD τ).loc main_arg1) := by
  host0_keeps
theorem W1_arg2 (c : Dev nD) : W1 m ρ c (Proc.devRef .tc main_arg2) = m ((c : Thread nD τ).loc main_arg2) := by
  host0_keeps
theorem W1_arg3 (c : Dev nD) : W1 m ρ c (Proc.devRef .tc main_arg3) = m ((c : Thread nD τ).loc main_arg3) := by
  host0_keeps
theorem W1_arg4 (c : Dev nD) : W1 m ρ c (Proc.devRef .tc main_arg4) = m ((c : Thread nD τ).loc main_arg4) := by
  host0_keeps

theorem W1_v0 (c : Dev nD) : W1 m ρ c (Proc.devRef .tc main_v0)
    = transpose S128x128 [1, 0] (m ((c : Thread nD τ).loc main_arg5)) transposes_S128x128_S128x128_1_0 := by
  show StableHlo.after hostOps0 (W0 m ρ c) (Proc.devRef .tc main_v0) = _
  after_results
theorem W1_v1 (c : Dev nD) : W1 m ρ c (Proc.devRef .tc main_v1)
    = transpose S128x128 [1, 0] (m ((c : Thread nD τ).loc main_arg6)) transposes_S128x128_S128x128_1_0 := by
  show StableHlo.after hostOps0 (W0 m ρ c) (Proc.devRef .tc main_v1) = _
  after_results
theorem W1_v2 (c : Dev nD) : W1 m ρ c (Proc.devRef .tc main_v2)
    = transpose S128x128 [1, 0] (m ((c : Thread nD τ).loc main_arg11)) transposes_S128x128_S128x128_1_0 := by
  show StableHlo.after hostOps0 (W0 m ρ c) (Proc.devRef .tc main_v2) = _
  after_results
theorem W1_v3 (c : Dev nD) : W1 m ρ c (Proc.devRef .tc main_v3)
    = transpose S128x128 [1, 0] (m ((c : Thread nD τ).loc main_arg12)) transposes_S128x128_S128x128_1_0 := by
  show StableHlo.after hostOps0 (W0 m ρ c) (Proc.devRef .tc main_v3) = _
  after_results
theorem W1_v4 (c : Dev nD) : W1 m ρ c (Proc.devRef .tc main_v4)
    = transpose S128x128 [1, 0] (m ((c : Thread nD τ).loc main_arg17)) transposes_S128x128_S128x128_1_0 := by
  show StableHlo.after hostOps0 (W0 m ρ c) (Proc.devRef .tc main_v4) = _
  after_results
theorem W1_v5 (c : Dev nD) : W1 m ρ c (Proc.devRef .tc main_v5)
    = transpose S128x128 [1, 0] (m ((c : Thread nD τ).loc main_arg18)) transposes_S128x128_S128x128_1_0 := by
  show StableHlo.after hostOps0 (W0 m ρ c) (Proc.devRef .tc main_v5) = _
  after_results

theorem W1_v6 (c : Dev nD) : W1 m ρ c (Proc.devRef .tc main_v6)
    = transpose S128x384 [1, 0] (m ((c : Thread nD τ).loc main_arg7)) transposes_S384x128_S128x384_1_0 := by
  show StableHlo.after hostOps0 (W0 m ρ c) (Proc.devRef .tc main_v6) = _
  after_results
theorem W1_v7 (c : Dev nD) : W1 m ρ c (Proc.devRef .tc main_v7)
    = transpose S128x384 [1, 0] (m ((c : Thread nD τ).loc main_arg8)) transposes_S384x128_S128x384_1_0 := by
  show StableHlo.after hostOps0 (W0 m ρ c) (Proc.devRef .tc main_v7) = _
  after_results
theorem W1_v8 (c : Dev nD) : W1 m ρ c (Proc.devRef .tc main_v8)
    = transpose S128x384 [1, 0] (m ((c : Thread nD τ).loc main_arg13)) transposes_S384x128_S128x384_1_0 := by
  show StableHlo.after hostOps0 (W0 m ρ c) (Proc.devRef .tc main_v8) = _
  after_results
theorem W1_v9 (c : Dev nD) : W1 m ρ c (Proc.devRef .tc main_v9)
    = transpose S128x384 [1, 0] (m ((c : Thread nD τ).loc main_arg14)) transposes_S384x128_S128x384_1_0 := by
  show StableHlo.after hostOps0 (W0 m ρ c) (Proc.devRef .tc main_v9) = _
  after_results
theorem W1_v10 (c : Dev nD) : W1 m ρ c (Proc.devRef .tc main_v10)
    = transpose S128x384 [1, 0] (m ((c : Thread nD τ).loc main_arg19)) transposes_S384x128_S128x384_1_0 := by
  show StableHlo.after hostOps0 (W0 m ρ c) (Proc.devRef .tc main_v10) = _
  after_results
theorem W1_v11 (c : Dev nD) : W1 m ρ c (Proc.devRef .tc main_v11)
    = transpose S128x384 [1, 0] (m ((c : Thread nD τ).loc main_arg20)) transposes_S384x128_S128x384_1_0 := by
  show StableHlo.after hostOps0 (W0 m ρ c) (Proc.devRef .tc main_v11) = _
  after_results

theorem W1_v12 (c : Dev nD) : W1 m ρ c (Proc.devRef .tc main_v12)
    = shapeCast S1x384 (m ((c : Thread nD τ).loc main_arg9)) shapeCasts_S384_S1x384 := by
  show StableHlo.after hostOps0 (W0 m ρ c) (Proc.devRef .tc main_v12) = _
  after_results
  rfl
theorem W1_v13 (c : Dev nD) : W1 m ρ c (Proc.devRef .tc main_v13)
    = shapeCast S1x384 (m ((c : Thread nD τ).loc main_arg10)) shapeCasts_S384_S1x384 := by
  show StableHlo.after hostOps0 (W0 m ρ c) (Proc.devRef .tc main_v13) = _
  after_results
  rfl
theorem W1_v14 (c : Dev nD) : W1 m ρ c (Proc.devRef .tc main_v14)
    = shapeCast S1x384 (m ((c : Thread nD τ).loc main_arg15)) shapeCasts_S384_S1x384 := by
  show StableHlo.after hostOps0 (W0 m ρ c) (Proc.devRef .tc main_v14) = _
  after_results
  rfl
theorem W1_v15 (c : Dev nD) : W1 m ρ c (Proc.devRef .tc main_v15)
    = shapeCast S1x384 (m ((c : Thread nD τ).loc main_arg16)) shapeCasts_S384_S1x384 := by
  show StableHlo.after hostOps0 (W0 m ρ c) (Proc.devRef .tc main_v15) = _
  after_results
  rfl
theorem W1_v16 (c : Dev nD) : W1 m ρ c (Proc.devRef .tc main_v16)
    = shapeCast S1x384 (m ((c : Thread nD τ).loc main_arg21)) shapeCasts_S384_S1x384 := by
  show StableHlo.after hostOps0 (W0 m ρ c) (Proc.devRef .tc main_v16) = _
  after_results
  rfl
theorem W1_v17 (c : Dev nD) : W1 m ρ c (Proc.devRef .tc main_v17)
    = shapeCast S1x384 (m ((c : Thread nD τ).loc main_arg22)) shapeCasts_S384_S1x384 := by
  show StableHlo.after hostOps0 (W0 m ρ c) (Proc.devRef .tc main_v17) = _
  after_results
  rfl

/-! ## Across the two projection kernels

A kernel leaves every buffer that is not one of its arrays as it found it; its output arrays hold what its pipeline
leaves, which the kernels' own lemmas give as the input rows times the (transposed) weight matrix. -/

/-- A buffer that is an array of neither projection kernel is, after both, as the host operations left it. -/
theorem W3_eq_W1 (c : Dev nD) (b : Ref sig .tc) (h1 : ∀ w, Pipeline.arrRef spec1 w ≠ b)
    (h0 : ∀ w, Pipeline.arrRef spec0 w ≠ b) : W3 m ρ c (Proc.devRef .tc b) = W1 m ρ c (Proc.devRef .tc b) :=
  (W3_of_ne m ρ c b h1).trans (W2_of_ne m ρ c b h0)

/-- The second kernel's operands are not arrays of the first: it reads them as the host operations left them. -/
theorem W2_arg1 (c : Dev nD) : W2 m ρ c (Proc.devRef .tc main_arg1) = m ((c : Thread nD τ).loc main_arg1) :=
  (W2_of_ne m ρ c main_arg1 (by decide)).trans (W1_arg1 m ρ c)
theorem W2_v1 (c : Dev nD) : W2 m ρ c (Proc.devRef .tc main_v1)
    = transpose S128x128 [1, 0] (m ((c : Thread nD τ).loc main_arg6)) transposes_S128x128_S128x128_1_0 :=
  (W2_of_ne m ρ c main_v1 (by decide)).trans (W1_v1 m ρ c)
theorem W2_v2 (c : Dev nD) : W2 m ρ c (Proc.devRef .tc main_v2)
    = transpose S128x128 [1, 0] (m ((c : Thread nD τ).loc main_arg11)) transposes_S128x128_S128x128_1_0 :=
  (W2_of_ne m ρ c main_v2 (by decide)).trans (W1_v2 m ρ c)
theorem W2_v4 (c : Dev nD) : W2 m ρ c (Proc.devRef .tc main_v4)
    = transpose S128x128 [1, 0] (m ((c : Thread nD τ).loc main_arg17)) transposes_S128x128_S128x128_1_0 :=
  (W2_of_ne m ρ c main_v4 (by decide)).trans (W1_v4 m ρ c)

theorem W3_v18_0 (c : Dev nD) : W3 m ρ c (Proc.devRef .tc main_v18_0) = Spec.lin (m ((c : Thread nD τ).loc main_arg0)) (m ((c : Thread nD τ).loc main_arg5)) :=
  calc W3 m ρ c (Proc.devRef .tc main_v18_0)
    _ = W2 m ρ c (Proc.devRef .tc main_v18_0) := W3_of_ne m ρ c main_v18_0 (by decide)
    _ = (dat0 (V1 m ρ) c).arrAt 4 cfg0.N := W2_arr m ρ c 4
    _ = Spec.linT (V1 m ρ c main_arg0) (V1 m ρ c main_v0) := arr0_4 (V1 m ρ) c
    _ = Spec.linT (m ((c : Thread nD τ).loc main_arg0))
          (transpose S128x128 [1, 0] (m ((c : Thread nD τ).loc main_arg5)) transposes_S128x128_S128x128_1_0) :=
        congrArg₂ Spec.linT (W1_arg0 m ρ c) (W1_v0 m ρ c)
    _ = Spec.lin (m ((c : Thread nD τ).loc main_arg0)) (m ((c : Thread nD τ).loc main_arg5)) := Spec.linT_transpose _ _ _
theorem W3_v18_1 (c : Dev nD) : W3 m ρ c (Proc.devRef .tc main_v18_1) = Spec.lin (m ((c : Thread nD τ).loc main_arg0)) (m ((c : Thread nD τ).loc main_arg12)) :=
  calc W3 m ρ c (Proc.devRef .tc main_v18_1)
    _ = W2 m ρ c (Proc.devRef .tc main_v18_1) := W3_of_ne m ρ c main_v18_1 (by decide)
    _ = (dat0 (V1 m ρ) c).arrAt 5 cfg0.N := W2_arr m ρ c 5
    _ = Spec.linT (V1 m ρ c main_arg0) (V1 m ρ c main_v3) := arr0_5 (V1 m ρ) c
    _ = Spec.linT (m ((c : Thread nD τ).loc main_arg0))
          (transpose S128x128 [1, 0] (m ((c : Thread nD τ).loc main_arg12)) transposes_S128x128_S128x128_1_0) :=
        congrArg₂ Spec.linT (W1_arg0 m ρ c) (W1_v3 m ρ c)
    _ = Spec.lin (m ((c : Thread nD τ).loc main_arg0)) (m ((c : Thread nD τ).loc main_arg12)) := Spec.linT_transpose _ _ _
theorem W3_v18_2 (c : Dev nD) : W3 m ρ c (Proc.devRef .tc main_v18_2) = Spec.lin (m ((c : Thread nD τ).loc main_arg0)) (m ((c : Thread nD τ).loc main_arg18)) :=
  calc W3 m ρ c (Proc.devRef .tc main_v18_2)
    _ = W2 m ρ c (Proc.devRef .tc main_v18_2) := W3_of_ne m ρ c main_v18_2 (by decide)
    _ = (dat0 (V1 m ρ) c).arrAt 6 cfg0.N := W2_arr m ρ c 6
    _ = Spec.linT (V1 m ρ c main_arg0) (V1 m ρ c main_v5) := arr0_6 (V1 m ρ) c
    _ = Spec.linT (m ((c : Thread nD τ).loc main_arg0))
          (transpose S128x128 [1, 0] (m ((c : Thread nD τ).loc main_arg18)) transposes_S128x128_S128x128_1_0) :=
        congrArg₂ Spec.linT (W1_arg0 m ρ c) (W1_v5 m ρ c)
    _ = Spec.lin (m ((c : Thread nD τ).loc main_arg0)) (m ((c : Thread nD τ).loc main_arg18)) := Spec.linT_transpose _ _ _
theorem W3_v19_0 (c : Dev nD) : W3 m ρ c (Proc.devRef .tc main_v19_0) = Spec.lin (m ((c : Thread nD τ).loc main_arg1)) (m ((c : Thread nD τ).loc main_arg6)) :=
  calc W3 m ρ c (Proc.devRef .tc main_v19_0)
    _ = (dat1 (V2 m ρ) c).arrAt 4 cfg1.N := W3_arr m ρ c 4
    _ = Spec.linT (V2 m ρ c main_arg1) (V2 m ρ c main_v1) := arr1_4 (V2 m ρ) c
    _ = Spec.linT (m ((c : Thread nD τ).loc main_arg1))
          (transpose S128x128 [1, 0] (m ((c : Thread nD τ).loc main_arg6)) transposes_S128x128_S128x128_1_0) :=
        congrArg₂ Spec.linT (W2_arg1 m ρ c) (W2_v1 m ρ c)
    _ = Spec.lin (m ((c : Thread nD τ).loc main_arg1)) (m ((c : Thread nD τ).loc main_arg6)) := Spec.linT_transpose _ _ _
theorem W3_v19_1 (c : Dev nD) : W3 m ρ c (Proc.devRef .tc main_v19_1) = Spec.lin (m ((c : Thread nD τ).loc main_arg1)) (m ((c : Thread nD τ).loc main_arg11)) :=
  calc W3 m ρ c (Proc.devRef .tc main_v19_1)
    _ = (dat1 (V2 m ρ) c).arrAt 5 cfg1.N := W3_arr m ρ c 5
    _ = Spec.linT (V2 m ρ c main_arg1) (V2 m ρ c main_v2) := arr1_5 (V2 m ρ) c
    _ = Spec.linT (m ((c : Thread nD τ).loc main_arg1))
          (transpose S128x128 [1, 0] (m ((c : Thread nD τ).loc main_arg11)) transposes_S128x128_S128x128_1_0) :=
        congrArg₂ Spec.linT (W2_arg1 m ρ c) (W2_v2 m ρ c)
    _ = Spec.lin (m ((c : Thread nD τ).loc main_arg1)) (m ((c : Thread nD τ).loc main_arg11)) := Spec.linT_transpose _ _ _
theorem W3_v19_2 (c : Dev nD) : W3 m ρ c (Proc.devRef .tc main_v19_2) = Spec.lin (m ((c : Thread nD τ).loc main_arg1)) (m ((c : Thread nD τ).loc main_arg17)) :=
  calc W3 m ρ c (Proc.devRef .tc main_v19_2)
    _ = (dat1 (V2 m ρ) c).arrAt 6 cfg1.N := W3_arr m ρ c 6
    _ = Spec.linT (V2 m ρ c main_arg1) (V2 m ρ c main_v4) := arr1_6 (V2 m ρ) c
    _ = Spec.linT (m ((c : Thread nD τ).loc main_arg1))
          (transpose S128x128 [1, 0] (m ((c : Thread nD τ).loc main_arg17)) transposes_S128x128_S128x128_1_0) :=
        congrArg₂ Spec.linT (W2_arg1 m ρ c) (W2_v4 m ρ c)
    _ = Spec.lin (m ((c : Thread nD τ).loc main_arg1)) (m ((c : Thread nD τ).loc main_arg17)) := Spec.linT_transpose _ _ _
theorem W3_v6 (c : Dev nD) : W3 m ρ c (Proc.devRef .tc main_v6) = transpose S128x384 [1, 0] (m ((c : Thread nD τ).loc main_arg7)) transposes_S384x128_S128x384_1_0 :=
  (W3_eq_W1 m ρ c main_v6 (by decide) (by decide)).trans (W1_v6 m ρ c)
theorem W3_v7 (c : Dev nD) : W3 m ρ c (Proc.devRef .tc main_v7) = transpose S128x384 [1, 0] (m ((c : Thread nD τ).loc main_arg8)) transposes_S384x128_S128x384_1_0 :=
  (W3_eq_W1 m ρ c main_v7 (by decide) (by decide)).trans (W1_v7 m ρ c)
theorem W3_v8 (c : Dev nD) : W3 m ρ c (Proc.devRef .tc main_v8) = transpose S128x384 [1, 0] (m ((c : Thread nD τ).loc main_arg13)) transposes_S384x128_S128x384_1_0 :=
  (W3_eq_W1 m ρ c main_v8 (by decide) (by decide)).trans (W1_v8 m ρ c)
theorem W3_v9 (c : Dev nD) : W3 m ρ c (Proc.devRef .tc main_v9) = transpose S128x384 [1, 0] (m ((c : Thread nD τ).loc main_arg14)) transposes_S384x128_S128x384_1_0 :=
  (W3_eq_W1 m ρ c main_v9 (by decide) (by decide)).trans (W1_v9 m ρ c)
theorem W3_v10 (c : Dev nD) : W3 m ρ c (Proc.devRef .tc main_v10) = transpose S128x384 [1, 0] (m ((c : Thread nD τ).loc main_arg19)) transposes_S384x128_S128x384_1_0 :=
  (W3_eq_W1 m ρ c main_v10 (by decide) (by decide)).trans (W1_v10 m ρ c)
theorem W3_v11 (c : Dev nD) : W3 m ρ c (Proc.devRef .tc main_v11) = transpose S128x384 [1, 0] (m ((c : Thread nD τ).loc main_arg20)) transposes_S384x128_S128x384_1_0 :=
  (W3_eq_W1 m ρ c main_v11 (by decide) (by decide)).trans (W1_v11 m ρ c)
theorem W3_v12 (c : Dev nD) : W3 m ρ c (Proc.devRef .tc main_v12) = shapeCast S1x384 (m ((c : Thread nD τ).loc main_arg9)) shapeCasts_S384_S1x384 :=
  (W3_eq_W1 m ρ c main_v12 (by decide) (by decide)).trans (W1_v12 m ρ c)
theorem W3_v13 (c : Dev nD) : W3 m ρ c (Proc.devRef .tc main_v13) = shapeCast S1x384 (m ((c : Thread nD τ).loc main_arg10)) shapeCasts_S384_S1x384 :=
  (W3_eq_W1 m ρ c main_v13 (by decide) (by decide)).trans (W1_v13 m ρ c)
theorem W3_v14 (c : Dev nD) : W3 m ρ c (Proc.devRef .tc main_v14) = shapeCast S1x384 (m ((c : Thread nD τ).loc main_arg15)) shapeCasts_S384_S1x384 :=
  (W3_eq_W1 m ρ c main_v14 (by decide) (by decide)).trans (W1_v14 m ρ c)
theorem W3_v15 (c : Dev nD) : W3 m ρ c (Proc.devRef .tc main_v15) = shapeCast S1x384 (m ((c : Thread nD τ).loc main_arg16)) shapeCasts_S384_S1x384 :=
  (W3_eq_W1 m ρ c main_v15 (by decide) (by decide)).trans (W1_v15 m ρ c)
theorem W3_v16 (c : Dev nD) : W3 m ρ c (Proc.devRef .tc main_v16) = shapeCast S1x384 (m ((c : Thread nD τ).loc main_arg21)) shapeCasts_S384_S1x384 :=
  (W3_eq_W1 m ρ c main_v16 (by decide) (by decide)).trans (W1_v16 m ρ c)
theorem W3_v17 (c : Dev nD) : W3 m ρ c (Proc.devRef .tc main_v17) = shapeCast S1x384 (m ((c : Thread nD τ).loc main_arg22)) shapeCasts_S384_S1x384 :=
  (W3_eq_W1 m ρ c main_v17 (by decide) (by decide)).trans (W1_v17 m ρ c)
theorem W3_arg2 (c : Dev nD) : W3 m ρ c (Proc.devRef .tc main_arg2) = (m ((c : Thread nD τ).loc main_arg2)) :=
  (W3_eq_W1 m ρ c main_arg2 (by decide) (by decide)).trans (W1_arg2 m ρ c)
theorem W3_arg3 (c : Dev nD) : W3 m ρ c (Proc.devRef .tc main_arg3) = (m ((c : Thread nD τ).loc main_arg3)) :=
  (W3_eq_W1 m ρ c main_arg3 (by decide) (by decide)).trans (W1_arg3 m ρ c)
theorem W3_arg4 (c : Dev nD) : W3 m ρ c (Proc.devRef .tc main_arg4) = (m ((c : Thread nD τ).loc main_arg4)) :=
  (W3_eq_W1 m ρ c main_arg4 (by decide) (by decide)).trans (W1_arg4 m ρ c)

end Cert.KV

end
-- ==== Proof.TakeWords.lean ====
/-
  One index word of a row take from a table of 50000 rows. A word that is, as a signed number, at least −50000 and
  below 50000 is wrapped (a negative word has 50000 added) to a word between 0 and 49999, so it passes the take's two
  bound tests.
-/
import Idealize.ShloMosaic.PureOps
import Idealize.ShloMosaic.Lib.StableHlo.Predicate

namespace Cert.TakeWords

open Idealize.ShloMosaic

/-- The signed value of a 32-bit word from its unsigned one: words below 2³¹ are themselves, the others are 2³² less. -/
theorem toInt_cases (w : BitVec 32) :
    (w.toNat < 2 ^ 31 ∧ w.toInt = (w.toNat : ℤ)) ∨ (2 ^ 31 ≤ w.toNat ∧ w.toInt = (w.toNat : ℤ) - 2 ^ 32) := by
  have hlt := w.isLt
  rw [BitVec.toInt_eq_toNat_cond]
  by_cases h : 2 * w.toNat < 2 ^ 32
  · left; rw [if_pos h]; exact ⟨by omega, rfl⟩
  · right; rw [if_neg h]; refine ⟨by omega, ?_⟩; push_cast; rfl

theorem wrap_passes (v : BitVec 32) (h0 : IntOp.cmpi .sge v 4294917296#32 = 1#1) (h1 : IntOp.cmpi .slt v 50000#32 = 1#1) :
    IntOp.cmpi .sge (Scalar.select (IntOp.cmpi .slt v 0#32) (IntOp.addi v 50000#32) v) 0#32 = 1#1
    ∧ IntOp.cmpi .sle (Scalar.select (IntOp.cmpi .slt v 0#32) (IntOp.addi v 50000#32) v) 49999#32 = 1#1 := by
  -- the two hypotheses as inequalities between signed values
  have e0 : (4294917296#32).sle v = true := (StableHlo.Predicate.ofBool_eq_one_iff _).1 h0
  have e1 : v.slt 50000#32 = true := (StableHlo.Predicate.ofBool_eq_one_iff _).1 h1
  have lo : (-50000 : ℤ) ≤ v.toInt := by
    have := e0
    simp only [BitVec.sle, decide_eq_true_eq] at this
    have c : (4294917296#32 : BitVec 32).toInt = -50000 := by decide
    omega
  have hi : v.toInt < 50000 := by
    have := e1
    simp only [BitVec.slt, decide_eq_true_eq] at this
    have c : (50000#32 : BitVec 32).toInt = 50000 := by decide
    omega
  have hlt := v.isLt
  rcases toInt_cases v with ⟨hs, hv⟩ | ⟨hs, hv⟩
  · -- the word is not negative: the wrap leaves it, and it is below 50000
    have hw : v.toNat < 50000 := by omega
    have hsel : Scalar.select (IntOp.cmpi .slt v 0#32) (IntOp.addi v 50000#32) v = v := by
      have hn : ¬ IntOp.cmpi .slt v 0#32 = 1#1 := fun hc => by
        have := (StableHlo.Predicate.slt_iff_toNat hs (by decide)).1 hc
        simp at this
      exact if_neg hn
    rw [hsel]
    refine ⟨(StableHlo.Predicate.sge_iff_toNat hs (by decide)).2 (Nat.zero_le _),
      (StableHlo.Predicate.sle_iff_toNat hs (by decide)).2 ?_⟩
    show v.toNat ≤ 49999 % 2 ^ 32
    omega
  · -- the word is negative: 50000 is added, which wraps past 2³² to the number v + 50000 of [0, 50000)
    have hge : 2 ^ 32 - 50000 ≤ v.toNat := by omega
    have hneg : IntOp.cmpi .slt v 0#32 = 1#1 := by
      show BitVec.ofBool (v.slt 0#32) = 1#1
      rw [StableHlo.Predicate.ofBool_eq_one_iff]
      have z : (0#32 : BitVec 32).toInt = 0 := rfl
      simp only [BitVec.slt, decide_eq_true_eq, z]
      omega
    have hsel : Scalar.select (IntOp.cmpi .slt v 0#32) (IntOp.addi v 50000#32) v = v + 50000#32 := if_pos hneg
    rw [hsel]
    have hsum : (v + 50000#32).toNat = v.toNat + 50000 - 2 ^ 32 := by
      rw [BitVec.toNat_add]
      show (v.toNat + 50000 % 2 ^ 32) % 2 ^ 32 = _
      omega
    have hs' : (v + 50000#32).toNat < 2 ^ 31 := by omega
    refine ⟨(StableHlo.Predicate.sge_iff_toNat hs' (by decide)).2 (Nat.zero_le _),
      (StableHlo.Predicate.sle_iff_toNat hs' (by decide)).2 ?_⟩
    show (v + 50000#32).toNat ≤ 49999 % 2 ^ 32
    omega

end Cert.TakeWords
-- ==== Proof.LibTakeMask.lean ====
/-
  A row gather guarded by a validity mask ("take, filling what is out of range").

  Such a take wraps negative indices (a word that is negative as a signed number has the axis's extent added), tests
  the wrapped word against the bounds 0 and extent − 1, gathers, and keeps the gathered row only where the test passed,
  putting a fill value elsewhere. When every index word is a row number already, the wrap is the identity, every test
  passes, and the take is the plain gather. The lemmas here are the pieces of that argument: words in range compare
  as expected, an "and"-reduction of all-ones is one, and a selection under an all-ones mask is its first branch.
-/
import Idealize.ShloMosaic.Lib.ReduceAll
import Idealize.ShloMosaic.Lib.StableHlo.Predicate
import Idealize.ShloMosaic.Lib.Pipeline.Value
import Idealize.ShloMosaic.Lib.ValueIdx

noncomputable section

namespace Cert.TakeMask

open Idealize.ShloMosaic Idealize.ShloMosaic.ValueIdx

/-- A left fold by "and" from 1 over words that are all 1 is 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hl =>
    foldl_andi_of_all f l _ (IntOp.andi_eq_one.2 ⟨h, hl a List.mem_cons_self⟩) fun n hn => hl n (List.mem_cons_of_mem _ hn)

/-- An "and"-reduction whose operand is all ones, started from one, is one at every result index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl]
  exact foldl_andi_of_all x _ _ hinit fun n _ => hx n

/-- A selection under a mask that is one everywhere is its first branch. -/
theorem select_of_all {s : Shape} {α : Type} (c : IVec s 1) (a b : s.Idx → α) (hc : ∀ i, c i = 1#1) : select c a b = a := by
  funext i
  show Scalar.select (c i) (a i) (b i) = a i
  rw [hc i]; rfl

/-- A word that is, signed, at least 0 and below a bound `N` is the number it spells, below `N`. -/
theorem toNat_lt_of_cmp (N : ℕ) (hN : N < 2 ^ 31) (w : BitVec 32) (h0 : IntOp.cmpi .sge w 0#32 = 1#1)
    (h1 : IntOp.cmpi .slt w (BitVec.ofNat 32 N) = 1#1) : w.toNat < N := by
  have e0 : BitVec.ofBool ((0#32).sle w) = 1#1 := h0
  have e0' : (0#32).sle w = true := (StableHlo.Predicate.ofBool_eq_one_iff _).1 e0
  have hw : w.toNat < 2 ^ 31 := by
    have e : (0#32).toInt ≤ w.toInt := by simpa [BitVec.sle] using e0'
    have z : (0#32).toInt = 0 := rfl
    rw [z, BitVec.toInt_eq_msb_cond] at e
    cases hm : w.msb with
    | false => have := BitVec.msb_eq_false_iff_two_mul_lt.mp hm; omega
    | true => rw [hm] at e; simp at e; have := w.isLt; omega
  have hN' : N % 2 ^ 32 = N := Nat.mod_eq_of_lt (by omega)
  have hb : (BitVec.ofNat 32 N).toNat < 2 ^ 31 := by rw [BitVec.toNat_ofNat, hN']; exact hN
  have := (StableHlo.Predicate.slt_iff_toNat hw hb).1 h1
  rw [BitVec.toNat_ofNat, hN'] at this
  exact this

/-- A word below `N` passes the take's two tests: signed, it is at least 0 and at most `N − 1`. -/
theorem cmp_of_toNat_lt (N : ℕ) (hN : N < 2 ^ 31) (w : BitVec 32) (h : w.toNat < N) :
    IntOp.cmpi .sge w 0#32 = 1#1 ∧ IntOp.cmpi .sle w (BitVec.ofNat 32 (N - 1)) = 1#1 := by
  have hw : w.toNat < 2 ^ 31 := by omega
  have hN' : (N - 1) % 2 ^ 32 = N - 1 := Nat.mod_eq_of_lt (by omega)
  have hb : (BitVec.ofNat 32 (N - 1)).toNat < 2 ^ 31 := by rw [BitVec.toNat_ofNat, hN']; omega
  refine ⟨(StableHlo.Predicate.sge_iff_toNat hw (by decide)).2 (Nat.zero_le _), (StableHlo.Predicate.sle_iff_toNat hw hb).2 ?_⟩
  rw [BitVec.toNat_ofNat, hN']; omega

/-- On a word that is not negative the wrap of negative indices does nothing, whatever would have been added. -/
theorem wrap_of_nonneg (w K : BitVec 32) (h : w.toNat < 2 ^ 31) :
    Scalar.select (IntOp.cmpi .slt w 0#32) (IntOp.addi w K) w = w := by
  have hlt : ¬ IntOp.cmpi .slt w 0#32 = 1#1 := fun hc => by
    have := (StableHlo.Predicate.slt_iff_toNat h (by decide)).1 hc
    simp at this
  exact if_neg hlt

/-- Entry `p` of the vector of the first `n` numbers is the word of `p`. -/
theorem iota_toNat {n : ℕ} (hn : n ≤ 2 ^ 32) (p : Fin n) : (iotaInDim (⟨1, ![n]⟩ : Shape) 32 0 (ix1 p)).toNat = p.val := by
  show (BitVec.ofNat 32 p.val).toNat = p.val
  rw [BitVec.toNat_ofNat]; exact Nat.mod_eq_of_lt (by have := p.isLt; omega)

/-- A vector of index words followed by the numbers 0, 1, …, n₂ − 1 (a list of edges' endpoints followed by every
    node's own number): if every word of the first part spells a number below `N` and `n₂ ≤ N`, so does every entry. -/
theorem concat_iota_toNat_lt {n₁ n₂ n : ℕ} (x : IVec ⟨1, ![n₁]⟩ 32) (N : ℕ) (hN : n₂ ≤ N) (hn₂ : n₂ ≤ 2 ^ 32)
    (hx : ∀ i, (x i).toNat < N) (h : Shape.Concatenates [(⟨1, ![n₁]⟩ : Shape), ⟨1, ![n₂]⟩] ⟨1, ![n]⟩ 0)
    (j : (⟨1, ![n]⟩ : Shape).Idx) :
    (concatenate ⟨1, ![n]⟩ 0 [⟨⟨1, ![n₁]⟩, x⟩, ⟨⟨1, ![n₂]⟩, iotaInDim (⟨1, ![n₂]⟩ : Shape) 32 0⟩] h j).toNat < N := by
  have hsum : n₁ + n₂ = n := by
    have e := h.2.2
    simpa using e
  by_cases hj : (j 0).val < n₁
  · rw [concatenate_pair_apply_left (0 : Fin 1) x (iotaInDim (⟨1, ![n₂]⟩ : Shape) 32 0) h j rfl (ix1 (⟨(j 0).val, hj⟩ : Fin n₁)) (fun b => by
      have hb : b = 0 := Subsingleton.elim _ _
      subst hb; rfl)]
    exact hx _
  · have hq : (j 0).val - n₁ < n₂ := by have := (j 0).isLt; simp at this; omega
    rw [concatenate_pair_apply_right (0 : Fin 1) x (iotaInDim (⟨1, ![n₂]⟩ : Shape) 32 0) h j rfl rfl (ix1 (⟨(j 0).val - n₁, hq⟩ : Fin n₂))
      (fun b hb => absurd (Subsingleton.elim _ _) hb) (by
        show (j 0).val - n₁ + n₁ = (j 0).val
        omega)]
    rw [iota_toNat hn₂]
    show (j 0).val - n₁ < N
    omega

end Cert.TakeMask

end
-- ==== Proof.KWalk2.lean ====
/-
  The host operations between the projection kernels and the cell kernels: three times a guarded row take along an
  edge list's source indices followed by a segment sum over its target indices. Under the range condition on the source
  indices the guard passes everywhere and the take is the plain gather, so each aggregate is \`agg\` of the projected
  table and the edge list as they stood before these operations. Every other buffer the cell kernels read is untouched.
-/
import proofs.«408718_j59854664237684_1_alg».proof.Proof.Gen.KernelIdeal.Frame
import proofs.«408718_j59854664237684_1_alg».proof.Proof.Spec
import proofs.«408718_j59854664237684_1_alg».proof.Proof.SpecLaws
import proofs.«408718_j59854664237684_1_alg».proof.Proof.KDefs
import proofs.«408718_j59854664237684_1_alg».proof.Proof.TakeWords
import proofs.«408718_j59854664237684_1_alg».proof.Proof.LibTakeMask

set_option maxRecDepth 16384

noncomputable section

namespace Cert.KV

open Idealize.ShloMosaic Idealize.ShloMosaic.TcCoe Idealize.ShloMosaic.ValueIdx Idealize.SL.Sem
open Cert.KernelIdeal Cert.KernelIdeal.Gen

namespace Walk2

/-! ## What a stretch of host operations does not write, it keeps -/

/-- The references the operations of `hostOps2` write. -/
abbrev wr2 : List (Ref sig .tc) :=
  [main_v20, main_v21]

theorem keep2 (V : Valuation τ sig (Elt Ideal)) {r : Ref sig .tc} (hr : r ∉ wr2) :
    StableHlo.after hostOps2 V (Proc.devRef .tc r) = V (Proc.devRef .tc r) :=
  StableHlo.after_of_writes_sub (W := wr2) _ V (by
    simp only [hostOps2, List.Forall, StableHlo.nullary_writes, StableHlo.unary_writes, StableHlo.binary_writes,
      StableHlo.ternary_writes, StableHlo.reshape_writes, Finset.singleton_subset_iff, List.mem_toFinset, List.mem_map]
    repeat' apply And.intro
    all_goals exact ⟨_, by decide, rfl⟩) hr

/-- The references the operations of `hostOps2_1` write. -/
abbrev wr2_1 : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v22]

theorem keep2_1 (V : Valuation τ sig (Elt Ideal)) {r : Ref sig .tc} (hr : r ∉ wr2_1) :
    StableHlo.after hostOps2_1 V (Proc.devRef .tc r) = V (Proc.devRef .tc r) :=
  StableHlo.after_of_writes_sub (W := wr2_1) _ V (by
    simp only [hostOps2_1, List.Forall, StableHlo.nullary_writes, StableHlo.unary_writes, StableHlo.binary_writes,
      StableHlo.ternary_writes, StableHlo.reshape_writes, Finset.singleton_subset_iff, List.mem_toFinset, List.mem_map]
    repeat' apply And.intro
    all_goals exact ⟨_, by decide, rfl⟩) hr

/-- The references the operations of `hostOps2_2` write. -/
abbrev wr2_2 : List (Ref sig .tc) :=
  [main_v23, main_v24, main_cst, main_v25, main_v26, main_v27, main_v28, main_v29]

theorem keep2_2 (V : Valuation τ sig (Elt Ideal)) {r : Ref sig .tc} (hr : r ∉ wr2_2) :
    StableHlo.after hostOps2_2 V (Proc.devRef .tc r) = V (Proc.devRef .tc r) :=
  StableHlo.after_of_writes_sub (W := wr2_2) _ V (by
    simp only [hostOps2_2, List.Forall, StableHlo.nullary_writes, StableHlo.unary_writes, StableHlo.binary_writes,
      StableHlo.ternary_writes, StableHlo.reshape_writes, Finset.singleton_subset_iff, List.mem_toFinset, List.mem_map]
    repeat' apply And.intro
    all_goals exact ⟨_, by decide, rfl⟩) hr

/-- The references the operations of `hostOps2_3` write. -/
abbrev wr2_3 : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v30]

theorem keep2_3 (V : Valuation τ sig (Elt Ideal)) {r : Ref sig .tc} (hr : r ∉ wr2_3) :
    StableHlo.after hostOps2_3 V (Proc.devRef .tc r) = V (Proc.devRef .tc r) :=
  StableHlo.after_of_writes_sub (W := wr2_3) _ V (by
    simp only [hostOps2_3, List.Forall, StableHlo.nullary_writes, StableHlo.unary_writes, StableHlo.binary_writes,
      StableHlo.ternary_writes, StableHlo.reshape_writes, Finset.singleton_subset_iff, List.mem_toFinset, List.mem_map]
    repeat' apply And.intro
    all_goals exact ⟨_, by decide, rfl⟩) hr

/-- The references the operations of `hostOps2_4` write. -/
abbrev wr2_4 : List (Ref sig .tc) :=
  [main_v31, main_v32, main_cst_0, main_v33, main_v34, main_v35, main_v36, main_v37]

theorem keep2_4 (V : Valuation τ sig (Elt Ideal)) {r : Ref sig .tc} (hr : r ∉ wr2_4) :
    StableHlo.after hostOps2_4 V (Proc.devRef .tc r) = V (Proc.devRef .tc r) :=
  StableHlo.after_of_writes_sub (W := wr2_4) _ V (by
    simp only [hostOps2_4, List.Forall, StableHlo.nullary_writes, StableHlo.unary_writes, StableHlo.binary_writes,
      StableHlo.ternary_writes, StableHlo.reshape_writes, Finset.singleton_subset_iff, List.mem_toFinset, List.mem_map]
    repeat' apply And.intro
    all_goals exact ⟨_, by decide, rfl⟩) hr

/-- The references the operations of `hostOps2_5` write. -/
abbrev wr2_5 : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v38]

theorem keep2_5 (V : Valuation τ sig (Elt Ideal)) {r : Ref sig .tc} (hr : r ∉ wr2_5) :
    StableHlo.after hostOps2_5 V (Proc.devRef .tc r) = V (Proc.devRef .tc r) :=
  StableHlo.after_of_writes_sub (W := wr2_5) _ V (by
    simp only [hostOps2_5, List.Forall, StableHlo.nullary_writes, StableHlo.unary_writes, StableHlo.binary_writes,
      StableHlo.ternary_writes, StableHlo.reshape_writes, Finset.singleton_subset_iff, List.mem_toFinset, List.mem_map]
    repeat' apply And.intro
    all_goals exact ⟨_, by decide, rfl⟩) hr

/-- The references the operations of `hostOps2_6` write. -/
abbrev wr2_6 : List (Ref sig .tc) :=
  [main_v39, main_v40, main_cst_1, main_v41, main_v42, main_v43]

theorem keep2_6 (V : Valuation τ sig (Elt Ideal)) {r : Ref sig .tc} (hr : r ∉ wr2_6) :
    StableHlo.after hostOps2_6 V (Proc.devRef .tc r) = V (Proc.devRef .tc r) :=
  StableHlo.after_of_writes_sub (W := wr2_6) _ V (by
    simp only [hostOps2_6, List.Forall, StableHlo.nullary_writes, StableHlo.unary_writes, StableHlo.binary_writes,
      StableHlo.ternary_writes, StableHlo.reshape_writes, Finset.singleton_subset_iff, List.mem_toFinset, List.mem_map]
    repeat' apply And.intro
    all_goals exact ⟨_, by decide, rfl⟩) hr

/-! ## What the stretches write, as functions of what was there before -/

/-- The guarded row take as the host prints it: the index words wrapped and set as a column, each wrapped word
    tested against the bounds 0 and 49999, the two tests joined and reduced over the column's unit axis, the gathered
    row kept where the test passed and a fill value put elsewhere. -/
def guardedTake (tbl : FVec Ideal S50000x128 .f32) (r : IVec S500000 32) : FVec Ideal S500000x128 .f32 :=
  select
    (broadcastInDim S500000x128 ![0] bcast_S500000_S500000x128_0
      (Host.reduce IntOp.andi
        (andi
          (cmpi .sge (broadcastInDim S500000x1 ![0] bcast_S500000_S500000x1_0 (wrapRow r))
            (broadcastInDim S500000x1 ![] bcast_S_S500000x1 (constantI S_ 32 0#32)))
          (cmpi .sle (broadcastInDim S500000x1 ![0] bcast_S500000_S500000x1_0 (wrapRow r))
            (broadcastInDim S500000x1 ![0, 1] bcast_S1x1_S500000x1_0_1
              (broadcastInDim S1x1 ![1] bcast_S1_S1x1_1 (constantI S1 32 49999#32)))))
        (constantI S_ 1 1#1) reducesTo_S500000x1_S500000_d1 h_S_))
    (Host.gather gather_S50000x128_S500000x1_S500000x128_1_0_n_n_0_1_1128 tbl
      (broadcastInDim S500000x1 ![0] bcast_S500000_S500000x1_0 (wrapRow r)))
    (broadcastInDim S500000x128 ![] bcast_S_S500000x128 (constant (F := Ideal) S_ .f32 0x7FC00000#32))

/-- Contents moved to a typed reference's buffer type and back are themselves. -/
theorem ofBuf_toBuf {sg : RefSig} {T : BufTy} {Val : EltTy → Type} (x : StableHlo.TRef sg T) (v : T.Contents Val) :
    x.ofBuf (x.toBuf v) = v := by
  obtain ⟨r, rfl, _, _⟩ := x
  rfl

/-! ### The source rows of the three edge lists -/

theorem ops2_v21 (V : Valuation τ sig (Elt Ideal)) :
    StableHlo.after hostOps2 V (Proc.devRef .tc main_v21) = srcRow (V (Proc.devRef .tc main_arg2)) := by
  after_results
  rfl

theorem ops2_2_v29 (V : Valuation τ sig (Elt Ideal)) :
    StableHlo.after hostOps2_2 V (Proc.devRef .tc main_v29) = srcRow (V (Proc.devRef .tc main_arg3)) := by
  after_results
  rfl

theorem ops2_4_v37 (V : Valuation τ sig (Elt Ideal)) :
    StableHlo.after hostOps2_4 V (Proc.devRef .tc main_v37) = srcRow (V (Proc.devRef .tc main_arg4)) := by
  after_results
  rfl

/-! ### The three guarded takes -/

theorem ops2_1_v22 (V : Valuation τ sig (Elt Ideal)) :
    StableHlo.after hostOps2_1 V (Proc.devRef .tc main_v22)
      = guardedTake (V (Proc.devRef .tc main_v18_0)) (V (Proc.devRef .tc main_v21)) := by
  after_results_simp
  simp only [ofBuf_toBuf]
  simp only [StableHlo.TRef.ofBuf, StableHlo.TRef.toBuf, cast_eq]
  rfl

theorem ops2_3_v30 (V : Valuation τ sig (Elt Ideal)) :
    StableHlo.after hostOps2_3 V (Proc.devRef .tc main_v30)
      = guardedTake (V (Proc.devRef .tc main_v19_1)) (V (Proc.devRef .tc main_v29)) := by
  after_results_simp
  simp only [ofBuf_toBuf]
  simp only [StableHlo.TRef.ofBuf, StableHlo.TRef.toBuf, cast_eq]
  rfl

theorem ops2_5_v38 (V : Valuation τ sig (Elt Ideal)) :
    StableHlo.after hostOps2_5 V (Proc.devRef .tc main_v38)
      = guardedTake (V (Proc.devRef .tc main_v19_2)) (V (Proc.devRef .tc main_v37)) := by
  after_results_simp
  simp only [ofBuf_toBuf]
  simp only [StableHlo.TRef.ofBuf, StableHlo.TRef.toBuf, cast_eq]
  rfl

/-! ### The three segment sums -/

theorem ops2_2_v27 (V : Valuation τ sig (Elt Ideal)) :
    StableHlo.after hostOps2_2 V (Proc.devRef .tc main_v27)
      = Host.scatterAdd scatter_S50000x128_S500000x1_S500000x128_1_0_0_1
          (broadcastInDim S50000x128 ![] bcast_S_S50000x128 (constant (F := Ideal) S_ .f32 0x00000000#32))
          (broadcastInDim S500000x1 ![0] bcast_S500000_S500000x1_0 (dstRow (V (Proc.devRef .tc main_arg2))))
          (V (Proc.devRef .tc main_v22)) := by
  after_results
  rfl

theorem ops2_4_v35 (V : Valuation τ sig (Elt Ideal)) :
    StableHlo.after hostOps2_4 V (Proc.devRef .tc main_v35)
      = Host.scatterAdd scatter_S50000x128_S500000x1_S500000x128_1_0_0_1
          (broadcastInDim S50000x128 ![] bcast_S_S50000x128 (constant (F := Ideal) S_ .f32 0x00000000#32))
          (broadcastInDim S500000x1 ![0] bcast_S500000_S500000x1_0 (dstRow (V (Proc.devRef .tc main_arg3))))
          (V (Proc.devRef .tc main_v30)) := by
  after_results
  rfl

theorem ops2_6_v43 (V : Valuation τ sig (Elt Ideal)) :
    StableHlo.after hostOps2_6 V (Proc.devRef .tc main_v43)
      = Host.scatterAdd scatter_S50000x128_S500000x1_S500000x128_1_0_0_1
          (broadcastInDim S50000x128 ![] bcast_S_S50000x128 (constant (F := Ideal) S_ .f32 0x00000000#32))
          (broadcastInDim S500000x1 ![0] bcast_S500000_S500000x1_0 (dstRow (V (Proc.devRef .tc main_arg4))))
          (V (Proc.devRef .tc main_v38)) := by
  after_results
  rfl

/-! ## Under the range condition the guarded take is the plain gather -/

/-- What holds of every entry of an array holds of every entry of a broadcast of it. -/
theorem broadcastInDim_forall {s t : Shape} {α : Type} (dims : Fin s.rank → Fin t.rank) (h : s.BroadcastsInDim t dims)
    (x : s.Idx → α) (P : α → Prop) (hx : ∀ k, P (x k)) (j : t.Idx) : P (broadcastInDim t dims h x j) := by
  unfold broadcastInDim
  exact hx _

/-- The wrap at one row: a negative word has 50000 added. -/
theorem wrapRow_apply (r : IVec S500000 32) (k : S500000.Idx) :
    wrapRow r k = Scalar.select (IntOp.cmpi .slt (r k) 0#32) (IntOp.addi (r k) 50000#32) (r k) := rfl

theorem guardedTake_eq (tbl : FVec Ideal S50000x128 .f32) (r : IVec S500000 32)
    (h : ∀ e : S500000.Idx, IntOp.cmpi .sge (r e) 4294917296#32 = 1#1 ∧ IntOp.cmpi .slt (r e) 50000#32 = 1#1) :
    guardedTake tbl r
      = Host.gather gather_S50000x128_S500000x1_S500000x128_1_0_n_n_0_1_1128 tbl
          (broadcastInDim S500000x1 ![0] bcast_S500000_S500000x1_0 (wrapRow r)) := by
  unfold guardedTake
  refine Cert.TakeMask.select_of_all _ _ _ fun i => ?_
  refine broadcastInDim_forall _ _ _ (fun w => w = 1#1) (fun j => ?_) i
  refine Cert.TakeMask.reduce_andi_of_all _ _ _ _ rfl (fun p => ?_) j
  refine IntOp.andi_eq_one.2 ⟨?_, ?_⟩
  · show IntOp.cmpi .sge (broadcastInDim S500000x1 ![0] bcast_S500000_S500000x1_0 (wrapRow r) p)
      (broadcastInDim S500000x1 ![] bcast_S_S500000x1 (constantI S_ 32 0#32) p) = 1#1
    rw [broadcastInDim_forall _ bcast_S_S500000x1 (constantI S_ 32 0#32) (fun w => w = 0#32) (fun _ => rfl) p]
    exact broadcastInDim_forall _ bcast_S500000_S500000x1_0 (wrapRow r) (fun w => IntOp.cmpi .sge w 0#32 = 1#1)
      (fun k => (Cert.TakeWords.wrap_passes (r k) (h k).1 (h k).2).1) p
  · show IntOp.cmpi .sle (broadcastInDim S500000x1 ![0] bcast_S500000_S500000x1_0 (wrapRow r) p)
      (broadcastInDim S500000x1 ![0, 1] bcast_S1x1_S500000x1_0_1
        (broadcastInDim S1x1 ![1] bcast_S1_S1x1_1 (constantI S1 32 49999#32)) p) = 1#1
    rw [broadcastInDim_forall _ bcast_S1x1_S500000x1_0_1 (broadcastInDim S1x1 ![1] bcast_S1_S1x1_1 (constantI S1 32 49999#32))
      (fun w => w = 49999#32)
      (fun q => broadcastInDim_forall _ bcast_S1_S1x1_1 (constantI S1 32 49999#32) (fun w => w = 49999#32) (fun _ => rfl) q) p]
    exact broadcastInDim_forall _ bcast_S500000_S500000x1_0 (wrapRow r) (fun w => IntOp.cmpi .sle w 49999#32 = 1#1)
      (fun k => (Cert.TakeWords.wrap_passes (r k) (h k).1 (h k).2).2) p

/-- The segment sum of the guarded take along an edge list in range is the aggregate. -/
theorem scatter_guardedTake (tbl : FVec Ideal S50000x128 .f32) (E : IVec S2x500000 32) (h : InRange E) :
    Host.scatterAdd scatter_S50000x128_S500000x1_S500000x128_1_0_0_1
        (broadcastInDim S50000x128 ![] bcast_S_S50000x128 (constant (F := Ideal) S_ .f32 0x00000000#32))
        (broadcastInDim S500000x1 ![0] bcast_S500000_S500000x1_0 (dstRow E)) (guardedTake tbl (srcRow E))
      = agg tbl E := by
  rw [guardedTake_eq tbl (srcRow E) h]
  rfl

end Walk2

open Walk2

variable (m : (ℓ : Loc nD τ sig) → Buf (Elt Ideal) ℓ) (ρ : Dev nD → PrngReg)

namespace Walk2

/-! ## The walk from the projections' exit to the cells' entry

A reference none of the first k stretches writes holds after them what it held at the projections' exit. -/

theorem W4_keep (c : Dev nD) {r : Ref sig .tc} (h0 : r ∉ wr2) :
    W4 m ρ c (Proc.devRef .tc r) = W3 m ρ c (Proc.devRef .tc r) :=
  keep2 _ h0
theorem W5_keep (c : Dev nD) {r : Ref sig .tc} (h0 : r ∉ wr2) (h1 : r ∉ wr2_1) :
    W5 m ρ c (Proc.devRef .tc r) = W3 m ρ c (Proc.devRef .tc r) :=
  (keep2_1 _ h1).trans (W4_keep m ρ c h0)
theorem W6_keep (c : Dev nD) {r : Ref sig .tc} (h0 : r ∉ wr2) (h1 : r ∉ wr2_1) (h2 : r ∉ wr2_2) :
    W6 m ρ c (Proc.devRef .tc r) = W3 m ρ c (Proc.devRef .tc r) :=
  (keep2_2 _ h2).trans (W5_keep m ρ c h0 h1)
theorem W7_keep (c : Dev nD) {r : Ref sig .tc} (h0 : r ∉ wr2) (h1 : r ∉ wr2_1) (h2 : r ∉ wr2_2) (h3 : r ∉ wr2_3) :
    W7 m ρ c (Proc.devRef .tc r) = W3 m ρ c (Proc.devRef .tc r) :=
  (keep2_3 _ h3).trans (W6_keep m ρ c h0 h1 h2)
theorem W8_keep (c : Dev nD) {r : Ref sig .tc} (h0 : r ∉ wr2) (h1 : r ∉ wr2_1) (h2 : r ∉ wr2_2) (h3 : r ∉ wr2_3)
    (h4 : r ∉ wr2_4) : W8 m ρ c (Proc.devRef .tc r) = W3 m ρ c (Proc.devRef .tc r) :=
  (keep2_4 _ h4).trans (W7_keep m ρ c h0 h1 h2 h3)
theorem W9_keep (c : Dev nD) {r : Ref sig .tc} (h0 : r ∉ wr2) (h1 : r ∉ wr2_1) (h2 : r ∉ wr2_2) (h3 : r ∉ wr2_3)
    (h4 : r ∉ wr2_4) (h5 : r ∉ wr2_5) : W9 m ρ c (Proc.devRef .tc r) = W3 m ρ c (Proc.devRef .tc r) :=
  (keep2_5 _ h5).trans (W8_keep m ρ c h0 h1 h2 h3 h4)
theorem W10_keep (c : Dev nD) {r : Ref sig .tc} (h0 : r ∉ wr2) (h1 : r ∉ wr2_1) (h2 : r ∉ wr2_2) (h3 : r ∉ wr2_3)
    (h4 : r ∉ wr2_4) (h5 : r ∉ wr2_5) (h6 : r ∉ wr2_6) : W10 m ρ c (Proc.devRef .tc r) = W3 m ρ c (Proc.devRef .tc r) :=
  (keep2_6 _ h6).trans (W9_keep m ρ c h0 h1 h2 h3 h4 h5)

end Walk2

theorem W10_v27 (c : Dev nD) (h : InRange (W3 m ρ c (Proc.devRef .tc main_arg2))) :
    W10 m ρ c (Proc.devRef .tc main_v27) = agg (W3 m ρ c (Proc.devRef .tc main_v18_0)) (W3 m ρ c (Proc.devRef .tc main_arg2)) := by
  -- the last four stretches leave the aggregate as the third stretch wrote it
  have e : W10 m ρ c (Proc.devRef .tc main_v27) = W6 m ρ c (Proc.devRef .tc main_v27) :=
    (keep2_6 _ (by decide)).trans ((keep2_5 _ (by decide)).trans ((keep2_4 _ (by decide)).trans (keep2_3 _ (by decide))))
  -- its operands: the edge list untouched, the take of the untouched table along the edge list's source row
  have eE : W5 m ρ c (Proc.devRef .tc main_arg2) = W3 m ρ c (Proc.devRef .tc main_arg2) := W5_keep m ρ c (by decide) (by decide)
  have eT : W4 m ρ c (Proc.devRef .tc main_v18_0) = W3 m ρ c (Proc.devRef .tc main_v18_0) := W4_keep m ρ c (by decide)
  have eR : W4 m ρ c (Proc.devRef .tc main_v21) = srcRow (W3 m ρ c (Proc.devRef .tc main_arg2)) := ops2_v21 (W3 m ρ c)
  have eU : W5 m ρ c (Proc.devRef .tc main_v22)
      = guardedTake (W3 m ρ c (Proc.devRef .tc main_v18_0)) (srcRow (W3 m ρ c (Proc.devRef .tc main_arg2))) :=
    (ops2_1_v22 (W4 m ρ c)).trans (by rw [eT, eR])
  refine (e.trans (ops2_2_v27 (W5 m ρ c))).trans ?_
  rw [eE, eU]
  exact scatter_guardedTake _ _ h
theorem W10_v35 (c : Dev nD) (h : InRange (W3 m ρ c (Proc.devRef .tc main_arg3))) :
    W10 m ρ c (Proc.devRef .tc main_v35) = agg (W3 m ρ c (Proc.devRef .tc main_v19_1)) (W3 m ρ c (Proc.devRef .tc main_arg3)) := by
  -- the last two stretches leave the aggregate as the fifth stretch wrote it
  have e : W10 m ρ c (Proc.devRef .tc main_v35) = W8 m ρ c (Proc.devRef .tc main_v35) :=
    (keep2_6 _ (by decide)).trans (keep2_5 _ (by decide))
  have eE : W7 m ρ c (Proc.devRef .tc main_arg3) = W3 m ρ c (Proc.devRef .tc main_arg3) :=
    W7_keep m ρ c (by decide) (by decide) (by decide) (by decide)
  have eE' : W5 m ρ c (Proc.devRef .tc main_arg3) = W3 m ρ c (Proc.devRef .tc main_arg3) := W5_keep m ρ c (by decide) (by decide)
  have eT : W6 m ρ c (Proc.devRef .tc main_v19_1) = W3 m ρ c (Proc.devRef .tc main_v19_1) :=
    W6_keep m ρ c (by decide) (by decide) (by decide)
  have eR : W6 m ρ c (Proc.devRef .tc main_v29) = srcRow (W3 m ρ c (Proc.devRef .tc main_arg3)) :=
    (ops2_2_v29 (W5 m ρ c)).trans (by rw [eE'])
  have eU : W7 m ρ c (Proc.devRef .tc main_v30)
      = guardedTake (W3 m ρ c (Proc.devRef .tc main_v19_1)) (srcRow (W3 m ρ c (Proc.devRef .tc main_arg3))) :=
    (ops2_3_v30 (W6 m ρ c)).trans (by rw [eT, eR])
  refine (e.trans (ops2_4_v35 (W7 m ρ c))).trans ?_
  rw [eE, eU]
  exact scatter_guardedTake _ _ h
theorem W10_v43 (c : Dev nD) (h : InRange (W3 m ρ c (Proc.devRef .tc main_arg4))) :
    W10 m ρ c (Proc.devRef .tc main_v43) = agg (W3 m ρ c (Proc.devRef .tc main_v19_2)) (W3 m ρ c (Proc.devRef .tc main_arg4)) := by
  have eE : W9 m ρ c (Proc.devRef .tc main_arg4) = W3 m ρ c (Proc.devRef .tc main_arg4) :=
    W9_keep m ρ c (by decide) (by decide) (by decide) (by decide) (by decide) (by decide)
  have eE' : W7 m ρ c (Proc.devRef .tc main_arg4) = W3 m ρ c (Proc.devRef .tc main_arg4) :=
    W7_keep m ρ c (by decide) (by decide) (by decide) (by decide)
  have eT : W8 m ρ c (Proc.devRef .tc main_v19_2) = W3 m ρ c (Proc.devRef .tc main_v19_2) :=
    W8_keep m ρ c (by decide) (by decide) (by decide) (by decide) (by decide)
  have eR : W8 m ρ c (Proc.devRef .tc main_v37) = srcRow (W3 m ρ c (Proc.devRef .tc main_arg4)) :=
    (ops2_4_v37 (W7 m ρ c)).trans (by rw [eE'])
  have eU : W9 m ρ c (Proc.devRef .tc main_v38)
      = guardedTake (W3 m ρ c (Proc.devRef .tc main_v19_2)) (srcRow (W3 m ρ c (Proc.devRef .tc main_arg4))) :=
    (ops2_5_v38 (W8 m ρ c)).trans (by rw [eT, eR])
  refine (ops2_6_v43 (W9 m ρ c)).trans ?_
  rw [eE, eU]
  exact scatter_guardedTake _ _ h
theorem W10_keep_v19_0 (c : Dev nD) : W10 m ρ c (Proc.devRef .tc main_v19_0) = W3 m ρ c (Proc.devRef .tc main_v19_0) :=
  W10_keep m ρ c (by decide) (by decide) (by decide) (by decide) (by decide) (by decide) (by decide)
theorem W10_keep_v18_1 (c : Dev nD) : W10 m ρ c (Proc.devRef .tc main_v18_1) = W3 m ρ c (Proc.devRef .tc main_v18_1) :=
  W10_keep m ρ c (by decide) (by decide) (by decide) (by decide) (by decide) (by decide) (by decide)
theorem W10_keep_v18_2 (c : Dev nD) : W10 m ρ c (Proc.devRef .tc main_v18_2) = W3 m ρ c (Proc.devRef .tc main_v18_2) :=
  W10_keep m ρ c (by decide) (by decide) (by decide) (by decide) (by decide) (by decide) (by decide)
theorem W10_keep_v6 (c : Dev nD) : W10 m ρ c (Proc.devRef .tc main_v6) = W3 m ρ c (Proc.devRef .tc main_v6) :=
  W10_keep m ρ c (by decide) (by decide) (by decide) (by decide) (by decide) (by decide) (by decide)
theorem W10_keep_v7 (c : Dev nD) : W10 m ρ c (Proc.devRef .tc main_v7) = W3 m ρ c (Proc.devRef .tc main_v7) :=
  W10_keep m ρ c (by decide) (by decide) (by decide) (by decide) (by decide) (by decide) (by decide)
theorem W10_keep_v8 (c : Dev nD) : W10 m ρ c (Proc.devRef .tc main_v8) = W3 m ρ c (Proc.devRef .tc main_v8) :=
  W10_keep m ρ c (by decide) (by decide) (by decide) (by decide) (by decide) (by decide) (by decide)
theorem W10_keep_v9 (c : Dev nD) : W10 m ρ c (Proc.devRef .tc main_v9) = W3 m ρ c (Proc.devRef .tc main_v9) :=
  W10_keep m ρ c (by decide) (by decide) (by decide) (by decide) (by decide) (by decide) (by decide)
theorem W10_keep_v10 (c : Dev nD) : W10 m ρ c (Proc.devRef .tc main_v10) = W3 m ρ c (Proc.devRef .tc main_v10) :=
  W10_keep m ρ c (by decide) (by decide) (by decide) (by decide) (by decide) (by decide) (by decide)
theorem W10_keep_v11 (c : Dev nD) : W10 m ρ c (Proc.devRef .tc main_v11) = W3 m ρ c (Proc.devRef .tc main_v11) :=
  W10_keep m ρ c (by decide) (by decide) (by decide) (by decide) (by decide) (by decide) (by decide)
theorem W10_keep_v12 (c : Dev nD) : W10 m ρ c (Proc.devRef .tc main_v12) = W3 m ρ c (Proc.devRef .tc main_v12) :=
  W10_keep m ρ c (by decide) (by decide) (by decide) (by decide) (by decide) (by decide) (by decide)
theorem W10_keep_v13 (c : Dev nD) : W10 m ρ c (Proc.devRef .tc main_v13) = W3 m ρ c (Proc.devRef .tc main_v13) :=
  W10_keep m ρ c (by decide) (by decide) (by decide) (by decide) (by decide) (by decide) (by decide)
theorem W10_keep_v14 (c : Dev nD) : W10 m ρ c (Proc.devRef .tc main_v14) = W3 m ρ c (Proc.devRef .tc main_v14) :=
  W10_keep m ρ c (by decide) (by decide) (by decide) (by decide) (by decide) (by decide) (by decide)
theorem W10_keep_v15 (c : Dev nD) : W10 m ρ c (Proc.devRef .tc main_v15) = W3 m ρ c (Proc.devRef .tc main_v15) :=
  W10_keep m ρ c (by decide) (by decide) (by decide) (by decide) (by decide) (by decide) (by decide)
theorem W10_keep_v16 (c : Dev nD) : W10 m ρ c (Proc.devRef .tc main_v16) = W3 m ρ c (Proc.devRef .tc main_v16) :=
  W10_keep m ρ c (by decide) (by decide) (by decide) (by decide) (by decide) (by decide) (by decide)
theorem W10_keep_v17 (c : Dev nD) : W10 m ρ c (Proc.devRef .tc main_v17) = W3 m ρ c (Proc.devRef .tc main_v17) :=
  W10_keep m ρ c (by decide) (by decide) (by decide) (by decide) (by decide) (by decide) (by decide)

end Cert.KV

end
-- ==== Proof.KGru2.lean ====
/-
  Region 2 (the single-cell kernel): its output array, after the pipeline has run over the 25 row blocks, is
  max(cell, 0) of the whole input arrays, the cell read over the transposed weights and one-row biases it is given.

  The body computes, on a block of 2000 rows, the two gate products gi = x0 x4 + x8 and gh = x2 x6 + x10 (width 384),
  cuts each into thirds at columns 0, 128, 256, and stores
    max((1 − σ(gi₁ + gh₁)) · tanh(gi₂ + σ(gi₀ + gh₀) · gh₂) + σ(gi₁ + gh₁) · x2, 0).
  Entry (p, q) of that depends only on row p of the two feature blocks, on the whole gate matrices and on the bias rows.
  Block t of the two feature arrays is rows 2000 t … 2000 t + 1999, the matrices and bias rows are whole at every
  point, and block t of the output is the same rows: so point t writes back rows 2000 t … 2000 t + 1999 of the cell
  over the whole arrays, and the 25 blocks cover the 50000 rows.
-/
import proofs.«408718_j59854664237684_1_alg».proof.Proof.Gen.KernelIdeal.Frame
import proofs.«408718_j59854664237684_1_alg».proof.Proof.Spec
import proofs.«408718_j59854664237684_1_alg».proof.Proof.SpecLaws
import proofs.«408718_j59854664237684_1_alg».proof.Proof.LibPlainMatmul
import Idealize.ShloMosaic.Lib.ValueLayout

set_option maxRecDepth 16384

noncomputable section

namespace Cert.KV

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

namespace Gru2

/-! ## The body's value at an entry of a block -/

/-- The gate products contract the left operand's columns with the right operand's rows, with no batch axes. -/
theorem gateDot_plain : dot_S2000x128_S128x384_S2000x384_1_0_0_1_n_n = DotDims.plain 2000 128 384 := rfl

/-- A gate product at entry (p, c): row p of the block times column c of the matrix, plus entry c of the bias row.
    Rounding the operands to a narrower format changes nothing over the extended reals. -/
theorem gateProduct_apply (x : FVec Ideal S2000x128 .f32) (W : FVec Ideal S128x384 .f32) (b : FVec Ideal S1x384 .f32)
    (p : Fin 2000) (c : Fin 384) :
    addf (matmul dot_S2000x128_S128x384_S2000x384_1_0_0_1_n_n none
          (truncf .bf16 (shapeCast S2000x128 x shapeCasts_S2000x128_S2000x128) bitsLt_bf16_f32)
          (truncf .bf16 (shapeCast S128x384 W shapeCasts_S128x384_S128x384) bitsLt_bf16_f32)
          (constant S2000x384 .f32 0x00000000#32))
        (broadcastTo S2000x384 (shapeCast S1x384 b shapeCasts_S1x384_S1x384) broadcasts_S1x384_S2000x384) (ix2 p c)
      = (∑ k : Fin 128, x (ix2 p k) * W (ix2 k c)) + b (ix2 (0 : Fin 1) c) := by
  rw [addf_apply, gateDot_plain, shapeCast_self, shapeCast_self, shapeCast_self]
  refine congrArg₂ (· + ·) ?_ (broadcastTo_1b_ab_apply b broadcasts_S1x384_S2000x384 p c)
  refine (Cert.PlainMatmul.apply none _ _ p c).trans ?_
  rfl

theorem logistic_at {s : Shape} {φ : FTy} (a : FVec Ideal s φ) (i : s.Idx) : logistic a i = Ideal.logistic (a i) := rfl

theorem tanh_at {s : Shape} {φ : FTy} (a : FVec Ideal s φ) (i : s.Idx) : tanh a i = Ideal.tanh (a i) := rfl

/-- The cell at row p of a block, channel q, over the two feature blocks x0, x2, the two gate matrices x4, x6 and the
    two bias rows x8, x10: with gi = x0 x4 + x8 and gh = x2 x6 + x10 read at columns q, 128 + q, 256 + q,
    (1 − σ(gi₁ + gh₁)) · tanh(gi₂ + σ(gi₀ + gh₀) · gh₂) + σ(gi₁ + gh₁) · x2 (p, q). -/
def blockCell (x0 x2 : FVec Ideal S2000x128 .f32) (x4 x6 : FVec Ideal S128x384 .f32) (x8 x10 : FVec Ideal S1x384 .f32)
    (p : Fin 2000) (q : Fin 128) : EReal :=
  (Spec.one - Spec.sig (((∑ k : Fin 128, x0 (ix2 p k) * x4 (ix2 k (Spec.c1 q))) + x8 (ix2 (0 : Fin 1) (Spec.c1 q)))
        + ((∑ k : Fin 128, x2 (ix2 p k) * x6 (ix2 k (Spec.c1 q))) + x10 (ix2 (0 : Fin 1) (Spec.c1 q)))))
      * Ideal.tanh (((∑ k : Fin 128, x0 (ix2 p k) * x4 (ix2 k (Spec.c2 q))) + x8 (ix2 (0 : Fin 1) (Spec.c2 q)))
          + Spec.sig (((∑ k : Fin 128, x0 (ix2 p k) * x4 (ix2 k (Spec.c0 q))) + x8 (ix2 (0 : Fin 1) (Spec.c0 q)))
              + ((∑ k : Fin 128, x2 (ix2 p k) * x6 (ix2 k (Spec.c0 q))) + x10 (ix2 (0 : Fin 1) (Spec.c0 q))))
            * ((∑ k : Fin 128, x2 (ix2 p k) * x6 (ix2 k (Spec.c2 q))) + x10 (ix2 (0 : Fin 1) (Spec.c2 q))))
    + Spec.sig (((∑ k : Fin 128, x0 (ix2 p k) * x4 (ix2 k (Spec.c1 q))) + x8 (ix2 (0 : Fin 1) (Spec.c1 q)))
        + ((∑ k : Fin 128, x2 (ix2 p k) * x6 (ix2 k (Spec.c1 q))) + x10 (ix2 (0 : Fin 1) (Spec.c1 q)))) * x2 (ix2 p q)

/-- The elementwise part of the cell at entry (p, q), over any two arrays gi, gh of width 384 and a block h: the three
    column slices of each read columns q, 128 + q and 256 + q, every other operation acts entry by entry, and the
    logistic function is 1 / (1 + e^(−x)). -/
theorem cellTail_apply (gi gh : FVec Ideal S2000x384 .f32) (h : FVec Ideal S2000x128 .f32) (p : Fin 2000) (q : Fin 128) :
    maximumf
      (addf
        (mulf
          (subf (broadcast S2000x128 (FloatOps.ofBits (F := Ideal) .f32 0x3F800000#32))
            (logistic
              (addf (extractStridedSlice S2000x128 ![0, 128] gi slices_S2000x384_o0_128_S2000x128)
                (extractStridedSlice S2000x128 ![0, 128] gh slices_S2000x384_o0_128_S2000x128))))
          (tanh
            (addf (extractStridedSlice S2000x128 ![0, 256] gi slices_S2000x384_o0_256_S2000x128)
              (mulf
                (logistic
                  (addf (extractStridedSlice S2000x128 ![0, 0] gi slices_S2000x384_o0_0_S2000x128)
                    (extractStridedSlice S2000x128 ![0, 0] gh slices_S2000x384_o0_0_S2000x128)))
                (extractStridedSlice S2000x128 ![0, 256] gh slices_S2000x384_o0_256_S2000x128)))))
        (mulf
          (logistic
            (addf (extractStridedSlice S2000x128 ![0, 128] gi slices_S2000x384_o0_128_S2000x128)
              (extractStridedSlice S2000x128 ![0, 128] gh slices_S2000x384_o0_128_S2000x128)))
          h))
      (broadcast S2000x128 (FloatOps.ofBits (F := Ideal) .f32 0x00000000#32)) (ix2 p q)
    = max ((Spec.one - Spec.sig (gi (ix2 p (Spec.c1 q)) + gh (ix2 p (Spec.c1 q))))
          * Ideal.tanh (gi (ix2 p (Spec.c2 q)) + Spec.sig (gi (ix2 p (Spec.c0 q)) + gh (ix2 p (Spec.c0 q))) * gh (ix2 p (Spec.c2 q)))
        + Spec.sig (gi (ix2 p (Spec.c1 q)) + gh (ix2 p (Spec.c1 q))) * h (ix2 p q)) Spec.zero := by
  have s0 (X : FVec Ideal S2000x384 .f32) :
      extractStridedSlice S2000x128 ![0, 0] X slices_S2000x384_o0_0_S2000x128 (ix2 p q) = X (ix2 p (Spec.c0 q)) :=
    slice2_axis1_apply 0 X slices_S2000x384_o0_0_S2000x128 p q (Spec.c0 q) (Nat.zero_add _).symm
  have s1 (X : FVec Ideal S2000x384 .f32) :
      extractStridedSlice S2000x128 ![0, 128] X slices_S2000x384_o0_128_S2000x128 (ix2 p q) = X (ix2 p (Spec.c1 q)) :=
    slice2_axis1_apply 128 X slices_S2000x384_o0_128_S2000x128 p q (Spec.c1 q) rfl
  have s2 (X : FVec Ideal S2000x384 .f32) :
      extractStridedSlice S2000x128 ![0, 256] X slices_S2000x384_o0_256_S2000x128 (ix2 p q) = X (ix2 p (Spec.c2 q)) :=
    slice2_axis1_apply 256 X slices_S2000x384_o0_256_S2000x128 p q (Spec.c2 q) rfl
  simp only [maximumf_apply, addf_apply, mulf_apply, subf_apply, broadcast_apply, logistic_at, tanh_at, s0, s1, s2,
    Spec.sig_eq_logistic]
  rfl

/-- The body's stored value at entry (p, q) of its block: max(cell, 0) of the block's row p. -/
theorem payload_apply (x0 x2 : Vec Ideal S2000x128 .f32) (x4 x6 : Vec Ideal S128x384 .f32) (x8 x10 : Vec Ideal S1x384 .f32)
    (p : Fin 2000) (q : Fin 128) :
    k2_pay1 (F := Ideal) x0 x2 x4 x6 x8 x10 (ix2 p q) = max (blockCell x0 x2 x4 x6 x8 x10 p q) Spec.zero := by
  unfold k2_pay1
  refine (cellTail_apply _ _ _ p q).trans ?_
  rw [gateProduct_apply x0 x4 x8 p (Spec.c0 q), gateProduct_apply x0 x4 x8 p (Spec.c1 q),
    gateProduct_apply x0 x4 x8 p (Spec.c2 q), gateProduct_apply x2 x6 x10 p (Spec.c0 q),
    gateProduct_apply x2 x6 x10 p (Spec.c1 q), gateProduct_apply x2 x6 x10 p (Spec.c2 q), shapeCast_self]
  rfl

/-- The cell over a block's row p is the cell over the whole arrays at row r, when row p of each feature block is row r
    of its array and the matrices and bias rows are the whole arrays. -/
theorem blockCell_eq (tx h : FVec Ideal Spec.SN .f32) (wi wh : FVec Ideal Spec.SGt .f32) (bi bh : FVec Ideal Spec.SB2 .f32)
    (x0 x2 : FVec Ideal S2000x128 .f32) (x4 x6 : FVec Ideal S128x384 .f32) (x8 x10 : FVec Ideal S1x384 .f32)
    (r : Fin 50000) (p : Fin 2000)
    (h0 : ∀ k : Fin 128, x0 (ix2 p k) = tx (ix2 r k)) (h2 : ∀ k : Fin 128, x2 (ix2 p k) = h (ix2 r k))
    (h4 : x4 = wi) (h6 : x6 = wh) (h8 : x8 = bi) (h10 : x10 = bh) (q : Fin 128) :
    blockCell x0 x2 x4 x6 x8 x10 p q = Spec.gruAtT tx h wi wh bi bh r q := by
  subst h4 h6 h8 h10
  unfold blockCell Spec.gruAtT Spec.gateT
  simp only [h0, h2]

/-! ## Where each window's block sits -/

theorem zero_offsets : (![0, 0] : Fin 2 → Nat) = fun _ => 0 := funext fun a => by fin_cases a <;> rfl

/-- The index maps over the grid: the two feature windows and the output window sit at block (t, 0), the two gate
    matrices and the two bias rows at block (0, 0). -/
theorem block_positions : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem point_lt (t : Fin cfg2.N) : t.val < 25 := lt_of_lt_of_eq t.isLt N_2

/-- Row p of the first feature block at point t is row 2000 t + p of its array. -/
theorem txBlock_row (c : Dev nD) (t : Fin cfg2.N) (p : Fin 2000) (k : Fin 128) (r : Fin 50000)
    (hr : r.val = 2000 * t.val + p.val) :
    (iblk2 V c 0 t : Vec Ideal S2000x128 .f32) (ix2 p k) = (V c main_v19_0 : FVec Ideal Spec.SN .f32) (ix2 r k) := by
  obtain ⟨e0, e1, -⟩ := block_positions t
  show V c main_v19_0 (((cfg2.win 0).blk t).view.emb (ix2 p k)) = V c main_v19_0 (ix2 r k)
  have h : ((cfg2.win 0).blk t).view.emb (ix2 p k) = ix2 r k := funext fun a => Fin.ext (by
    match a with
    | ⟨0, _⟩ => show win2_0.index t (0 : Fin 2) * 2000 + 1 * p.val = r.val; omega
    | ⟨1, _⟩ => show win2_0.index t (1 : Fin 2) * 128 + 1 * k.val = k.val; omega)
  rw [h]

/-- Row p of the second feature block at point t is row 2000 t + p of its array. -/
theorem hBlock_row (c : Dev nD) (t : Fin cfg2.N) (p : Fin 2000) (k : Fin 128) (r : Fin 50000)
    (hr : r.val = 2000 * t.val + p.val) :
    (iblk2 V c 1 t : Vec Ideal S2000x128 .f32) (ix2 p k) = (V c main_v27 : FVec Ideal Spec.SN .f32) (ix2 r k) := by
  obtain ⟨-, -, e0, e1, -⟩ := block_positions t
  show V c main_v27 (((cfg2.win 1).blk t).view.emb (ix2 p k)) = V c main_v27 (ix2 r k)
  have h : ((cfg2.win 1).blk t).view.emb (ix2 p k) = ix2 r k := funext fun a => Fin.ext (by
    match a with
    | ⟨0, _⟩ => show win2_1.index t (0 : Fin 2) * 2000 + 1 * p.val = r.val; omega
    | ⟨1, _⟩ => show win2_1.index t (1 : Fin 2) * 128 + 1 * k.val = k.val; omega)
  rw [h]

/-- The two gate matrices' blocks are the whole matrices at every point, -/
theorem wihBlock_whole (c : Dev nD) (t : Fin cfg2.N) :
    (iblk2 V c 2 t : Vec Ideal S128x384 .f32) = (V c main_v6 : FVec Ideal Spec.SGt .f32) := by
  obtain ⟨-, -, -, -, e0, e1, -⟩ := block_positions t
  funext y
  show V c main_v6 (((cfg2.win 2).blk t).view.emb y) = V c main_v6 y
  have h : ((cfg2.win 2).blk t).view.emb y = y := funext fun a => Fin.ext (by
    match a with
    | ⟨0, _⟩ => show win2_2.index t (0 : Fin 2) * 128 + 1 * (y 0).val = (y 0).val; omega
    | ⟨1, _⟩ => show win2_2.index t (1 : Fin 2) * 384 + 1 * (y 1).val = (y 1).val; omega)
  rw [h]

theorem whhBlock_whole (c : Dev nD) (t : Fin cfg2.N) :
    (iblk2 V c 3 t : Vec Ideal S128x384 .f32) = (V c main_v7 : FVec Ideal Spec.SGt .f32) := by
  obtain ⟨-, -, -, -, -, -, e0, e1, -⟩ := block_positions t
  funext y
  show V c main_v7 (((cfg2.win 3).blk t).view.emb y) = V c main_v7 y
  have h : ((cfg2.win 3).blk t).view.emb y = y := funext fun a => Fin.ext (by
    match a with
    | ⟨0, _⟩ => show win2_3.index t (0 : Fin 2) * 128 + 1 * (y 0).val = (y 0).val; omega
    | ⟨1, _⟩ => show win2_3.index t (1 : Fin 2) * 384 + 1 * (y 1).val = (y 1).val; omega)
  rw [h]

/-- and the two bias rows' blocks the whole rows. -/
theorem bihBlock_whole (c : Dev nD) (t : Fin cfg2.N) :
    (iblk2 V c 4 t : Vec Ideal S1x384 .f32) = (V c main_v12 : FVec Ideal Spec.SB2 .f32) := by
  obtain ⟨-, -, -, -, -, -, -, -, e0, e1, -⟩ := block_positions t
  funext y
  show V c main_v12 (((cfg2.win 4).blk t).view.emb y) = V c main_v12 y
  have h : ((cfg2.win 4).blk t).view.emb y = y := funext fun a => Fin.ext (by
    match a with
    | ⟨0, _⟩ => show win2_4.index t (0 : Fin 2) * 1 + 1 * (y 0).val = (y 0).val; omega
    | ⟨1, _⟩ => show win2_4.index t (1 : Fin 2) * 384 + 1 * (y 1).val = (y 1).val; omega)
  rw [h]

theorem bhhBlock_whole (c : Dev nD) (t : Fin cfg2.N) :
    (iblk2 V c 5 t : Vec Ideal S1x384 .f32) = (V c main_v13 : FVec Ideal Spec.SB2 .f32) := by
  obtain ⟨-, -, -, -, -, -, -, -, -, -, e0, e1, -⟩ := block_positions t
  funext y
  show V c main_v13 (((cfg2.win 5).blk t).view.emb y) = V c main_v13 y
  have h : ((cfg2.win 5).blk t).view.emb y = y := funext fun a => Fin.ext (by
    match a with
    | ⟨0, _⟩ => show win2_5.index t (0 : Fin 2) * 1 + 1 * (y 0).val = (y 0).val; omega
    | ⟨1, _⟩ => show win2_5.index t (1 : Fin 2) * 384 + 1 * (y 1).val = (y 1).val; omega)
  rw [h]

/-! ## From the blocks to the array -/

/-- What point t writes back is block t — rows 2000 t … 2000 t + 1999 — of max(cell, 0) of the whole arrays. -/
theorem written_back (c : Dev nD) (t : Fin cfg2.N) :
    (dat2 (F := Ideal) V c).flushed 6 t = ((cfg2.win 6).blk t).view.read (Elt Ideal)
      (Spec.outSingle (Spec.gruT (V c main_v19_0) (V c main_v27) (V c main_v6) (V c main_v7) (V c main_v12) (V c main_v13))) := by
  show (cfg2.win 6).cut (grid2.coords t) ((dat2 V c).after 6 t) = _
  rw [after2_6]
  unfold out2_6
  rw [View.canon_unit_zero zero_offsets]
  simp only [View.ld_unit_zero (S := S2000x128) zero_offsets, View.ld_unit_zero (S := S128x384) zero_offsets,
    View.ld_unit_zero (S := S1x384) zero_offsets]
  funext j
  obtain ⟨p, q, rfl⟩ : ∃ (p : Fin 2000) (q : Fin 128), j = ix2 p q := ⟨j 0, j 1, eq_ix2 (n0 := 2000) (n1 := 128) j⟩
  have ht := point_lt t
  obtain ⟨-, -, -, -, -, -, -, -, -, -, -, -, e0, e1⟩ := block_positions t
  have hr : 2000 * t.val + p.val < 50000 := by have := p.isLt; omega
  have he : ((cfg2.win 6).blk t).view.emb (ix2 p q) = ix2 (⟨2000 * t.val + p.val, hr⟩ : Fin 50000) q :=
    funext fun a => Fin.ext (by
      match a with
      | ⟨0, _⟩ => show win2_6.index t (0 : Fin 2) * 2000 + 1 * p.val = 2000 * t.val + p.val; omega
      | ⟨1, _⟩ => show win2_6.index t (1 : Fin 2) * 128 + 1 * q.val = q.val; omega)
  show k2_pay1 (F := Ideal) (iblk2 V c 0 t) (iblk2 V c 1 t) (iblk2 V c 2 t) (iblk2 V c 3 t) (iblk2 V c 4 t) (iblk2 V c 5 t) (ix2 p q)
    = Spec.outSingle (Spec.gruT (V c main_v19_0) (V c main_v27) (V c main_v6) (V c main_v7) (V c main_v12) (V c main_v13))
        (((cfg2.win 6).blk t).view.emb (ix2 p q))
  rw [he, Spec.outSingle_apply, Spec.gruT_apply]
  refine (payload_apply (iblk2 V c 0 t) (iblk2 V c 1 t) (iblk2 V c 2 t) (iblk2 V c 3 t) (iblk2 V c 4 t) (iblk2 V c 5 t) p q).trans ?_
  refine congrArg (fun z : EReal => max z Spec.zero) ?_
  exact blockCell_eq (V c main_v19_0) (V c main_v27) (V c main_v6) (V c main_v7) (V c main_v12) (V c main_v13)
    (iblk2 V c 0 t) (iblk2 V c 1 t) (iblk2 V c 2 t) (iblk2 V c 3 t) (iblk2 V c 4 t) (iblk2 V c 5 t)
    ⟨2000 * t.val + p.val, hr⟩ p
    (fun k => txBlock_row V c t p k _ rfl) (fun k => hBlock_row V c t p k _ rfl)
    (wihBlock_whole V c t) (whhBlock_whole V c t) (bihBlock_whole V c t) (bhhBlock_whole V c t) q

/-- An index of the output array is in point t's block iff each coordinate is in the block's range on its axis. -/
theorem mem_outBlock (t : Fin cfg2.N) (i : S50000x128.Idx) :
    i ∈ ((cfg2.win 6).blk t).view.set ↔ ∀ a : Fin 2, win2_6.index t a * S2000x128.size a ≤ (i a).val
      ∧ (i a).val < win2_6.index t a * S2000x128.size a + S2000x128.size a := by
  show i ∈ ((View.whole main_v44).slice (win2_6.rect t)).set ↔ _
  rw [View.set_slice_whole, Rect.mem_set_unit]
  exact Iff.rfl

/-- Row r of the output array is written by point r / 2000. -/
theorem rows_covered (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  obtain ⟨t, ht⟩ : ∃ t : Fin cfg2.N, t.val = (i 0).val / 2000 :=
    ⟨⟨(i 0).val / 2000, by rw [show cfg2.N = 25 from N_2]; omega⟩, rfl⟩
  obtain ⟨-, -, -, -, -, -, -, -, -, -, -, -, e0, e1⟩ := block_positions t
  refine ⟨t, flush2_6 t, ?_⟩
  rw [mem_outBlock]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 128 ≤ (i 1).val ∧ (i 1).val < win2_6.index t (1 : Fin 2) * 128 + 128; omega

end Gru2

theorem arr2_6 (c : Dev nD) : (dat2 (F := Ideal) V c).arrAt 6 cfg2.N
    = Spec.outSingle (Spec.gruT (V c main_v19_0) (V c main_v27) (V c main_v6) (V c main_v7) (V c main_v12) (V c main_v13)) :=
  (dat2 V c).arrAt_eq_of_cover 6 _ (fun t _ => Gru2.written_back V c t) Gru2.rows_covered

end Cert.KV

end
-- ==== Proof.KGru3.lean ====
/-
  Region 3 (the two-cell kernel): its output array, after the pipeline has run over the 50 row blocks, is
  max((cell₂ + cell₃) / 2, 0) of the whole input arrays: the kernel halves the sum by a product with 0.5, which on the
  extended reals is the quotient by 2.

  First one block: a gate product of the block (row p of the block against the transposed gate matrix, plus the bias
  row) read at an entry, the three column slices, the cell's arithmetic, and so the body's stored vector at (p, q) as the
  two cells of the block's row p. Then the arrays: the block of a row window at point t is rows 1000 t … 1000 t + 999 of
  its array, the gate matrices and bias rows are fetched whole, so what point t writes back is block t of the result
  array; row r is written by point r / 1000, and the 50 blocks cover the array.
-/
import proofs.«408718_j59854664237684_1_alg».proof.Proof.Gen.KernelIdeal.Frame
import proofs.«408718_j59854664237684_1_alg».proof.Proof.Spec
import proofs.«408718_j59854664237684_1_alg».proof.Proof.SpecLaws
import proofs.«408718_j59854664237684_1_alg».proof.Proof.LibPlainMatmul

set_option maxRecDepth 16384

noncomputable section

namespace Cert.KV

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

namespace Gru3

/-! ## One gate product of a block -/

/-- The kernel's dimension numbers are the plain product's: the left operand's axis 1 against the right one's axis 0. -/
theorem dot3_plain : dot_S1000x128_S128x384_S1000x384_1_0_0_1_n_n = DotDims.plain 1000 128 384 := rfl

/-- Entry (p, c) of a block's gate pre-activations: row p of the block against column c of the transposed gate
    matrix, plus entry c of the bias row. -/
def bgate (t : FVec Ideal S1000x128 .f32) (W : FVec Ideal S128x384 .f32) (b : FVec Ideal S1x384 .f32)
    (p : Fin 1000) (c : Fin 384) : EReal :=
  (∑ k : Fin 128, t (ix2 p k) * W (ix2 k c)) + b (ix2 (0 : Fin 1) c)

/-- The product of the rounded operands into the zero accumulator plus the bias row spread over the rows, read at
    (p, c): rounding to bf16 is the identity on the extended reals. -/
theorem gate_entry (t : FVec Ideal S1000x128 .f32) (W : FVec Ideal S128x384 .f32) (b : FVec Ideal S1x384 .f32)
    (p : Fin 1000) (c : Fin 384) :
    addf (matmul dot_S1000x128_S128x384_S1000x384_1_0_0_1_n_n none (truncf .bf16 t bitsLt_bf16_f32) (truncf .bf16 W bitsLt_bf16_f32)
        (constant S1000x384 .f32 0x00000000#32)) (broadcastTo S1000x384 b broadcasts_S1x384_S1000x384) (ix2 p c)
      = bgate t W b p c := by
  unfold bgate
  rw [addf_apply]
  congr 1
  · rw [dot3_plain]
    exact Cert.PlainMatmul.apply none _ _ p c
  · refine broadcastTo_apply b broadcasts_S1x384_S1000x384 (ix2 p c) (ix2 (0 : Fin 1) c) fun a => ?_
    match a with
    | ⟨0, _⟩ => rfl
    | ⟨1, _⟩ => rfl

/-! ## The three column slices -/

/-- Columns 0 … 127 of a [1000, 384] block. -/
theorem slice0_entry (v : FVec Ideal S1000x384 .f32) (p : Fin 1000) (q : Fin 128) :
    extractStridedSlice S1000x128 ![0, 0] v slices_S1000x384_o0_0_S1000x128 (ix2 p q) = v (ix2 p (Spec.c0 q)) :=
  extractStridedSlice_apply ![0, 0] v slices_S1000x384_o0_0_S1000x128 (ix2 p q) (ix2 p (Spec.c0 q)) fun a => by
    match a with
    | ⟨0, _⟩ => exact (Nat.zero_add _).symm
    | ⟨1, _⟩ => exact (Nat.zero_add _).symm

/-- Columns 128 … 255. -/
theorem slice1_entry (v : FVec Ideal S1000x384 .f32) (p : Fin 1000) (q : Fin 128) :
    extractStridedSlice S1000x128 ![0, 128] v slices_S1000x384_o0_128_S1000x128 (ix2 p q) = v (ix2 p (Spec.c1 q)) :=
  extractStridedSlice_apply ![0, 128] v slices_S1000x384_o0_128_S1000x128 (ix2 p q) (ix2 p (Spec.c1 q)) fun a => by
    match a with
    | ⟨0, _⟩ => exact (Nat.zero_add _).symm
    | ⟨1, _⟩ => rfl

/-- Columns 256 … 383. -/
theorem slice2_entry (v : FVec Ideal S1000x384 .f32) (p : Fin 1000) (q : Fin 128) :
    extractStridedSlice S1000x128 ![0, 256] v slices_S1000x384_o0_256_S1000x128 (ix2 p q) = v (ix2 p (Spec.c2 q)) :=
  extractStridedSlice_apply ![0, 256] v slices_S1000x384_o0_256_S1000x128 (ix2 p q) (ix2 p (Spec.c2 q)) fun a => by
    match a with
    | ⟨0, _⟩ => exact (Nat.zero_add _).symm
    | ⟨1, _⟩ => rfl

/-! ## One cell of a block -/

/-- The logistic function and the hyperbolic tangent act entry by entry. -/
theorem logistic_entry (v : FVec Ideal S1000x128 .f32) (i : S1000x128.Idx) : logistic v i = Ideal.logistic (v i) := rfl
theorem tanh_entry (v : FVec Ideal S1000x128 .f32) (i : S1000x128.Idx) : tanh v i = Ideal.tanh (v i) := rfl

/-- The gated recurrent cell at row p, channel q of a block: the reset and update gates from columns q and 128 + q of
    the two gate products, the candidate from column 256 + q, the result (1 − z) · n + z · h. -/
def bcell (tx h : FVec Ideal S1000x128 .f32) (wihT whhT : FVec Ideal S128x384 .f32) (bih bhh : FVec Ideal S1x384 .f32)
    (p : Fin 1000) (q : Fin 128) : EReal :=
  (Spec.one - Spec.sig (bgate tx wihT bih p (Spec.c1 q) + bgate h whhT bhh p (Spec.c1 q)))
      * Ideal.tanh (bgate tx wihT bih p (Spec.c2 q)
          + Spec.sig (bgate tx wihT bih p (Spec.c0 q) + bgate h whhT bhh p (Spec.c0 q)) * bgate h whhT bhh p (Spec.c2 q))
    + Spec.sig (bgate tx wihT bih p (Spec.c1 q) + bgate h whhT bhh p (Spec.c1 q)) * h (ix2 p q)

/-- The cell's arithmetic over two gate products given as [1000, 384] vectors, at (p, q). -/
theorem cell_ops_entry (gi gh : FVec Ideal S1000x384 .f32) (h : FVec Ideal S1000x128 .f32) (p : Fin 1000) (q : Fin 128) :
    addf (mulf (subf (broadcast S1000x128 (Scalar.ofBits .f32 0x3F800000#32))
            (logistic (addf (extractStridedSlice S1000x128 ![0, 128] gi slices_S1000x384_o0_128_S1000x128)
              (extractStridedSlice S1000x128 ![0, 128] gh slices_S1000x384_o0_128_S1000x128))))
          (tanh (addf (extractStridedSlice S1000x128 ![0, 256] gi slices_S1000x384_o0_256_S1000x128)
            (mulf (logistic (addf (extractStridedSlice S1000x128 ![0, 0] gi slices_S1000x384_o0_0_S1000x128)
                (extractStridedSlice S1000x128 ![0, 0] gh slices_S1000x384_o0_0_S1000x128)))
              (extractStridedSlice S1000x128 ![0, 256] gh slices_S1000x384_o0_256_S1000x128)))))
        (mulf (logistic (addf (extractStridedSlice S1000x128 ![0, 128] gi slices_S1000x384_o0_128_S1000x128)
              (extractStridedSlice S1000x128 ![0, 128] gh slices_S1000x384_o0_128_S1000x128))) h) (ix2 p q)
      = (Spec.one - Spec.sig (gi (ix2 p (Spec.c1 q)) + gh (ix2 p (Spec.c1 q))))
          * Ideal.tanh (gi (ix2 p (Spec.c2 q))
              + Spec.sig (gi (ix2 p (Spec.c0 q)) + gh (ix2 p (Spec.c0 q))) * gh (ix2 p (Spec.c2 q)))
        + Spec.sig (gi (ix2 p (Spec.c1 q)) + gh (ix2 p (Spec.c1 q))) * h (ix2 p q) := by
  simp only [Spec.sig_eq_logistic, addf_apply, mulf_apply, subf_apply, broadcast_apply, logistic_entry, tanh_entry,
    slice0_entry, slice1_entry, slice2_entry]
  rfl

/-- The first cell's payload at (p, q): the casts to the same shape are the identity, the two gate products are
    `bgate`, and the rest is the cell's arithmetic. -/
theorem pay1_entry (x0 x2 : Vec Ideal S1000x128 .f32) (x4 x6 : Vec Ideal S128x384 .f32) (x8 x10 : Vec Ideal S1x384 .f32)
    (p : Fin 1000) (q : Fin 128) :
    k3_pay1 (F := Ideal) x0 x2 x4 x6 x8 x10 (ix2 p q) = bcell x0 x2 x4 x6 x8 x10 p q := by
  unfold k3_pay1
  simp only [shapeCast_self]
  refine (cell_ops_entry _ _ _ p q).trans ?_
  simp only [gate_entry]
  rfl

/-- The kernel's last payload at (p, q): the second cell of its block, added to the first cell's value, halved by a
    product with 0.5, which is the quotient by 2, and cut below at 0. -/
theorem pay3_entry (g2 tx3 : FVec Ideal S1000x128 .f32) (h3 : Vec Ideal S1000x128 .f32) (x44 x46 : Vec Ideal S128x384 .f32)
    (x48 x50 : Vec Ideal S1x384 .f32) (p : Fin 1000) (q : Fin 128) :
    k3_pay3 (F := Ideal) g2 tx3 h3 x44 x46 x48 x50 (ix2 p q)
      = max (Ideal.div (g2 (ix2 p q) + bcell tx3 h3 x44 x46 x48 x50 p q) Spec.two) Spec.zero := by
  unfold k3_pay3
  simp only [shapeCast_self]
  rw [maximumf_apply, mulf_apply, addf_apply, broadcast_apply, broadcast_apply, cell_ops_entry]
  simp only [gate_entry]
  exact congrArg (fun x => max x Spec.zero) (Spec.mul_half_eq_div_two _)

/-! ## From a block to the arrays -/

/-- A block's gate entry is the arrays' when row p of the block is row r of the array and the block of the matrix and
    of the bias row is the whole matrix and the whole row. -/
theorem bgate_eq (T : FVec Ideal Spec.SN .f32) (Wt : FVec Ideal Spec.SGt .f32) (b : FVec Ideal Spec.SB2 .f32)
    (x : Vec Ideal S1000x128 .f32) (xw : Vec Ideal S128x384 .f32) (xb : Vec Ideal S1x384 .f32) (r : Fin 50000) (p : Fin 1000)
    (hx : ∀ k : Fin 128, x (ix2 p k) = T (ix2 r k)) (hw : ∀ (k : Fin 128) (c : Fin 384), xw (ix2 k c) = Wt (ix2 k c))
    (hb : ∀ c : Fin 384, xb (ix2 (0 : Fin 1) c) = b (ix2 (0 : Fin 1) c)) (c : Fin 384) :
    bgate x xw xb p c = Spec.gateT T Wt b r c := by
  unfold bgate Spec.gateT
  rw [hb c]
  exact congrArg (· + b (ix2 (0 : Fin 1) c)) (Finset.sum_congr rfl fun k _ => by rw [hx k, hw k c])

/-- So a block's cell at (p, q) is the arrays' cell at (r, q). -/
theorem bcell_eq (T H : FVec Ideal Spec.SN .f32) (Wi Wh : FVec Ideal Spec.SGt .f32) (bi bh : FVec Ideal Spec.SB2 .f32)
    (x h : Vec Ideal S1000x128 .f32) (xwi xwh : Vec Ideal S128x384 .f32) (xbi xbh : Vec Ideal S1x384 .f32)
    (r : Fin 50000) (p : Fin 1000)
    (hx : ∀ k : Fin 128, x (ix2 p k) = T (ix2 r k)) (hh : ∀ k : Fin 128, h (ix2 p k) = H (ix2 r k))
    (hwi : ∀ (k : Fin 128) (c : Fin 384), xwi (ix2 k c) = Wi (ix2 k c))
    (hwh : ∀ (k : Fin 128) (c : Fin 384), xwh (ix2 k c) = Wh (ix2 k c))
    (hbi : ∀ c : Fin 384, xbi (ix2 (0 : Fin 1) c) = bi (ix2 (0 : Fin 1) c))
    (hbh : ∀ c : Fin 384, xbh (ix2 (0 : Fin 1) c) = bh (ix2 (0 : Fin 1) c)) (q : Fin 128) :
    bcell x h xwi xwh xbi xbh p q = Spec.gruAtT T H Wi Wh bi bh r q := by
  unfold bcell Spec.gruAtT
  rw [bgate_eq T Wi bi x xwi xbi r p hx hwi hbi (Spec.c0 q), bgate_eq T Wi bi x xwi xbi r p hx hwi hbi (Spec.c1 q),
    bgate_eq T Wi bi x xwi xbi r p hx hwi hbi (Spec.c2 q), bgate_eq H Wh bh h xwh xbh r p hh hwh hbh (Spec.c0 q),
    bgate_eq H Wh bh h xwh xbh r p hh hwh hbh (Spec.c1 q), bgate_eq H Wh bh h xwh xbh r p hh hwh hbh (Spec.c2 q), hh q]

/-- The second cell's first operand passes through a cast to its own shape. -/
theorem pay2_eq (x : Vec Ideal S1000x128 .f32) : k3_pay2 (F := Ideal) x = x := by
  unfold k3_pay2
  exact shapeCast_self x _

/-- What the body stores, at (p, q), is the result array's entry (r, q), when the row blocks' row p is the arrays' row r
    and the other blocks are their whole arrays. -/
theorem out_entry (A0 A1 A6 A7 : FVec Ideal Spec.SN .f32) (A2 A3 A8 A9 : FVec Ideal Spec.SGt .f32)
    (A4 A5 A10 A11 : FVec Ideal Spec.SB2 .f32)
    (x0 x1 x6 x7 : Vec Ideal S1000x128 .f32) (x2 x3 x8 x9 : Vec Ideal S128x384 .f32) (x4 x5 x10 x11 : Vec Ideal S1x384 .f32)
    (r : Fin 50000) (p : Fin 1000) (q : Fin 128)
    (h0 : ∀ k : Fin 128, x0 (ix2 p k) = A0 (ix2 r k)) (h1 : ∀ k : Fin 128, x1 (ix2 p k) = A1 (ix2 r k))
    (h2 : ∀ (k : Fin 128) (c : Fin 384), x2 (ix2 k c) = A2 (ix2 k c))
    (h3 : ∀ (k : Fin 128) (c : Fin 384), x3 (ix2 k c) = A3 (ix2 k c))
    (h4 : ∀ c : Fin 384, x4 (ix2 (0 : Fin 1) c) = A4 (ix2 (0 : Fin 1) c))
    (h5 : ∀ c : Fin 384, x5 (ix2 (0 : Fin 1) c) = A5 (ix2 (0 : Fin 1) c))
    (h6 : ∀ k : Fin 128, x6 (ix2 p k) = A6 (ix2 r k)) (h7 : ∀ k : Fin 128, x7 (ix2 p k) = A7 (ix2 r k))
    (h8 : ∀ (k : Fin 128) (c : Fin 384), x8 (ix2 k c) = A8 (ix2 k c))
    (h9 : ∀ (k : Fin 128) (c : Fin 384), x9 (ix2 k c) = A9 (ix2 k c))
    (h10 : ∀ c : Fin 384, x10 (ix2 (0 : Fin 1) c) = A10 (ix2 (0 : Fin 1) c))
    (h11 : ∀ c : Fin 384, x11 (ix2 (0 : Fin 1) c) = A11 (ix2 (0 : Fin 1) c)) :
    k3_pay3 (F := Ideal) (k3_pay1 x0 x1 x2 x3 x4 x5) (k3_pay2 x6) x7 x8 x9 x10 x11 (ix2 p q)
      = Spec.outDual (Spec.gruT A0 A1 A2 A3 A4 A5) (Spec.gruT A6 A7 A8 A9 A10 A11) (ix2 r q) := by
  rw [pay3_entry, pay1_entry, pay2_eq, Spec.outDual_apply, Spec.gruT_apply, Spec.gruT_apply,
    bcell_eq A0 A1 A2 A3 A4 A5 x0 x1 x2 x3 x4 x5 r p h0 h1 h2 h3 h4 h5 q,
    bcell_eq A6 A7 A8 A9 A10 A11 x6 x7 x8 x9 x10 x11 r p h6 h7 h8 h9 h10 h11 q]

/-! ## The result array -/

theorem hz : (![0, 0] : Fin 2 → Nat) = fun _ => 0 := funext fun a => by fin_cases a <;> rfl

/-- The array the two-cell kernel leaves. -/
abbrev G3 (c : Dev nD) : FVec Ideal Spec.SN .f32 :=
  Spec.outDual (Spec.gruT (V c main_v18_1) (V c main_v35) (V c main_v8) (V c main_v9) (V c main_v14) (V c main_v15))
    (Spec.gruT (V c main_v18_2) (V c main_v43) (V c main_v10) (V c main_v11) (V c main_v16) (V c main_v17))

/-! ## The blocks of the windows -/

/-- The windows' index maps over the grid: at point t the four row-block inputs and the output sit at block row t. -/
theorem idx_rows3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_6.index t (0 : Fin 2) = t.val ∧ win3_6.index t (1 : Fin 2) = 0
    ∧ win3_7.index t (0 : Fin 2) = t.val ∧ win3_7.index t (1 : Fin 2) = 0
    ∧ win3_12.index t (0 : Fin 2) = t.val ∧ win3_12.index t (1 : Fin 2) = 0 :=
  (by decide +kernel : ∀ t : Fin grid3.N, _)

/-- The gate matrices and the bias rows are fetched whole: block (0, 0) at every point. -/
theorem idx_whole3 : ∀ t : Fin cfg3.N,
    win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_8.index t (0 : Fin 2) = 0 ∧ win3_8.index t (1 : Fin 2) = 0
    ∧ win3_9.index t (0 : Fin 2) = 0 ∧ win3_9.index t (1 : Fin 2) = 0
    ∧ win3_10.index t (0 : Fin 2) = 0 ∧ win3_10.index t (1 : Fin 2) = 0
    ∧ win3_11.index t (0 : Fin 2) = 0 ∧ win3_11.index t (1 : Fin 2) = 0 :=
  (by decide +kernel : ∀ t : Fin grid3.N, _)

/-- Row p of window 0's block at point t is row 1000 t + p of its array. -/
theorem iblk3_0_entry (c : Dev nD) (t : Fin cfg3.N) (r : Fin 50000) (p : Fin 1000) (hr : r.val = 1000 * t.val + p.val) (k : Fin 128) :
    (iblk3 (F := Ideal) V c 0 t : Vec Ideal S1000x128 .f32) (ix2 p k) = (V c main_v18_1 : FVec Ideal Spec.SN .f32) (ix2 r k) := by
  obtain ⟨e0, e1, -, -, -, -, -, -, -, -⟩ := idx_rows3 t
  show V c main_v18_1 (((cfg3.win 0).blk t).view.emb (ix2 p k)) = V c main_v18_1 (ix2 r k)
  refine congrArg (V c main_v18_1) (funext fun a => Fin.ext ?_)
  match a with
  | ⟨0, _⟩ => show win3_0.index t (0 : Fin 2) * 1000 + 1 * p.val = r.val; omega
  | ⟨1, _⟩ => show win3_0.index t (1 : Fin 2) * 128 + 1 * k.val = k.val; omega

/-- Row p of window 1's block at point t is row 1000 t + p of its array. -/
theorem iblk3_1_entry (c : Dev nD) (t : Fin cfg3.N) (r : Fin 50000) (p : Fin 1000) (hr : r.val = 1000 * t.val + p.val) (k : Fin 128) :
    (iblk3 (F := Ideal) V c 1 t : Vec Ideal S1000x128 .f32) (ix2 p k) = (V c main_v35 : FVec Ideal Spec.SN .f32) (ix2 r k) := by
  obtain ⟨-, -, e0, e1, -, -, -, -, -, -⟩ := idx_rows3 t
  show V c main_v35 (((cfg3.win 1).blk t).view.emb (ix2 p k)) = V c main_v35 (ix2 r k)
  refine congrArg (V c main_v35) (funext fun a => Fin.ext ?_)
  match a with
  | ⟨0, _⟩ => show win3_1.index t (0 : Fin 2) * 1000 + 1 * p.val = r.val; omega
  | ⟨1, _⟩ => show win3_1.index t (1 : Fin 2) * 128 + 1 * k.val = k.val; omega

/-- Row p of window 6's block at point t is row 1000 t + p of its array. -/
theorem iblk3_6_entry (c : Dev nD) (t : Fin cfg3.N) (r : Fin 50000) (p : Fin 1000) (hr : r.val = 1000 * t.val + p.val) (k : Fin 128) :
    (iblk3 (F := Ideal) V c 6 t : Vec Ideal S1000x128 .f32) (ix2 p k) = (V c main_v18_2 : FVec Ideal Spec.SN .f32) (ix2 r k) := by
  obtain ⟨-, -, -, -, e0, e1, -, -, -, -⟩ := idx_rows3 t
  show V c main_v18_2 (((cfg3.win 6).blk t).view.emb (ix2 p k)) = V c main_v18_2 (ix2 r k)
  refine congrArg (V c main_v18_2) (funext fun a => Fin.ext ?_)
  match a with
  | ⟨0, _⟩ => show win3_6.index t (0 : Fin 2) * 1000 + 1 * p.val = r.val; omega
  | ⟨1, _⟩ => show win3_6.index t (1 : Fin 2) * 128 + 1 * k.val = k.val; omega

/-- Row p of window 7's block at point t is row 1000 t + p of its array. -/
theorem iblk3_7_entry (c : Dev nD) (t : Fin cfg3.N) (r : Fin 50000) (p : Fin 1000) (hr : r.val = 1000 * t.val + p.val) (k : Fin 128) :
    (iblk3 (F := Ideal) V c 7 t : Vec Ideal S1000x128 .f32) (ix2 p k) = (V c main_v43 : FVec Ideal Spec.SN .f32) (ix2 r k) := by
  obtain ⟨-, -, -, -, -, -, e0, e1, -, -⟩ := idx_rows3 t
  show V c main_v43 (((cfg3.win 7).blk t).view.emb (ix2 p k)) = V c main_v43 (ix2 r k)
  refine congrArg (V c main_v43) (funext fun a => Fin.ext ?_)
  match a with
  | ⟨0, _⟩ => show win3_7.index t (0 : Fin 2) * 1000 + 1 * p.val = r.val; omega
  | ⟨1, _⟩ => show win3_7.index t (1 : Fin 2) * 128 + 1 * k.val = k.val; omega

/-- Window 2's block is its whole matrix. -/
theorem iblk3_2_entry (c : Dev nD) (t : Fin cfg3.N) (k : Fin 128) (g : Fin 384) :
    (iblk3 (F := Ideal) V c 2 t : Vec Ideal S128x384 .f32) (ix2 k g) = (V c main_v8 : FVec Ideal Spec.SGt .f32) (ix2 k g) := by
  obtain ⟨e0, e1, -, -, -, -, -, -, -, -, -, -, -, -, -, -⟩ := idx_whole3 t
  show V c main_v8 (((cfg3.win 2).blk t).view.emb (ix2 k g)) = V c main_v8 (ix2 k g)
  refine congrArg (V c main_v8) (funext fun a => Fin.ext ?_)
  match a with
  | ⟨0, _⟩ => show win3_2.index t (0 : Fin 2) * 128 + 1 * k.val = k.val; omega
  | ⟨1, _⟩ => show win3_2.index t (1 : Fin 2) * 384 + 1 * g.val = g.val; omega

/-- Window 3's block is its whole matrix. -/
theorem iblk3_3_entry (c : Dev nD) (t : Fin cfg3.N) (k : Fin 128) (g : Fin 384) :
    (iblk3 (F := Ideal) V c 3 t : Vec Ideal S128x384 .f32) (ix2 k g) = (V c main_v9 : FVec Ideal Spec.SGt .f32) (ix2 k g) := by
  obtain ⟨-, -, e0, e1, -, -, -, -, -, -, -, -, -, -, -, -⟩ := idx_whole3 t
  show V c main_v9 (((cfg3.win 3).blk t).view.emb (ix2 k g)) = V c main_v9 (ix2 k g)
  refine congrArg (V c main_v9) (funext fun a => Fin.ext ?_)
  match a with
  | ⟨0, _⟩ => show win3_3.index t (0 : Fin 2) * 128 + 1 * k.val = k.val; omega
  | ⟨1, _⟩ => show win3_3.index t (1 : Fin 2) * 384 + 1 * g.val = g.val; omega

/-- Window 8's block is its whole matrix. -/
theorem iblk3_8_entry (c : Dev nD) (t : Fin cfg3.N) (k : Fin 128) (g : Fin 384) :
    (iblk3 (F := Ideal) V c 8 t : Vec Ideal S128x384 .f32) (ix2 k g) = (V c main_v10 : FVec Ideal Spec.SGt .f32) (ix2 k g) := by
  obtain ⟨-, -, -, -, -, -, -, -, e0, e1, -, -, -, -, -, -⟩ := idx_whole3 t
  show V c main_v10 (((cfg3.win 8).blk t).view.emb (ix2 k g)) = V c main_v10 (ix2 k g)
  refine congrArg (V c main_v10) (funext fun a => Fin.ext ?_)
  match a with
  | ⟨0, _⟩ => show win3_8.index t (0 : Fin 2) * 128 + 1 * k.val = k.val; omega
  | ⟨1, _⟩ => show win3_8.index t (1 : Fin 2) * 384 + 1 * g.val = g.val; omega

/-- Window 9's block is its whole matrix. -/
theorem iblk3_9_entry (c : Dev nD) (t : Fin cfg3.N) (k : Fin 128) (g : Fin 384) :
    (iblk3 (F := Ideal) V c 9 t : Vec Ideal S128x384 .f32) (ix2 k g) = (V c main_v11 : FVec Ideal Spec.SGt .f32) (ix2 k g) := by
  obtain ⟨-, -, -, -, -, -, -, -, -, -, e0, e1, -, -, -, -⟩ := idx_whole3 t
  show V c main_v11 (((cfg3.win 9).blk t).view.emb (ix2 k g)) = V c main_v11 (ix2 k g)
  refine congrArg (V c main_v11) (funext fun a => Fin.ext ?_)
  match a with
  | ⟨0, _⟩ => show win3_9.index t (0 : Fin 2) * 128 + 1 * k.val = k.val; omega
  | ⟨1, _⟩ => show win3_9.index t (1 : Fin 2) * 384 + 1 * g.val = g.val; omega

/-- Window 4's block is its whole bias row. -/
theorem iblk3_4_entry (c : Dev nD) (t : Fin cfg3.N) (g : Fin 384) :
    (iblk3 (F := Ideal) V c 4 t : Vec Ideal S1x384 .f32) (ix2 (0 : Fin 1) g) = (V c main_v14 : FVec Ideal Spec.SB2 .f32) (ix2 (0 : Fin 1) g) := by
  obtain ⟨-, -, -, -, e0, e1, -, -, -, -, -, -, -, -, -, -⟩ := idx_whole3 t
  show V c main_v14 (((cfg3.win 4).blk t).view.emb (ix2 (0 : Fin 1) g)) = V c main_v14 (ix2 (0 : Fin 1) g)
  refine congrArg (V c main_v14) (funext fun a => Fin.ext ?_)
  match a with
  | ⟨0, _⟩ => show win3_4.index t (0 : Fin 2) * 1 + 1 * 0 = 0; omega
  | ⟨1, _⟩ => show win3_4.index t (1 : Fin 2) * 384 + 1 * g.val = g.val; omega

/-- Window 5's block is its whole bias row. -/
theorem iblk3_5_entry (c : Dev nD) (t : Fin cfg3.N) (g : Fin 384) :
    (iblk3 (F := Ideal) V c 5 t : Vec Ideal S1x384 .f32) (ix2 (0 : Fin 1) g) = (V c main_v15 : FVec Ideal Spec.SB2 .f32) (ix2 (0 : Fin 1) g) := by
  obtain ⟨-, -, -, -, -, -, e0, e1, -, -, -, -, -, -, -, -⟩ := idx_whole3 t
  show V c main_v15 (((cfg3.win 5).blk t).view.emb (ix2 (0 : Fin 1) g)) = V c main_v15 (ix2 (0 : Fin 1) g)
  refine congrArg (V c main_v15) (funext fun a => Fin.ext ?_)
  match a with
  | ⟨0, _⟩ => show win3_5.index t (0 : Fin 2) * 1 + 1 * 0 = 0; omega
  | ⟨1, _⟩ => show win3_5.index t (1 : Fin 2) * 384 + 1 * g.val = g.val; omega

/-- Window 10's block is its whole bias row. -/
theorem iblk3_10_entry (c : Dev nD) (t : Fin cfg3.N) (g : Fin 384) :
    (iblk3 (F := Ideal) V c 10 t : Vec Ideal S1x384 .f32) (ix2 (0 : Fin 1) g) = (V c main_v16 : FVec Ideal Spec.SB2 .f32) (ix2 (0 : Fin 1) g) := by
  obtain ⟨-, -, -, -, -, -, -, -, -, -, -, -, e0, e1, -, -⟩ := idx_whole3 t
  show V c main_v16 (((cfg3.win 10).blk t).view.emb (ix2 (0 : Fin 1) g)) = V c main_v16 (ix2 (0 : Fin 1) g)
  refine congrArg (V c main_v16) (funext fun a => Fin.ext ?_)
  match a with
  | ⟨0, _⟩ => show win3_10.index t (0 : Fin 2) * 1 + 1 * 0 = 0; omega
  | ⟨1, _⟩ => show win3_10.index t (1 : Fin 2) * 384 + 1 * g.val = g.val; omega

/-- Window 11's block is its whole bias row. -/
theorem iblk3_11_entry (c : Dev nD) (t : Fin cfg3.N) (g : Fin 384) :
    (iblk3 (F := Ideal) V c 11 t : Vec Ideal S1x384 .f32) (ix2 (0 : Fin 1) g) = (V c main_v17 : FVec Ideal Spec.SB2 .f32) (ix2 (0 : Fin 1) g) := by
  obtain ⟨-, -, -, -, -, -, -, -, -, -, -, -, -, -, e0, e1⟩ := idx_whole3 t
  show V c main_v17 (((cfg3.win 11).blk t).view.emb (ix2 (0 : Fin 1) g)) = V c main_v17 (ix2 (0 : Fin 1) g)
  refine congrArg (V c main_v17) (funext fun a => Fin.ext ?_)
  match a with
  | ⟨0, _⟩ => show win3_11.index t (0 : Fin 2) * 1 + 1 * 0 = 0; omega
  | ⟨1, _⟩ => show win3_11.index t (1 : Fin 2) * 384 + 1 * g.val = g.val; omega

/-! ## What a point writes back, the cover, and the array -/

/-- A [1000, 128] vector whose entry (p, q) is entry (1000 t + p, q) of a whole-array function is that function's block
    at point t of the output window. -/
theorem cut_read_eq (t : Fin cfg3.N) (P : Vec Ideal S1000x128 .f32) (G : FVec Ideal Spec.SN .f32)
    (h : ∀ (r : Fin 50000) (p : Fin 1000) (q : Fin 128), r.val = 1000 * t.val + p.val → P (ix2 p q) = G (ix2 r q)) :
    (cfg3.win 12).cut (grid3.coords t) P = ((cfg3.win 12).blk t).view.read (Elt Ideal) G := by
  obtain ⟨-, -, -, -, -, -, -, -, e0, e1⟩ := idx_rows3 t
  funext j
  have hp : (j 0).val < 1000 := (j 0).isLt
  have hq : (j 1).val < 128 := (j 1).isLt
  have ht : t.val < 50 := N_3 ▸ t.isLt
  have ej : (cfg3.win 12).xinj (grid3.coords t) j = ix2 (⟨(j 0).val, hp⟩ : Fin 1000) (⟨(j 1).val, hq⟩ : Fin 128) :=
    funext fun a => Fin.ext (by
      match a with
      | ⟨0, _⟩ => rfl
      | ⟨1, _⟩ => rfl)
  have eG : ((cfg3.win 12).blk t).view.emb j
      = ix2 (⟨1000 * t.val + (j 0).val, by omega⟩ : Fin 50000) (⟨(j 1).val, hq⟩ : Fin 128) :=
    funext fun a => Fin.ext (by
      match a with
      | ⟨0, _⟩ => show win3_12.index t (0 : Fin 2) * 1000 + 1 * (j 0).val = 1000 * t.val + (j 0).val; omega
      | ⟨1, _⟩ => show win3_12.index t (1 : Fin 2) * 128 + 1 * (j 1).val = (j 1).val; omega)
  show P ((cfg3.win 12).xinj (grid3.coords t) j) = G (((cfg3.win 12).blk t).view.emb j)
  rw [ej, eG]
  exact h _ _ _ rfl

/-- What point t writes back is block t of the result array: each row-block input is read at the rows the output's
    rectangle names, the gate matrices and bias rows whole. -/
theorem flushed3_eq (c : Dev nD) (t : Fin cfg3.N) :
    (dat3 (F := Ideal) V c).flushed 12 t = ((cfg3.win 12).blk t).view.read (Elt Ideal) (G3 V c) := by
  show (cfg3.win 12).cut (grid3.coords t) ((dat3 V c).after 12 t) = _
  rw [after3_12]
  unfold out3_12
  rw [View.canon_unit_zero hz]
  simp only [View.ld_unit_zero (S := S1000x128) hz, View.ld_unit_zero (S := S128x384) hz, View.ld_unit_zero (S := S1x384) hz]
  refine cut_read_eq t _ (G3 V c) fun r p q hr => ?_
  exact out_entry (V c main_v18_1) (V c main_v35) (V c main_v18_2) (V c main_v43) (V c main_v8) (V c main_v9) (V c main_v10)
    (V c main_v11) (V c main_v14) (V c main_v15) (V c main_v16) (V c main_v17)
    (iblk3 V c 0 t) (iblk3 V c 1 t) (iblk3 V c 6 t) (iblk3 V c 7 t) (iblk3 V c 2 t) (iblk3 V c 3 t) (iblk3 V c 8 t) (iblk3 V c 9 t)
    (iblk3 V c 4 t) (iblk3 V c 5 t) (iblk3 V c 10 t) (iblk3 V c 11 t) r p q
    (iblk3_0_entry V c t r p hr) (iblk3_1_entry V c t r p hr) (iblk3_2_entry V c t) (iblk3_3_entry V c t)
    (iblk3_4_entry V c t) (iblk3_5_entry V c t) (iblk3_6_entry V c t r p hr) (iblk3_7_entry V c t r p hr)
    (iblk3_8_entry V c t) (iblk3_9_entry V c t) (iblk3_10_entry V c t) (iblk3_11_entry V c t)

/-- An index of the result array is in point t's block iff each coordinate is in the block's range on its axis. -/
theorem mem_blk3 (t : Fin cfg3.N) (i : S50000x128.Idx) :
    i ∈ ((cfg3.win 12).blk t).view.set ↔ ∀ a : Fin 2, win3_12.index t a * S1000x128.size a ≤ (i a).val
      ∧ (i a).val < win3_12.index t a * S1000x128.size a + S1000x128.size a := by
  show i ∈ ((View.whole main_v45).slice (win3_12.rect t)).set ↔ _
  rw [View.set_slice_whole, Rect.mem_set_unit]
  exact Iff.rfl

/-- Row r of the result array is written back by point r / 1000. -/
theorem cover3 (i : S50000x128.Idx) :
    ∃ t : Fin cfg3.N, (cfg3.win 12).flush t = true ∧ i ∈ ((cfg3.win 12).blk t).view.set := by
  have hi0 : (i 0).val < 50000 := (i 0).isLt
  have hi1 : (i 1).val < 128 := (i 1).isLt
  have hN : grid3.N = 50 := N_3
  have hlt : (i 0).val / 1000 < grid3.N := by omega
  obtain ⟨-, -, -, -, -, -, -, -, e0, e1⟩ := idx_rows3 ⟨(i 0).val / 1000, hlt⟩
  refine ⟨⟨(i 0).val / 1000, hlt⟩, flush3_12 _, ?_⟩
  rw [mem_blk3]
  intro a
  match a with
  | ⟨0, _⟩ =>
    show win3_12.index ⟨(i 0).val / 1000, hlt⟩ (0 : Fin 2) * 1000 ≤ (i 0).val
      ∧ (i 0).val < win3_12.index ⟨(i 0).val / 1000, hlt⟩ (0 : Fin 2) * 1000 + 1000
    rw [e0]
    show (i 0).val / 1000 * 1000 ≤ (i 0).val ∧ (i 0).val < (i 0).val / 1000 * 1000 + 1000
    omega
  | ⟨1, _⟩ =>
    show win3_12.index ⟨(i 0).val / 1000, hlt⟩ (1 : Fin 2) * 128 ≤ (i 1).val
      ∧ (i 1).val < win3_12.index ⟨(i 0).val / 1000, hlt⟩ (1 : Fin 2) * 128 + 128
    rw [e1]
    omega

end Gru3

theorem arr3_12 (c : Dev nD) : (dat3 (F := Ideal) V c).arrAt 12 cfg3.N
    = Spec.outDual (Spec.gruT (V c main_v18_1) (V c main_v35) (V c main_v8) (V c main_v9) (V c main_v14) (V c main_v15))
        (Spec.gruT (V c main_v18_2) (V c main_v43) (V c main_v10) (V c main_v11) (V c main_v16) (V c main_v17)) :=
  (dat3 (F := Ideal) V c).arrAt_eq_of_cover 12 (Gru3.G3 V c) (fun t _ => Gru3.flushed3_eq V c t) Gru3.cover3

end Cert.KV

end
-- ==== Proof.KWalk3.lean ====
/-
  The two cell kernels and the stacking of their outputs: the result buffer at the end of the kernel's program is
  \`result\` of the 23 arguments.
-/
import proofs.«408718_j59854664237684_1_alg».proof.Proof.Gen.KernelIdeal.Frame
import proofs.«408718_j59854664237684_1_alg».proof.Proof.Spec
import proofs.«408718_j59854664237684_1_alg».proof.Proof.SpecLaws
import proofs.«408718_j59854664237684_1_alg».proof.Proof.KDefs
import proofs.«408718_j59854664237684_1_alg».proof.Proof.KWalk1
import proofs.«408718_j59854664237684_1_alg».proof.Proof.KWalk2
import proofs.«408718_j59854664237684_1_alg».proof.Proof.KGru2
import proofs.«408718_j59854664237684_1_alg».proof.Proof.KGru3

set_option maxRecDepth 16384

noncomputable section

namespace Cert.KV

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ## The buffers the single-cell kernel reads, at its entry

Each is what the boundary before the gathers held (the host operations in between leave it), or the aggregate those
operations computed from that boundary's buffers. -/

theorem E10_v19_0 (c : Dev nD) : W10 m ρ c (Proc.devRef .tc main_v19_0) = Spec.lin (m ((c : Thread nD τ).loc main_arg1)) (m ((c : Thread nD τ).loc main_arg6)) :=
  (W10_keep_v19_0 m ρ c).trans (W3_v19_0 m ρ c)
theorem E10_v18_1 (c : Dev nD) : W10 m ρ c (Proc.devRef .tc main_v18_1) = Spec.lin (m ((c : Thread nD τ).loc main_arg0)) (m ((c : Thread nD τ).loc main_arg12)) :=
  (W10_keep_v18_1 m ρ c).trans (W3_v18_1 m ρ c)
theorem E10_v18_2 (c : Dev nD) : W10 m ρ c (Proc.devRef .tc main_v18_2) = Spec.lin (m ((c : Thread nD τ).loc main_arg0)) (m ((c : Thread nD τ).loc main_arg18)) :=
  (W10_keep_v18_2 m ρ c).trans (W3_v18_2 m ρ c)
theorem E10_v6 (c : Dev nD) : W10 m ρ c (Proc.devRef .tc main_v6) = transpose S128x384 [1, 0] (m ((c : Thread nD τ).loc main_arg7)) transposes_S384x128_S128x384_1_0 :=
  (W10_keep_v6 m ρ c).trans (W3_v6 m ρ c)
theorem E10_v7 (c : Dev nD) : W10 m ρ c (Proc.devRef .tc main_v7) = transpose S128x384 [1, 0] (m ((c : Thread nD τ).loc main_arg8)) transposes_S384x128_S128x384_1_0 :=
  (W10_keep_v7 m ρ c).trans (W3_v7 m ρ c)
theorem E10_v8 (c : Dev nD) : W10 m ρ c (Proc.devRef .tc main_v8) = transpose S128x384 [1, 0] (m ((c : Thread nD τ).loc main_arg13)) transposes_S384x128_S128x384_1_0 :=
  (W10_keep_v8 m ρ c).trans (W3_v8 m ρ c)
theorem E10_v9 (c : Dev nD) : W10 m ρ c (Proc.devRef .tc main_v9) = transpose S128x384 [1, 0] (m ((c : Thread nD τ).loc main_arg14)) transposes_S384x128_S128x384_1_0 :=
  (W10_keep_v9 m ρ c).trans (W3_v9 m ρ c)
theorem E10_v10 (c : Dev nD) : W10 m ρ c (Proc.devRef .tc main_v10) = transpose S128x384 [1, 0] (m ((c : Thread nD τ).loc main_arg19)) transposes_S384x128_S128x384_1_0 :=
  (W10_keep_v10 m ρ c).trans (W3_v10 m ρ c)
theorem E10_v11 (c : Dev nD) : W10 m ρ c (Proc.devRef .tc main_v11) = transpose S128x384 [1, 0] (m ((c : Thread nD τ).loc main_arg20)) transposes_S384x128_S128x384_1_0 :=
  (W10_keep_v11 m ρ c).trans (W3_v11 m ρ c)
theorem E10_v12 (c : Dev nD) : W10 m ρ c (Proc.devRef .tc main_v12) = shapeCast S1x384 (m ((c : Thread nD τ).loc main_arg9)) shapeCasts_S384_S1x384 :=
  (W10_keep_v12 m ρ c).trans (W3_v12 m ρ c)
theorem E10_v13 (c : Dev nD) : W10 m ρ c (Proc.devRef .tc main_v13) = shapeCast S1x384 (m ((c : Thread nD τ).loc main_arg10)) shapeCasts_S384_S1x384 :=
  (W10_keep_v13 m ρ c).trans (W3_v13 m ρ c)
theorem E10_v14 (c : Dev nD) : W10 m ρ c (Proc.devRef .tc main_v14) = shapeCast S1x384 (m ((c : Thread nD τ).loc main_arg15)) shapeCasts_S384_S1x384 :=
  (W10_keep_v14 m ρ c).trans (W3_v14 m ρ c)
theorem E10_v15 (c : Dev nD) : W10 m ρ c (Proc.devRef .tc main_v15) = shapeCast S1x384 (m ((c : Thread nD τ).loc main_arg16)) shapeCasts_S384_S1x384 :=
  (W10_keep_v15 m ρ c).trans (W3_v15 m ρ c)
theorem E10_v16 (c : Dev nD) : W10 m ρ c (Proc.devRef .tc main_v16) = shapeCast S1x384 (m ((c : Thread nD τ).loc main_arg21)) shapeCasts_S384_S1x384 :=
  (W10_keep_v16 m ρ c).trans (W3_v16 m ρ c)
theorem E10_v17 (c : Dev nD) : W10 m ρ c (Proc.devRef .tc main_v17) = shapeCast S1x384 (m ((c : Thread nD τ).loc main_arg22)) shapeCasts_S384_S1x384 :=
  (W10_keep_v17 m ρ c).trans (W3_v17 m ρ c)
theorem E10_v27 (c : Dev nD) (h : InRange (m ((c : Thread nD τ).loc main_arg2))) :
    W10 m ρ c (Proc.devRef .tc main_v27) = agg (Spec.lin (m ((c : Thread nD τ).loc main_arg0)) (m ((c : Thread nD τ).loc main_arg5))) (m ((c : Thread nD τ).loc main_arg2)) := by
  have h' : InRange (W3 m ρ c (Proc.devRef .tc main_arg2)) := by rw [W3_arg2]; exact h
  rw [W10_v27 m ρ c h', W3_v18_0, W3_arg2]
theorem E10_v35 (c : Dev nD) (h : InRange (m ((c : Thread nD τ).loc main_arg3))) :
    W10 m ρ c (Proc.devRef .tc main_v35) = agg (Spec.lin (m ((c : Thread nD τ).loc main_arg1)) (m ((c : Thread nD τ).loc main_arg11))) (m ((c : Thread nD τ).loc main_arg3)) := by
  have h' : InRange (W3 m ρ c (Proc.devRef .tc main_arg3)) := by rw [W3_arg3]; exact h
  rw [W10_v35 m ρ c h', W3_v19_1, W3_arg3]
theorem E10_v43 (c : Dev nD) (h : InRange (m ((c : Thread nD τ).loc main_arg4))) :
    W10 m ρ c (Proc.devRef .tc main_v43) = agg (Spec.lin (m ((c : Thread nD τ).loc main_arg1)) (m ((c : Thread nD τ).loc main_arg17))) (m ((c : Thread nD τ).loc main_arg4)) := by
  have h' : InRange (W3 m ρ c (Proc.devRef .tc main_arg4)) := by rw [W3_arg4]; exact h
  rw [W10_v43 m ρ c h', W3_v19_2, W3_arg4]

/-! ## The single-cell kernel's output -/

/-- The single-cell kernel's output buffer at its exit: max(cell₁, 0) of the arguments. -/
theorem W11_v44 (c : Dev nD) (h2 : InRange (m ((c : Thread nD τ).loc main_arg2))) :
    W11 m ρ c (Proc.devRef .tc main_v44)
      = Spec.outSingle (edgeCell (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  have e : W11 m ρ c (Proc.devRef .tc main_v44) = (dat2 (V10 m ρ) c).arrAt 6 cfg2.N := W11_arr m ρ c 6
  rw [e, arr2_6 (V10 m ρ) c]
  show Spec.outSingle (Spec.gruT (W10 m ρ c (Proc.devRef .tc main_v19_0)) (W10 m ρ c (Proc.devRef .tc main_v27)) (W10 m ρ c (Proc.devRef .tc main_v6))
    (W10 m ρ c (Proc.devRef .tc main_v7)) (W10 m ρ c (Proc.devRef .tc main_v12)) (W10 m ρ c (Proc.devRef .tc main_v13))) = _
  rw [E10_v19_0, E10_v27 m ρ c h2, E10_v6, E10_v7, E10_v12, E10_v13]
  unfold edgeCell
  exact congrArg Spec.outSingle (Spec.gruT_transpose _ _ _ _ _ _ _ _)

/-! ## The buffers the two-cell kernel reads, at its entry: the single-cell kernel stages none of them -/

theorem E11_v18_1 (c : Dev nD) : W11 m ρ c (Proc.devRef .tc main_v18_1) = Spec.lin (m ((c : Thread nD τ).loc main_arg0)) (m ((c : Thread nD τ).loc main_arg12)) :=
  (W11_of_ne m ρ c main_v18_1 (by decide)).trans (E10_v18_1 m ρ c)
theorem E11_v8 (c : Dev nD) : W11 m ρ c (Proc.devRef .tc main_v8) = transpose S128x384 [1, 0] (m ((c : Thread nD τ).loc main_arg13)) transposes_S384x128_S128x384_1_0 :=
  (W11_of_ne m ρ c main_v8 (by decide)).trans (E10_v8 m ρ c)
theorem E11_v9 (c : Dev nD) : W11 m ρ c (Proc.devRef .tc main_v9) = transpose S128x384 [1, 0] (m ((c : Thread nD τ).loc main_arg14)) transposes_S384x128_S128x384_1_0 :=
  (W11_of_ne m ρ c main_v9 (by decide)).trans (E10_v9 m ρ c)
theorem E11_v14 (c : Dev nD) : W11 m ρ c (Proc.devRef .tc main_v14) = shapeCast S1x384 (m ((c : Thread nD τ).loc main_arg15)) shapeCasts_S384_S1x384 :=
  (W11_of_ne m ρ c main_v14 (by decide)).trans (E10_v14 m ρ c)
theorem E11_v15 (c : Dev nD) : W11 m ρ c (Proc.devRef .tc main_v15) = shapeCast S1x384 (m ((c : Thread nD τ).loc main_arg16)) shapeCasts_S384_S1x384 :=
  (W11_of_ne m ρ c main_v15 (by decide)).trans (E10_v15 m ρ c)
theorem E11_v18_2 (c : Dev nD) : W11 m ρ c (Proc.devRef .tc main_v18_2) = Spec.lin (m ((c : Thread nD τ).loc main_arg0)) (m ((c : Thread nD τ).loc main_arg18)) :=
  (W11_of_ne m ρ c main_v18_2 (by decide)).trans (E10_v18_2 m ρ c)
theorem E11_v10 (c : Dev nD) : W11 m ρ c (Proc.devRef .tc main_v10) = transpose S128x384 [1, 0] (m ((c : Thread nD τ).loc main_arg19)) transposes_S384x128_S128x384_1_0 :=
  (W11_of_ne m ρ c main_v10 (by decide)).trans (E10_v10 m ρ c)
theorem E11_v11 (c : Dev nD) : W11 m ρ c (Proc.devRef .tc main_v11) = transpose S128x384 [1, 0] (m ((c : Thread nD τ).loc main_arg20)) transposes_S384x128_S128x384_1_0 :=
  (W11_of_ne m ρ c main_v11 (by decide)).trans (E10_v11 m ρ c)
theorem E11_v16 (c : Dev nD) : W11 m ρ c (Proc.devRef .tc main_v16) = shapeCast S1x384 (m ((c : Thread nD τ).loc main_arg21)) shapeCasts_S384_S1x384 :=
  (W11_of_ne m ρ c main_v16 (by decide)).trans (E10_v16 m ρ c)
theorem E11_v17 (c : Dev nD) : W11 m ρ c (Proc.devRef .tc main_v17) = shapeCast S1x384 (m ((c : Thread nD τ).loc main_arg22)) shapeCasts_S384_S1x384 :=
  (W11_of_ne m ρ c main_v17 (by decide)).trans (E10_v17 m ρ c)
theorem E11_v35 (c : Dev nD) (h : InRange (m ((c : Thread nD τ).loc main_arg3))) :
    W11 m ρ c (Proc.devRef .tc main_v35) = agg (Spec.lin (m ((c : Thread nD τ).loc main_arg1)) (m ((c : Thread nD τ).loc main_arg11))) (m ((c : Thread nD τ).loc main_arg3)) :=
  (W11_of_ne m ρ c main_v35 (by decide)).trans (E10_v35 m ρ c h)
theorem E11_v43 (c : Dev nD) (h : InRange (m ((c : Thread nD τ).loc main_arg4))) :
    W11 m ρ c (Proc.devRef .tc main_v43) = agg (Spec.lin (m ((c : Thread nD τ).loc main_arg1)) (m ((c : Thread nD τ).loc main_arg17))) (m ((c : Thread nD τ).loc main_arg4)) :=
  (W11_of_ne m ρ c main_v43 (by decide)).trans (E10_v43 m ρ c h)

/-! ## The two-cell kernel's output -/

/-- The two-cell kernel's output buffer at its exit: max((cell₂ + cell₃) / 2, 0) of the arguments. -/
theorem W12_v45 (c : Dev nD) (h3 : InRange (m ((c : Thread nD τ).loc main_arg3))) (h4 : InRange (m ((c : Thread nD τ).loc main_arg4))) :
    W12 m ρ c (Proc.devRef .tc main_v45)
      = Spec.outDual (edgeCell (m ((c : Thread nD τ).loc main_arg1)) (m ((c : Thread nD τ).loc main_arg0)) (m ((c : Thread nD τ).loc main_arg3)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)))
          (edgeCell (m ((c : Thread nD τ).loc main_arg1)) (m ((c : Thread nD τ).loc main_arg0)) (m ((c : Thread nD τ).loc main_arg4)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) := by
  have e : W12 m ρ c (Proc.devRef .tc main_v45) = (dat3 (V11 m ρ) c).arrAt 12 cfg3.N := W12_arr m ρ c 12
  rw [e, arr3_12 (V11 m ρ) c]
  show Spec.outDual
    (Spec.gruT (W11 m ρ c (Proc.devRef .tc main_v18_1)) (W11 m ρ c (Proc.devRef .tc main_v35)) (W11 m ρ c (Proc.devRef .tc main_v8))
      (W11 m ρ c (Proc.devRef .tc main_v9)) (W11 m ρ c (Proc.devRef .tc main_v14)) (W11 m ρ c (Proc.devRef .tc main_v15)))
    (Spec.gruT (W11 m ρ c (Proc.devRef .tc main_v18_2)) (W11 m ρ c (Proc.devRef .tc main_v43)) (W11 m ρ c (Proc.devRef .tc main_v10))
      (W11 m ρ c (Proc.devRef .tc main_v11)) (W11 m ρ c (Proc.devRef .tc main_v16)) (W11 m ρ c (Proc.devRef .tc main_v17))) = _
  rw [E11_v18_1, E11_v35 m ρ c h3, E11_v8, E11_v9, E11_v14, E11_v15,
    E11_v18_2, E11_v43 m ρ c h4, E11_v10, E11_v11, E11_v16, E11_v17]
  unfold edgeCell
  exact congrArg₂ Spec.outDual (Spec.gruT_transpose _ _ _ _ _ _ _ _) (Spec.gruT_transpose _ _ _ _ _ _ _ _)

/-- The single-cell kernel's output is not staged by the two-cell kernel: it is still there at the latter's exit. -/
theorem W12_v44 (c : Dev nD) (h2 : InRange (m ((c : Thread nD τ).loc main_arg2))) :
    W12 m ρ c (Proc.devRef .tc main_v44)
      = Spec.outSingle (edgeCell (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :=
  (W12_of_ne m ρ c main_v44 (by decide)).trans (W11_v44 m ρ c h2)

/-! ## The stacking -/

/-- The last host operations lay the two kernels' outputs along a new leading axis. -/
theorem W13_v48_stack (c : Dev nD) :
    W13 m ρ c (Proc.devRef .tc main_v48) = stack (W12 m ρ c (Proc.devRef .tc main_v45)) (W12 m ρ c (Proc.devRef .tc main_v44)) := by
  show StableHlo.after hostOps4 (W12 m ρ c) (Proc.devRef .tc main_v48) = _
  after_results
  rfl

theorem W13_v48 (c : Dev nD) (h2 : InRange (m ((c : Thread nD τ).loc main_arg2))) (h3 : InRange (m ((c : Thread nD τ).loc main_arg3))) (h4 : InRange (m ((c : Thread nD τ).loc main_arg4))) :
    W13 m ρ c (Proc.devRef .tc main_v48)
      = result (m ((c : Thread nD τ).loc main_arg0))
          (m ((c : Thread nD τ).loc main_arg1))
          (m ((c : Thread nD τ).loc main_arg2))
          (m ((c : Thread nD τ).loc main_arg3))
          (m ((c : Thread nD τ).loc main_arg4))
          (m ((c : Thread nD τ).loc main_arg5))
          (m ((c : Thread nD τ).loc main_arg6))
          (m ((c : Thread nD τ).loc main_arg7))
          (m ((c : Thread nD τ).loc main_arg8))
          (m ((c : Thread nD τ).loc main_arg9))
          (m ((c : Thread nD τ).loc main_arg10))
          (m ((c : Thread nD τ).loc main_arg11))
          (m ((c : Thread nD τ).loc main_arg12))
          (m ((c : Thread nD τ).loc main_arg13))
          (m ((c : Thread nD τ).loc main_arg14))
          (m ((c : Thread nD τ).loc main_arg15))
          (m ((c : Thread nD τ).loc main_arg16))
          (m ((c : Thread nD τ).loc main_arg17))
          (m ((c : Thread nD τ).loc main_arg18))
          (m ((c : Thread nD τ).loc main_arg19))
          (m ((c : Thread nD τ).loc main_arg20))
          (m ((c : Thread nD τ).loc main_arg21))
          (m ((c : Thread nD τ).loc main_arg22)) := by
  rw [W13_v48_stack, W12_v45 m ρ c h3 h4, W12_v44 m ρ c h2]
  rfl

end Cert.KV

end
-- ==== Proof.RDefs.lean ====
/-
  The pieces of the reference program that are carried as whole functions: the per-target-node sum of gathered
  source rows (a row gather along the edges' source indices followed by a segment sum over the edges' target
  indices), the stacking of the two outputs, and the range condition on the source indices.
-/
import proofs.«408718_j59854664237684_1_alg».proof.ReferenceIdeal
import proofs.«408718_j59854664237684_1_alg».proof.Proof.Gen.ReferenceIdeal
import Idealize.ShloMosaic.PureOps.Ideal
import proofs.«408718_j59854664237684_1_alg».proof.Proof.Spec

noncomputable section

namespace Cert.RV

open Idealize.ShloMosaic Cert.ReferenceIdeal Cert.ReferenceIdeal.Gen

/-- Row 0 of an edge list: the source node of every edge. -/
def srcRow (E : IVec S2x500000 32) : IVec S500000 32 :=
  shapeCast S500000 (extractStridedSlice S1x500000 ![0, 0] E slices_S2x500000_S1x500000_0_0) shapeCasts_S1x500000_S500000

/-- Row 1 of an edge list: the target node of every edge. -/
def dstRow (E : IVec S2x500000 32) : IVec S500000 32 :=
  shapeCast S500000 (extractStridedSlice S1x500000 ![1, 0] E slices_S2x500000_S1x500000_1_0) shapeCasts_S1x500000_S500000

/-- NumPy's reading of a possibly negative row number: a negative word has the table's height added. -/
def wrapRow (r : IVec S500000 32) : IVec S500000 32 :=
  select (cmpi .slt r (broadcastInDim S500000 ![] bcast_S_S500000 (constantI S_ 32 0#32)))
    (addi r (broadcastInDim S500000 ![] bcast_S_S500000 (constantI S_ 32 50000#32))) r

/-- The messages: row `wrapRow (srcRow E) e` of the table for every edge e. -/
def msgs (sx : FVec Ideal S50000x128 .f32) (E : IVec S2x500000 32) : FVec Ideal S500000x128 .f32 :=
  Host.gather gather_S50000x128_S500000x1_S500000x128_1_0_n_n_0_1_1128 sx
    (broadcastInDim S500000x1 ![0] bcast_S500000_S500000x1_0 (wrapRow (srcRow E)))

/-- The aggregate: for every node the sum of the messages of the edges whose target it is. -/
def agg (sx : FVec Ideal S50000x128 .f32) (E : IVec S2x500000 32) : FVec Ideal S50000x128 .f32 :=
  Host.scatterAdd scatter_S50000x128_S500000x1_S500000x128_1_0_0_1
    (broadcastInDim S50000x128 ![] bcast_S_S50000x128 (constant S_ .f32 0x00000000#32))
    (broadcastInDim S500000x1 ![0] bcast_S500000_S500000x1_0 (dstRow E)) (msgs sx E)

/-- The two outputs stacked along a new leading axis. -/
def stack (a b : FVec Ideal S50000x128 .f32) : FVec Ideal S2x50000x128 .f32 :=
  concatenate S2x50000x128 0
    [⟨S1x50000x128, broadcastInDim S1x50000x128 ![1, 2] bcast_S50000x128_S1x50000x128_1_2 a⟩,
     ⟨S1x50000x128, broadcastInDim S1x50000x128 ![1, 2] bcast_S50000x128_S1x50000x128_1_2 b⟩]
    concatenates_S1x50000x128_S1x50000x128_S2x50000x128_d0

/-- Every source index is a row number of the 50000-row table in NumPy's sense: at least −50000 and below 50000. -/
def InRange (E : IVec S2x500000 32) : Prop :=
  ∀ e : S500000.Idx, IntOp.cmpi .sge (srcRow E e) 4294917296#32 = 1#1 ∧ IntOp.cmpi .slt (srcRow E e) 50000#32 = 1#1

/-- One edge type's cell: the target projection and the aggregate of the gathered source projection through the cell. -/
def edgeCell (x_src x_tgt : FVec Ideal S50000x128 .f32) (E : IVec S2x500000 32) (Ws Wt : FVec Ideal S128x128 .f32)
    (wih whh : FVec Ideal S384x128 .f32) (bih bhh : FVec Ideal S384 .f32) : FVec Ideal S50000x128 .f32 :=
  Spec.gru (Spec.lin x_tgt Wt) (agg (Spec.lin x_src Ws) E) wih whh bih bhh

/-- The whole result as a function of the 23 arguments: edge type 1 goes from node type a to node type b, edge types 2
    and 3 from b to a; the b-side output is max(cell₁, 0), the a-side output max((cell₂ + cell₃) / 2, 0). -/
def result (x_a x_b : FVec Ideal S50000x128 .f32) (E1 E2 E3 : IVec S2x500000 32)
    (Ws1 Wt1 : FVec Ideal S128x128 .f32) (wih1 whh1 : FVec Ideal S384x128 .f32) (bih1 bhh1 : FVec Ideal S384 .f32)
    (Ws2 Wt2 : FVec Ideal S128x128 .f32) (wih2 whh2 : FVec Ideal S384x128 .f32) (bih2 bhh2 : FVec Ideal S384 .f32)
    (Ws3 Wt3 : FVec Ideal S128x128 .f32) (wih3 whh3 : FVec Ideal S384x128 .f32) (bih3 bhh3 : FVec Ideal S384 .f32) :
    FVec Ideal S2x50000x128 .f32 :=
  stack
    (Spec.outDual (edgeCell x_b x_a E2 Ws2 Wt2 wih2 whh2 bih2 bhh2) (edgeCell x_b x_a E3 Ws3 Wt3 wih3 whh3 bih3 bhh3))
    (Spec.outSingle (edgeCell x_a x_b E1 Ws1 Wt1 wih1 whh1 bih1 bhh1))

end Cert.RV

end
-- ==== Proof.RLin.lean ====
/-
  The reference's six projections: each `dot_general` of a feature array with a transposed weight matrix is x Wᵀ.
-/
import proofs.«408718_j59854664237684_1_alg».proof.Proof.Gen.ReferenceIdeal.Read
import proofs.«408718_j59854664237684_1_alg».proof.Proof.Spec
import proofs.«408718_j59854664237684_1_alg».proof.Proof.SpecLaws
import proofs.«408718_j59854664237684_1_alg».proof.Proof.RDefs

set_option maxRecDepth 16384

noncomputable section

namespace Cert.RV

open Idealize.ShloMosaic Idealize.ShloMosaic.TcCoe Idealize.ShloMosaic.ValueIdx Idealize.SL.Sem
open Cert.ReferenceIdeal Cert.ReferenceIdeal.Read

/-! Entry (p, q) of each product is the sum over k of the features at (p, k) times the transposed matrix at (k, q);
the transpose reads the matrix at (q, k). -/

theorem v1_lin (x0 : (⟨S50000x128, .f32⟩ : BufTy).Contents (Elt Ideal)) (x5 : (⟨S128x128, .f32⟩ : BufTy).Contents (Elt Ideal)) :
    val_main_v1 (F := Ideal) x0 x5 = Spec.lin x0 x5 := by
  funext i
  obtain ⟨p, q, rfl⟩ := Cert.Spec.exists_ix2 i
  rw [val_main_v1_apply, Spec.lin_apply]
  refine Finset.sum_congr rfl fun k _ => ?_
  rw [val_main_v0_apply]
  -- the left operand is read at (p, k); the transposed matrix at (k, q), that is the matrix at (q, k)
  have el : lidx_main_v1 (ix2 p q) k = ix2 p k :=
    funext fun a => Fin.ext (by match a with | ⟨0, _⟩ => rfl | ⟨1, _⟩ => rfl)
  have er : idx_main_v0 (ridx_main_v1 (ix2 p q) k) = ix2 q k :=
    funext fun a => Fin.ext (by match a with | ⟨0, _⟩ => rfl | ⟨1, _⟩ => rfl)
  rw [el, er]

theorem v3_lin (x1 : (⟨S50000x128, .f32⟩ : BufTy).Contents (Elt Ideal)) (x6 : (⟨S128x128, .f32⟩ : BufTy).Contents (Elt Ideal)) :
    val_main_v3 (F := Ideal) x1 x6 = Spec.lin x1 x6 := by
  funext i
  obtain ⟨p, q, rfl⟩ := Cert.Spec.exists_ix2 i
  rw [val_main_v3_apply, Spec.lin_apply]
  refine Finset.sum_congr rfl fun k _ => ?_
  rw [val_main_v2_apply]
  -- the left operand is read at (p, k); the transposed matrix at (k, q), that is the matrix at (q, k)
  have el : lidx_main_v3 (ix2 p q) k = ix2 p k :=
    funext fun a => Fin.ext (by match a with | ⟨0, _⟩ => rfl | ⟨1, _⟩ => rfl)
  have er : idx_main_v2 (ridx_main_v3 (ix2 p q) k) = ix2 q k :=
    funext fun a => Fin.ext (by match a with | ⟨0, _⟩ => rfl | ⟨1, _⟩ => rfl)
  rw [el, er]

theorem v57_lin (x1 : (⟨S50000x128, .f32⟩ : BufTy).Contents (Elt Ideal)) (x11 : (⟨S128x128, .f32⟩ : BufTy).Contents (Elt Ideal)) :
    val_main_v57 (F := Ideal) x1 x11 = Spec.lin x1 x11 := by
  funext i
  obtain ⟨p, q, rfl⟩ := Cert.Spec.exists_ix2 i
  rw [val_main_v57_apply, Spec.lin_apply]
  refine Finset.sum_congr rfl fun k _ => ?_
  rw [val_main_v56_apply]
  -- the left operand is read at (p, k); the transposed matrix at (k, q), that is the matrix at (q, k)
  have el : lidx_main_v57 (ix2 p q) k = ix2 p k :=
    funext fun a => Fin.ext (by match a with | ⟨0, _⟩ => rfl | ⟨1, _⟩ => rfl)
  have er : idx_main_v56 (ridx_main_v57 (ix2 p q) k) = ix2 q k :=
    funext fun a => Fin.ext (by match a with | ⟨0, _⟩ => rfl | ⟨1, _⟩ => rfl)
  rw [el, er]

theorem v59_lin (x0 : (⟨S50000x128, .f32⟩ : BufTy).Contents (Elt Ideal)) (x12 : (⟨S128x128, .f32⟩ : BufTy).Contents (Elt Ideal)) :
    val_main_v59 (F := Ideal) x0 x12 = Spec.lin x0 x12 := by
  funext i
  obtain ⟨p, q, rfl⟩ := Cert.Spec.exists_ix2 i
  rw [val_main_v59_apply, Spec.lin_apply]
  refine Finset.sum_congr rfl fun k _ => ?_
  rw [val_main_v58_apply]
  -- the left operand is read at (p, k); the transposed matrix at (k, q), that is the matrix at (q, k)
  have el : lidx_main_v59 (ix2 p q) k = ix2 p k :=
    funext fun a => Fin.ext (by match a with | ⟨0, _⟩ => rfl | ⟨1, _⟩ => rfl)
  have er : idx_main_v58 (ridx_main_v59 (ix2 p q) k) = ix2 q k :=
    funext fun a => Fin.ext (by match a with | ⟨0, _⟩ => rfl | ⟨1, _⟩ => rfl)
  rw [el, er]

theorem v113_lin (x1 : (⟨S50000x128, .f32⟩ : BufTy).Contents (Elt Ideal)) (x17 : (⟨S128x128, .f32⟩ : BufTy).Contents (Elt Ideal)) :
    val_main_v113 (F := Ideal) x1 x17 = Spec.lin x1 x17 := by
  funext i
  obtain ⟨p, q, rfl⟩ := Cert.Spec.exists_ix2 i
  rw [val_main_v113_apply, Spec.lin_apply]
  refine Finset.sum_congr rfl fun k _ => ?_
  rw [val_main_v112_apply]
  -- the left operand is read at (p, k); the transposed matrix at (k, q), that is the matrix at (q, k)
  have el : lidx_main_v113 (ix2 p q) k = ix2 p k :=
    funext fun a => Fin.ext (by match a with | ⟨0, _⟩ => rfl | ⟨1, _⟩ => rfl)
  have er : idx_main_v112 (ridx_main_v113 (ix2 p q) k) = ix2 q k :=
    funext fun a => Fin.ext (by match a with | ⟨0, _⟩ => rfl | ⟨1, _⟩ => rfl)
  rw [el, er]

theorem v115_lin (x0 : (⟨S50000x128, .f32⟩ : BufTy).Contents (Elt Ideal)) (x18 : (⟨S128x128, .f32⟩ : BufTy).Contents (Elt Ideal)) :
    val_main_v115 (F := Ideal) x0 x18 = Spec.lin x0 x18 := by
  funext i
  obtain ⟨p, q, rfl⟩ := Cert.Spec.exists_ix2 i
  rw [val_main_v115_apply, Spec.lin_apply]
  refine Finset.sum_congr rfl fun k _ => ?_
  rw [val_main_v114_apply]
  -- the left operand is read at (p, k); the transposed matrix at (k, q), that is the matrix at (q, k)
  have el : lidx_main_v115 (ix2 p q) k = ix2 p k :=
    funext fun a => Fin.ext (by match a with | ⟨0, _⟩ => rfl | ⟨1, _⟩ => rfl)
  have er : idx_main_v114 (ridx_main_v115 (ix2 p q) k) = ix2 q k :=
    funext fun a => Fin.ext (by match a with | ⟨0, _⟩ => rfl | ⟨1, _⟩ => rfl)
  rw [el, er]

end Cert.RV

end
-- ==== Proof.RAgg.lean ====
/-
  The reference's three aggregates: the gather of the projected source table along the edge list's wrapped source
  indices followed by the segment sum over its target indices is `agg` of the table and the edge list.
-/
import proofs.«408718_j59854664237684_1_alg».proof.Proof.Gen.ReferenceIdeal.Read
import proofs.«408718_j59854664237684_1_alg».proof.Proof.Spec
import proofs.«408718_j59854664237684_1_alg».proof.Proof.RDefs

set_option maxRecDepth 16384

noncomputable section

namespace Cert.RV

open Idealize.ShloMosaic Idealize.ShloMosaic.TcCoe Idealize.ShloMosaic.ValueIdx Idealize.SL.Sem
open Cert.ReferenceIdeal Cert.ReferenceIdeal.Read

/-! Each aggregate is, operation by operation, the definition of `agg`: the scatter-add into the zero array, along the
column of row 1 of the edge list, of the gather of the table along the column of the wrapped row 0. Both sides unfold
to the same term. -/

theorem v17_agg (x0 : (⟨S50000x128, .f32⟩ : BufTy).Contents (Elt Ideal)) (x2 : (⟨S2x500000, .i32⟩ : BufTy).Contents (Elt Ideal)) (x5 : (⟨S128x128, .f32⟩ : BufTy).Contents (Elt Ideal)) :
    val_main_v17 (F := Ideal) x0 x2 x5 = agg (val_main_v1 (F := Ideal) x0 x5) x2 := by
  unfold val_main_v17 val_main_v12 val_main_v16 val_main_v15 val_main_v14 val_main_v13 val_main_v11
    val_main_v10 val_main_v9 val_main_v8 val_main_v7 val_main_v6 val_main_v5 val_main_v4 val_main_c
    val_main_c_0 val_main_cst
  unfold agg msgs wrapRow srcRow dstRow
  rfl

theorem v73_agg (x1 : (⟨S50000x128, .f32⟩ : BufTy).Contents (Elt Ideal)) (x3 : (⟨S2x500000, .i32⟩ : BufTy).Contents (Elt Ideal)) (x11 : (⟨S128x128, .f32⟩ : BufTy).Contents (Elt Ideal)) :
    val_main_v73 (F := Ideal) x1 x3 x11 = agg (val_main_v57 (F := Ideal) x1 x11) x3 := by
  unfold val_main_v73 val_main_v68 val_main_v72 val_main_v71 val_main_v70 val_main_v69 val_main_v67
    val_main_v66 val_main_v65 val_main_v64 val_main_v63 val_main_v62 val_main_v61 val_main_v60 val_main_c_6
    val_main_c_7 val_main_cst_8
  unfold agg msgs wrapRow srcRow dstRow
  rfl

theorem v129_agg (x1 : (⟨S50000x128, .f32⟩ : BufTy).Contents (Elt Ideal)) (x4 : (⟨S2x500000, .i32⟩ : BufTy).Contents (Elt Ideal)) (x17 : (⟨S128x128, .f32⟩ : BufTy).Contents (Elt Ideal)) :
    val_main_v129 (F := Ideal) x1 x4 x17 = agg (val_main_v113 (F := Ideal) x1 x17) x4 := by
  unfold val_main_v129 val_main_v124 val_main_v128 val_main_v127 val_main_v126 val_main_v125 val_main_v123
    val_main_v122 val_main_v121 val_main_v120 val_main_v119 val_main_v118 val_main_v117 val_main_v116
    val_main_c_14 val_main_c_15 val_main_cst_16
  unfold agg msgs wrapRow srcRow dstRow
  rfl

end Cert.RV

end
-- ==== Proof.RGru1.lean ====
/-
  The reference's cell for edge type 1: the chain of host operations from the two gate products to
  (1 − z) · n + z · h, read at an index, is the cell of the target projection, the aggregate and the gate weights.

  Each gate product is a matrix product with a transposed weight matrix plus a bias laid along every row, so its
  entry (p, c) is the gate Σₖ t(p, k) · W(c, k) + b(c).  The three column slices of a gate product read it at the
  columns q, 128 + q and 256 + q.  What remains is the elementwise arithmetic of the cell, which is the
  specification's term for term.
-/
import proofs.«408718_j59854664237684_1_alg».proof.Proof.Gen.ReferenceIdeal.Read
import proofs.«408718_j59854664237684_1_alg».proof.Proof.Spec
import proofs.«408718_j59854664237684_1_alg».proof.Proof.SpecLaws
import proofs.«408718_j59854664237684_1_alg».proof.Proof.RDefs

set_option maxRecDepth 16384

noncomputable section

namespace Cert.RV

open Idealize.ShloMosaic Idealize.ShloMosaic.TcCoe Idealize.ShloMosaic.ValueIdx Idealize.SL.Sem
open Cert.ReferenceIdeal Cert.ReferenceIdeal.Read

/-- Entry (p, c) of the input-side gate product: the target projection times the transposed input weights, plus the
    input bias laid along every row, is the gate of the target projection. -/
theorem v22_gate (x1 : (⟨S50000x128, .f32⟩ : BufTy).Contents (Elt Ideal)) (x6 : (⟨S128x128, .f32⟩ : BufTy).Contents (Elt Ideal)) (x7 : (⟨S384x128, .f32⟩ : BufTy).Contents (Elt Ideal)) (x9 : (⟨S384, .f32⟩ : BufTy).Contents (Elt Ideal))
    (p : Fin 50000) (c : Fin 384) :
    val_main_v22 (F := Ideal) x1 x6 x7 x9 (ix2 p c) = Spec.gate (val_main_v3 (F := Ideal) x1 x6) x7 x9 p c := by
  have el : ∀ k : Fin 128, lidx_main_v19 (ix2 p c) k = ix2 p k := fun k => funext fun a => Fin.ext (by
    match a with
    | ⟨0, _⟩ => rfl
    | ⟨1, _⟩ => rfl)
  have er : ∀ k : Fin 128, idx_main_v18 (ridx_main_v19 (ix2 p c) k) = ix2 c k := fun k => funext fun a => Fin.ext (by
    match a with
    | ⟨0, _⟩ => rfl
    | ⟨1, _⟩ => rfl)
  have eb : idx_main_v20 (idx_main_v21 (ix2 p c)) = ix1 c := funext fun a => Fin.ext (by
    match a with
    | ⟨0, _⟩ => rfl)
  rw [val_main_v22_apply, val_main_v19_apply, val_main_v21_apply, val_main_v20_apply, eb]
  simp only [val_main_v18_apply, el, er, Ideal.addf_def]
  rfl

/-- Entry (p, c) of the hidden-side gate product: the aggregate times the transposed hidden weights, plus the hidden
    bias laid along every row, is the gate of the aggregate. -/
theorem v27_gate (x0 : (⟨S50000x128, .f32⟩ : BufTy).Contents (Elt Ideal)) (x2 : (⟨S2x500000, .i32⟩ : BufTy).Contents (Elt Ideal)) (x5 : (⟨S128x128, .f32⟩ : BufTy).Contents (Elt Ideal)) (x8 : (⟨S384x128, .f32⟩ : BufTy).Contents (Elt Ideal)) (x10 : (⟨S384, .f32⟩ : BufTy).Contents (Elt Ideal))
    (p : Fin 50000) (c : Fin 384) :
    val_main_v27 (F := Ideal) x0 x2 x5 x8 x10 (ix2 p c) = Spec.gate (val_main_v17 (F := Ideal) x0 x2 x5) x8 x10 p c := by
  have el : ∀ k : Fin 128, lidx_main_v24 (ix2 p c) k = ix2 p k := fun k => funext fun a => Fin.ext (by
    match a with
    | ⟨0, _⟩ => rfl
    | ⟨1, _⟩ => rfl)
  have er : ∀ k : Fin 128, idx_main_v23 (ridx_main_v24 (ix2 p c) k) = ix2 c k := fun k => funext fun a => Fin.ext (by
    match a with
    | ⟨0, _⟩ => rfl
    | ⟨1, _⟩ => rfl)
  have eb : idx_main_v25 (idx_main_v26 (ix2 p c)) = ix1 c := funext fun a => Fin.ext (by
    match a with
    | ⟨0, _⟩ => rfl)
  rw [val_main_v27_apply, val_main_v24_apply, val_main_v26_apply, val_main_v25_apply, eb]
  simp only [val_main_v23_apply, el, er, Ideal.addf_def]
  rfl

theorem v55_gru (x0 : (⟨S50000x128, .f32⟩ : BufTy).Contents (Elt Ideal)) (x1 : (⟨S50000x128, .f32⟩ : BufTy).Contents (Elt Ideal)) (x2 : (⟨S2x500000, .i32⟩ : BufTy).Contents (Elt Ideal)) (x5 : (⟨S128x128, .f32⟩ : BufTy).Contents (Elt Ideal)) (x6 : (⟨S128x128, .f32⟩ : BufTy).Contents (Elt Ideal)) (x7 : (⟨S384x128, .f32⟩ : BufTy).Contents (Elt Ideal)) (x8 : (⟨S384x128, .f32⟩ : BufTy).Contents (Elt Ideal)) (x9 : (⟨S384, .f32⟩ : BufTy).Contents (Elt Ideal)) (x10 : (⟨S384, .f32⟩ : BufTy).Contents (Elt Ideal)) :
    val_main_v55 (F := Ideal) x0 x1 x2 x5 x6 x7 x8 x9 x10
      = Spec.gru (val_main_v3 (F := Ideal) x1 x6) (val_main_v17 (F := Ideal) x0 x2 x5) x7 x8 x9 x10 := by
  funext i
  obtain ⟨p, q, rfl⟩ := Cert.Spec.exists_ix2 i
  -- the three column slices of either gate product read it at columns q, 128 + q, 256 + q
  have i0 : idx_main_v28 (ix2 p q) = ix2 p (Spec.c0 q) := funext fun a => Fin.ext (by
    match a with
    | ⟨0, _⟩ => rfl
    | ⟨1, _⟩ => rfl)
  have i1 : idx_main_v29 (ix2 p q) = ix2 p (Spec.c1 q) := funext fun a => Fin.ext (by
    match a with
    | ⟨0, _⟩ => rfl
    | ⟨1, _⟩ => rfl)
  have i2 : idx_main_v30 (ix2 p q) = ix2 p (Spec.c2 q) := funext fun a => Fin.ext (by
    match a with
    | ⟨0, _⟩ => rfl
    | ⟨1, _⟩ => rfl)
  have h0 : idx_main_v31 (ix2 p q) = ix2 p (Spec.c0 q) := funext fun a => Fin.ext (by
    match a with
    | ⟨0, _⟩ => rfl
    | ⟨1, _⟩ => rfl)
  have h1 : idx_main_v32 (ix2 p q) = ix2 p (Spec.c1 q) := funext fun a => Fin.ext (by
    match a with
    | ⟨0, _⟩ => rfl
    | ⟨1, _⟩ => rfl)
  have h2 : idx_main_v33 (ix2 p q) = ix2 p (Spec.c2 q) := funext fun a => Fin.ext (by
    match a with
    | ⟨0, _⟩ => rfl
    | ⟨1, _⟩ => rfl)
  rw [Spec.gru_apply]
  simp only [val_main_v55_apply, val_main_v54_apply, val_main_v53_apply, val_main_v52_apply, val_main_v51_apply,
    val_main_cst_5_apply, val_main_v50_apply, val_main_v49_apply, val_main_v48_apply, val_main_v47_apply,
    val_main_v46_apply, val_main_cst_4_apply, val_main_v45_apply, val_main_v44_apply, val_main_cst_3_apply,
    val_main_v43_apply, val_main_v42_apply, val_main_v41_apply, val_main_v40_apply, val_main_v39_apply,
    val_main_cst_2_apply, val_main_v38_apply, val_main_v37_apply, val_main_cst_1_apply, val_main_v36_apply,
    val_main_v35_apply, val_main_v34_apply, val_main_v33_apply, val_main_v32_apply, val_main_v31_apply,
    val_main_v30_apply, val_main_v29_apply, val_main_v28_apply, i0, i1, i2, h0, h1, h2, v22_gate, v27_gate,
    Ideal.addf_def, Ideal.subf_def, Ideal.mulf_def, Ideal.hostDivf_def, Ideal.hostUnary_exp_def,
    Ideal.hostUnary_tanh_def, Ideal.hostNegf_def, Ideal.negf_def, Ideal.ofBits_def]
  rfl

end Cert.RV

end
-- ==== Proof.RGru2.lean ====
/-
  The reference's cell for edge type 2: the chain of host operations from the two gate products to
  (1 − z) · n + z · h, read at an index, is the cell of the target projection, the aggregate and the gate weights.

  Each gate product is a matrix product with a transposed weight matrix plus a bias laid along every row, so its
  entry (p, c) is the gate Σₖ t(p, k) · W(c, k) + b(c).  The three column slices of a gate product read it at the
  columns q, 128 + q and 256 + q.  What remains is the elementwise arithmetic of the cell, which is the
  specification's term for term.
-/
import proofs.«408718_j59854664237684_1_alg».proof.Proof.Gen.ReferenceIdeal.Read
import proofs.«408718_j59854664237684_1_alg».proof.Proof.Spec
import proofs.«408718_j59854664237684_1_alg».proof.Proof.SpecLaws
import proofs.«408718_j59854664237684_1_alg».proof.Proof.RDefs

set_option maxRecDepth 16384

noncomputable section

namespace Cert.RV

open Idealize.ShloMosaic Idealize.ShloMosaic.TcCoe Idealize.ShloMosaic.ValueIdx Idealize.SL.Sem
open Cert.ReferenceIdeal Cert.ReferenceIdeal.Read

/-- Entry (p, c) of the input-side gate product: the target projection times the transposed input weights, plus the
    input bias laid along every row, is the gate of the target projection. -/
theorem v78_gate (x0 : (⟨S50000x128, .f32⟩ : BufTy).Contents (Elt Ideal)) (x12 : (⟨S128x128, .f32⟩ : BufTy).Contents (Elt Ideal)) (x13 : (⟨S384x128, .f32⟩ : BufTy).Contents (Elt Ideal)) (x15 : (⟨S384, .f32⟩ : BufTy).Contents (Elt Ideal))
    (p : Fin 50000) (c : Fin 384) :
    val_main_v78 (F := Ideal) x0 x12 x13 x15 (ix2 p c) = Spec.gate (val_main_v59 (F := Ideal) x0 x12) x13 x15 p c := by
  have el : ∀ k : Fin 128, lidx_main_v75 (ix2 p c) k = ix2 p k := fun k => funext fun a => Fin.ext (by
    match a with
    | ⟨0, _⟩ => rfl
    | ⟨1, _⟩ => rfl)
  have er : ∀ k : Fin 128, idx_main_v74 (ridx_main_v75 (ix2 p c) k) = ix2 c k := fun k => funext fun a => Fin.ext (by
    match a with
    | ⟨0, _⟩ => rfl
    | ⟨1, _⟩ => rfl)
  have eb : idx_main_v76 (idx_main_v77 (ix2 p c)) = ix1 c := funext fun a => Fin.ext (by
    match a with
    | ⟨0, _⟩ => rfl)
  rw [val_main_v78_apply, val_main_v75_apply, val_main_v77_apply, val_main_v76_apply, eb]
  simp only [val_main_v74_apply, el, er, Ideal.addf_def]
  rfl

/-- Entry (p, c) of the hidden-side gate product: the aggregate times the transposed hidden weights, plus the hidden
    bias laid along every row, is the gate of the aggregate. -/
theorem v83_gate (x1 : (⟨S50000x128, .f32⟩ : BufTy).Contents (Elt Ideal)) (x3 : (⟨S2x500000, .i32⟩ : BufTy).Contents (Elt Ideal)) (x11 : (⟨S128x128, .f32⟩ : BufTy).Contents (Elt Ideal)) (x14 : (⟨S384x128, .f32⟩ : BufTy).Contents (Elt Ideal)) (x16 : (⟨S384, .f32⟩ : BufTy).Contents (Elt Ideal))
    (p : Fin 50000) (c : Fin 384) :
    val_main_v83 (F := Ideal) x1 x3 x11 x14 x16 (ix2 p c) = Spec.gate (val_main_v73 (F := Ideal) x1 x3 x11) x14 x16 p c := by
  have el : ∀ k : Fin 128, lidx_main_v80 (ix2 p c) k = ix2 p k := fun k => funext fun a => Fin.ext (by
    match a with
    | ⟨0, _⟩ => rfl
    | ⟨1, _⟩ => rfl)
  have er : ∀ k : Fin 128, idx_main_v79 (ridx_main_v80 (ix2 p c) k) = ix2 c k := fun k => funext fun a => Fin.ext (by
    match a with
    | ⟨0, _⟩ => rfl
    | ⟨1, _⟩ => rfl)
  have eb : idx_main_v81 (idx_main_v82 (ix2 p c)) = ix1 c := funext fun a => Fin.ext (by
    match a with
    | ⟨0, _⟩ => rfl)
  rw [val_main_v83_apply, val_main_v80_apply, val_main_v82_apply, val_main_v81_apply, eb]
  simp only [val_main_v79_apply, el, er, Ideal.addf_def]
  rfl

theorem v111_gru (x0 : (⟨S50000x128, .f32⟩ : BufTy).Contents (Elt Ideal)) (x1 : (⟨S50000x128, .f32⟩ : BufTy).Contents (Elt Ideal)) (x3 : (⟨S2x500000, .i32⟩ : BufTy).Contents (Elt Ideal)) (x11 : (⟨S128x128, .f32⟩ : BufTy).Contents (Elt Ideal)) (x12 : (⟨S128x128, .f32⟩ : BufTy).Contents (Elt Ideal)) (x13 : (⟨S384x128, .f32⟩ : BufTy).Contents (Elt Ideal)) (x14 : (⟨S384x128, .f32⟩ : BufTy).Contents (Elt Ideal)) (x15 : (⟨S384, .f32⟩ : BufTy).Contents (Elt Ideal)) (x16 : (⟨S384, .f32⟩ : BufTy).Contents (Elt Ideal)) :
    val_main_v111 (F := Ideal) x0 x1 x3 x11 x12 x13 x14 x15 x16
      = Spec.gru (val_main_v59 (F := Ideal) x0 x12) (val_main_v73 (F := Ideal) x1 x3 x11) x13 x14 x15 x16 := by
  funext i
  obtain ⟨p, q, rfl⟩ := Cert.Spec.exists_ix2 i
  -- the three column slices of either gate product read it at columns q, 128 + q, 256 + q
  have i0 : idx_main_v84 (ix2 p q) = ix2 p (Spec.c0 q) := funext fun a => Fin.ext (by
    match a with
    | ⟨0, _⟩ => rfl
    | ⟨1, _⟩ => rfl)
  have i1 : idx_main_v85 (ix2 p q) = ix2 p (Spec.c1 q) := funext fun a => Fin.ext (by
    match a with
    | ⟨0, _⟩ => rfl
    | ⟨1, _⟩ => rfl)
  have i2 : idx_main_v86 (ix2 p q) = ix2 p (Spec.c2 q) := funext fun a => Fin.ext (by
    match a with
    | ⟨0, _⟩ => rfl
    | ⟨1, _⟩ => rfl)
  have h0 : idx_main_v87 (ix2 p q) = ix2 p (Spec.c0 q) := funext fun a => Fin.ext (by
    match a with
    | ⟨0, _⟩ => rfl
    | ⟨1, _⟩ => rfl)
  have h1 : idx_main_v88 (ix2 p q) = ix2 p (Spec.c1 q) := funext fun a => Fin.ext (by
    match a with
    | ⟨0, _⟩ => rfl
    | ⟨1, _⟩ => rfl)
  have h2 : idx_main_v89 (ix2 p q) = ix2 p (Spec.c2 q) := funext fun a => Fin.ext (by
    match a with
    | ⟨0, _⟩ => rfl
    | ⟨1, _⟩ => rfl)
  rw [Spec.gru_apply]
  simp only [val_main_v111_apply, val_main_v110_apply, val_main_v109_apply, val_main_v108_apply, val_main_v107_apply,
    val_main_cst_13_apply, val_main_v106_apply, val_main_v105_apply, val_main_v104_apply, val_main_v103_apply,
    val_main_v102_apply, val_main_cst_12_apply, val_main_v101_apply, val_main_v100_apply, val_main_cst_11_apply,
    val_main_v99_apply, val_main_v98_apply, val_main_v97_apply, val_main_v96_apply, val_main_v95_apply,
    val_main_cst_10_apply, val_main_v94_apply, val_main_v93_apply, val_main_cst_9_apply, val_main_v92_apply,
    val_main_v91_apply, val_main_v90_apply, val_main_v89_apply, val_main_v88_apply, val_main_v87_apply,
    val_main_v86_apply, val_main_v85_apply, val_main_v84_apply, i0, i1, i2, h0, h1, h2, v78_gate, v83_gate,
    Ideal.addf_def, Ideal.subf_def, Ideal.mulf_def, Ideal.hostDivf_def, Ideal.hostUnary_exp_def,
    Ideal.hostUnary_tanh_def, Ideal.hostNegf_def, Ideal.negf_def, Ideal.ofBits_def]
  rfl

end Cert.RV

end
-- ==== Proof.RGru3.lean ====
/-
  The reference's cell for edge type 3: the chain of host operations from the two gate products to
  (1 − z) · n + z · h, read at an index, is the cell of the target projection, the aggregate and the gate weights.

  Each gate product is a matrix product with a transposed weight matrix plus a bias laid along every row, so its
  entry (p, c) is the gate Σₖ t(p, k) · W(c, k) + b(c).  The three column slices of a gate product read it at the
  columns q, 128 + q and 256 + q.  What remains is the elementwise arithmetic of the cell, which is the
  specification's term for term.
-/
import proofs.«408718_j59854664237684_1_alg».proof.Proof.Gen.ReferenceIdeal.Read
import proofs.«408718_j59854664237684_1_alg».proof.Proof.Spec
import proofs.«408718_j59854664237684_1_alg».proof.Proof.SpecLaws
import proofs.«408718_j59854664237684_1_alg».proof.Proof.RDefs

set_option maxRecDepth 16384

noncomputable section

namespace Cert.RV

open Idealize.ShloMosaic Idealize.ShloMosaic.TcCoe Idealize.ShloMosaic.ValueIdx Idealize.SL.Sem
open Cert.ReferenceIdeal Cert.ReferenceIdeal.Read

/-- Entry (p, c) of the input-side gate product: the target projection times the transposed input weights, plus the
    input bias laid along every row, is the gate of the target projection. -/
theorem v134_gate (x0 : (⟨S50000x128, .f32⟩ : BufTy).Contents (Elt Ideal)) (x18 : (⟨S128x128, .f32⟩ : BufTy).Contents (Elt Ideal)) (x19 : (⟨S384x128, .f32⟩ : BufTy).Contents (Elt Ideal)) (x21 : (⟨S384, .f32⟩ : BufTy).Contents (Elt Ideal))
    (p : Fin 50000) (c : Fin 384) :
    val_main_v134 (F := Ideal) x0 x18 x19 x21 (ix2 p c) = Spec.gate (val_main_v115 (F := Ideal) x0 x18) x19 x21 p c := by
  have el : ∀ k : Fin 128, lidx_main_v131 (ix2 p c) k = ix2 p k := fun k => funext fun a => Fin.ext (by
    match a with
    | ⟨0, _⟩ => rfl
    | ⟨1, _⟩ => rfl)
  have er : ∀ k : Fin 128, idx_main_v130 (ridx_main_v131 (ix2 p c) k) = ix2 c k := fun k => funext fun a => Fin.ext (by
    match a with
    | ⟨0, _⟩ => rfl
    | ⟨1, _⟩ => rfl)
  have eb : idx_main_v132 (idx_main_v133 (ix2 p c)) = ix1 c := funext fun a => Fin.ext (by
    match a with
    | ⟨0, _⟩ => rfl)
  rw [val_main_v134_apply, val_main_v131_apply, val_main_v133_apply, val_main_v132_apply, eb]
  simp only [val_main_v130_apply, el, er, Ideal.addf_def]
  rfl

/-- Entry (p, c) of the hidden-side gate product: the aggregate times the transposed hidden weights, plus the hidden
    bias laid along every row, is the gate of the aggregate. -/
theorem v139_gate (x1 : (⟨S50000x128, .f32⟩ : BufTy).Contents (Elt Ideal)) (x4 : (⟨S2x500000, .i32⟩ : BufTy).Contents (Elt Ideal)) (x17 : (⟨S128x128, .f32⟩ : BufTy).Contents (Elt Ideal)) (x20 : (⟨S384x128, .f32⟩ : BufTy).Contents (Elt Ideal)) (x22 : (⟨S384, .f32⟩ : BufTy).Contents (Elt Ideal))
    (p : Fin 50000) (c : Fin 384) :
    val_main_v139 (F := Ideal) x1 x4 x17 x20 x22 (ix2 p c) = Spec.gate (val_main_v129 (F := Ideal) x1 x4 x17) x20 x22 p c := by
  have el : ∀ k : Fin 128, lidx_main_v136 (ix2 p c) k = ix2 p k := fun k => funext fun a => Fin.ext (by
    match a with
    | ⟨0, _⟩ => rfl
    | ⟨1, _⟩ => rfl)
  have er : ∀ k : Fin 128, idx_main_v135 (ridx_main_v136 (ix2 p c) k) = ix2 c k := fun k => funext fun a => Fin.ext (by
    match a with
    | ⟨0, _⟩ => rfl
    | ⟨1, _⟩ => rfl)
  have eb : idx_main_v137 (idx_main_v138 (ix2 p c)) = ix1 c := funext fun a => Fin.ext (by
    match a with
    | ⟨0, _⟩ => rfl)
  rw [val_main_v139_apply, val_main_v136_apply, val_main_v138_apply, val_main_v137_apply, eb]
  simp only [val_main_v135_apply, el, er, Ideal.addf_def]
  rfl

theorem v167_gru (x0 : (⟨S50000x128, .f32⟩ : BufTy).Contents (Elt Ideal)) (x1 : (⟨S50000x128, .f32⟩ : BufTy).Contents (Elt Ideal)) (x4 : (⟨S2x500000, .i32⟩ : BufTy).Contents (Elt Ideal)) (x17 : (⟨S128x128, .f32⟩ : BufTy).Contents (Elt Ideal)) (x18 : (⟨S128x128, .f32⟩ : BufTy).Contents (Elt Ideal)) (x19 : (⟨S384x128, .f32⟩ : BufTy).Contents (Elt Ideal)) (x20 : (⟨S384x128, .f32⟩ : BufTy).Contents (Elt Ideal)) (x21 : (⟨S384, .f32⟩ : BufTy).Contents (Elt Ideal)) (x22 : (⟨S384, .f32⟩ : BufTy).Contents (Elt Ideal)) :
    val_main_v167 (F := Ideal) x0 x1 x4 x17 x18 x19 x20 x21 x22
      = Spec.gru (val_main_v115 (F := Ideal) x0 x18) (val_main_v129 (F := Ideal) x1 x4 x17) x19 x20 x21 x22 := by
  funext i
  obtain ⟨p, q, rfl⟩ := Cert.Spec.exists_ix2 i
  -- the three column slices of either gate product read it at columns q, 128 + q, 256 + q
  have i0 : idx_main_v140 (ix2 p q) = ix2 p (Spec.c0 q) := funext fun a => Fin.ext (by
    match a with
    | ⟨0, _⟩ => rfl
    | ⟨1, _⟩ => rfl)
  have i1 : idx_main_v141 (ix2 p q) = ix2 p (Spec.c1 q) := funext fun a => Fin.ext (by
    match a with
    | ⟨0, _⟩ => rfl
    | ⟨1, _⟩ => rfl)
  have i2 : idx_main_v142 (ix2 p q) = ix2 p (Spec.c2 q) := funext fun a => Fin.ext (by
    match a with
    | ⟨0, _⟩ => rfl
    | ⟨1, _⟩ => rfl)
  have h0 : idx_main_v143 (ix2 p q) = ix2 p (Spec.c0 q) := funext fun a => Fin.ext (by
    match a with
    | ⟨0, _⟩ => rfl
    | ⟨1, _⟩ => rfl)
  have h1 : idx_main_v144 (ix2 p q) = ix2 p (Spec.c1 q) := funext fun a => Fin.ext (by
    match a with
    | ⟨0, _⟩ => rfl
    | ⟨1, _⟩ => rfl)
  have h2 : idx_main_v145 (ix2 p q) = ix2 p (Spec.c2 q) := funext fun a => Fin.ext (by
    match a with
    | ⟨0, _⟩ => rfl
    | ⟨1, _⟩ => rfl)
  rw [Spec.gru_apply]
  simp only [val_main_v167_apply, val_main_v166_apply, val_main_v165_apply, val_main_v164_apply, val_main_v163_apply,
    val_main_cst_21_apply, val_main_v162_apply, val_main_v161_apply, val_main_v160_apply, val_main_v159_apply,
    val_main_v158_apply, val_main_cst_20_apply, val_main_v157_apply, val_main_v156_apply, val_main_cst_19_apply,
    val_main_v155_apply, val_main_v154_apply, val_main_v153_apply, val_main_v152_apply, val_main_v151_apply,
    val_main_cst_18_apply, val_main_v150_apply, val_main_v149_apply, val_main_cst_17_apply, val_main_v148_apply,
    val_main_v147_apply, val_main_v146_apply, val_main_v145_apply, val_main_v144_apply, val_main_v143_apply,
    val_main_v142_apply, val_main_v141_apply, val_main_v140_apply, i0, i1, i2, h0, h1, h2, v134_gate, v139_gate,
    Ideal.addf_def, Ideal.subf_def, Ideal.mulf_def, Ideal.hostDivf_def, Ideal.hostUnary_exp_def,
    Ideal.hostUnary_tanh_def, Ideal.hostNegf_def, Ideal.negf_def, Ideal.ofBits_def]
  rfl

end Cert.RV

end
-- ==== Proof.RTail.lean ====
/-
  The reference's result: the last operations (the sum of the two cells halved, the two maxima with zero, the
  stacking) over the three cells make \`result\` of the 23 arguments.
-/
import proofs.«408718_j59854664237684_1_alg».proof.Proof.Gen.ReferenceIdeal.Read
import proofs.«408718_j59854664237684_1_alg».proof.Proof.Spec
import proofs.«408718_j59854664237684_1_alg».proof.Proof.SpecLaws
import proofs.«408718_j59854664237684_1_alg».proof.Proof.RDefs
import proofs.«408718_j59854664237684_1_alg».proof.Proof.RLin
import proofs.«408718_j59854664237684_1_alg».proof.Proof.RAgg
import proofs.«408718_j59854664237684_1_alg».proof.Proof.RGru1
import proofs.«408718_j59854664237684_1_alg».proof.Proof.RGru2
import proofs.«408718_j59854664237684_1_alg».proof.Proof.RGru3

set_option maxRecDepth 16384

noncomputable section

namespace Cert.RV

open Idealize.ShloMosaic Idealize.ShloMosaic.TcCoe Idealize.ShloMosaic.ValueIdx Idealize.SL.Sem
open Cert.ReferenceIdeal Cert.ReferenceIdeal.Read

/-- The output reached by one edge type: the maximum of the cell with the zero array is max(cell, 0) at every entry. -/
theorem v172_out (x0 : (⟨S50000x128, .f32⟩ : BufTy).Contents (Elt Ideal)) (x1 : (⟨S50000x128, .f32⟩ : BufTy).Contents (Elt Ideal)) (x2 : (⟨S2x500000, .i32⟩ : BufTy).Contents (Elt Ideal)) (x5 : (⟨S128x128, .f32⟩ : BufTy).Contents (Elt Ideal)) (x6 : (⟨S128x128, .f32⟩ : BufTy).Contents (Elt Ideal)) (x7 : (⟨S384x128, .f32⟩ : BufTy).Contents (Elt Ideal)) (x8 : (⟨S384x128, .f32⟩ : BufTy).Contents (Elt Ideal)) (x9 : (⟨S384, .f32⟩ : BufTy).Contents (Elt Ideal)) (x10 : (⟨S384, .f32⟩ : BufTy).Contents (Elt Ideal)) :
    val_main_v172 (F := Ideal) x0 x1 x2 x5 x6 x7 x8 x9 x10 = Spec.outSingle (val_main_v55 (F := Ideal) x0 x1 x2 x5 x6 x7 x8 x9 x10) := by
  funext i
  rw [val_main_v172_apply, val_main_call1_v0_apply, val_main_call1_cst_apply, Spec.outSingle_apply]
  simp only [Ideal.maximumf_def, Ideal.ofBits_def, Spec.zero]

/-- The output reached by two edge types: the sum of the two cells divided by the array of 2.0, then the maximum with
    the zero array, is max((cell₂ + cell₃) / 2, 0) at every entry. -/
theorem v171_out (x0 : (⟨S50000x128, .f32⟩ : BufTy).Contents (Elt Ideal)) (x1 : (⟨S50000x128, .f32⟩ : BufTy).Contents (Elt Ideal)) (x3 : (⟨S2x500000, .i32⟩ : BufTy).Contents (Elt Ideal)) (x4 : (⟨S2x500000, .i32⟩ : BufTy).Contents (Elt Ideal)) (x11 : (⟨S128x128, .f32⟩ : BufTy).Contents (Elt Ideal)) (x12 : (⟨S128x128, .f32⟩ : BufTy).Contents (Elt Ideal)) (x13 : (⟨S384x128, .f32⟩ : BufTy).Contents (Elt Ideal)) (x14 : (⟨S384x128, .f32⟩ : BufTy).Contents (Elt Ideal)) (x15 : (⟨S384, .f32⟩ : BufTy).Contents (Elt Ideal)) (x16 : (⟨S384, .f32⟩ : BufTy).Contents (Elt Ideal)) (x17 : (⟨S128x128, .f32⟩ : BufTy).Contents (Elt Ideal)) (x18 : (⟨S128x128, .f32⟩ : BufTy).Contents (Elt Ideal)) (x19 : (⟨S384x128, .f32⟩ : BufTy).Contents (Elt Ideal)) (x20 : (⟨S384x128, .f32⟩ : BufTy).Contents (Elt Ideal)) (x21 : (⟨S384, .f32⟩ : BufTy).Contents (Elt Ideal)) (x22 : (⟨S384, .f32⟩ : BufTy).Contents (Elt Ideal)) :
    val_main_v171 (F := Ideal) x0 x1 x3 x4 x11 x12 x13 x14 x15 x16 x17 x18 x19 x20 x21 x22
      = Spec.outDual (val_main_v111 (F := Ideal) x0 x1 x3 x11 x12 x13 x14 x15 x16) (val_main_v167 (F := Ideal) x0 x1 x4 x17 x18 x19 x20 x21 x22) := by
  funext i
  rw [val_main_v171_apply, val_main_v170_apply, val_main_v168_apply, val_main_v169_apply, val_main_cst_22_apply,
    val_main_call0_v0_apply, val_main_call0_cst_apply, Spec.outDual_apply]
  simp only [Ideal.maximumf_def, Ideal.hostDivf_def, Ideal.addf_def, Ideal.ofBits_def, Spec.zero, Spec.two]

/-- The result is the stacking of the two outputs; each cell is the cell of its target projection and its aggregate,
    each aggregate the aggregate of its source projection, each projection x Wᵀ. -/
theorem v175_result (x0 : (⟨S50000x128, .f32⟩ : BufTy).Contents (Elt Ideal)) (x1 : (⟨S50000x128, .f32⟩ : BufTy).Contents (Elt Ideal)) (x2 : (⟨S2x500000, .i32⟩ : BufTy).Contents (Elt Ideal)) (x3 : (⟨S2x500000, .i32⟩ : BufTy).Contents (Elt Ideal)) (x4 : (⟨S2x500000, .i32⟩ : BufTy).Contents (Elt Ideal)) (x5 : (⟨S128x128, .f32⟩ : BufTy).Contents (Elt Ideal)) (x6 : (⟨S128x128, .f32⟩ : BufTy).Contents (Elt Ideal)) (x7 : (⟨S384x128, .f32⟩ : BufTy).Contents (Elt Ideal)) (x8 : (⟨S384x128, .f32⟩ : BufTy).Contents (Elt Ideal)) (x9 : (⟨S384, .f32⟩ : BufTy).Contents (Elt Ideal)) (x10 : (⟨S384, .f32⟩ : BufTy).Contents (Elt Ideal)) (x11 : (⟨S128x128, .f32⟩ : BufTy).Contents (Elt Ideal)) (x12 : (⟨S128x128, .f32⟩ : BufTy).Contents (Elt Ideal)) (x13 : (⟨S384x128, .f32⟩ : BufTy).Contents (Elt Ideal)) (x14 : (⟨S384x128, .f32⟩ : BufTy).Contents (Elt Ideal)) (x15 : (⟨S384, .f32⟩ : BufTy).Contents (Elt Ideal)) (x16 : (⟨S384, .f32⟩ : BufTy).Contents (Elt Ideal)) (x17 : (⟨S128x128, .f32⟩ : BufTy).Contents (Elt Ideal)) (x18 : (⟨S128x128, .f32⟩ : BufTy).Contents (Elt Ideal)) (x19 : (⟨S384x128, .f32⟩ : BufTy).Contents (Elt Ideal)) (x20 : (⟨S384x128, .f32⟩ : BufTy).Contents (Elt Ideal)) (x21 : (⟨S384, .f32⟩ : BufTy).Contents (Elt Ideal)) (x22 : (⟨S384, .f32⟩ : BufTy).Contents (Elt Ideal)) :
    val_main_v175 (F := Ideal) x0 x1 x2 x3 x4 x5 x6 x7 x8 x9 x10 x11 x12 x13 x14 x15 x16 x17 x18 x19 x20 x21 x22
      = result x0 x1 x2 x3 x4 x5 x6 x7 x8 x9 x10 x11 x12 x13 x14 x15 x16 x17 x18 x19 x20 x21 x22 := by
  unfold val_main_v175 val_main_v173 val_main_v174
  rw [v171_out, v172_out, v55_gru, v111_gru, v167_gru, v17_agg, v73_agg, v129_agg,
    v1_lin, v3_lin, v57_lin, v59_lin, v113_lin, v115_lin]
  unfold result edgeCell stack
  rfl

end Cert.RV

end
-- ==== Proof.Bridge.lean ====
/-
  The two programs' results are the same function of the 23 arguments: each side's `result` is spelt with its own
  program's names for the shapes and the dimension numbers of the gather and the segment sum, and the two spellings
  unfold to the same literals.
-/
import proofs.«408718_j59854664237684_1_alg».proof.Proof.KDefs
import proofs.«408718_j59854664237684_1_alg».proof.Proof.RDefs

noncomputable section

namespace Cert.Bridge

open Idealize.ShloMosaic

theorem result_eq (x0 : FVec Ideal Cert.KernelIdeal.S50000x128 .f32) (x1 : FVec Ideal Cert.KernelIdeal.S50000x128 .f32) (x2 : IVec Cert.KernelIdeal.S2x500000 32) (x3 : IVec Cert.KernelIdeal.S2x500000 32) (x4 : IVec Cert.KernelIdeal.S2x500000 32) (x5 : FVec Ideal Cert.KernelIdeal.S128x128 .f32) (x6 : FVec Ideal Cert.KernelIdeal.S128x128 .f32) (x7 : FVec Ideal Cert.KernelIdeal.S384x128 .f32) (x8 : FVec Ideal Cert.KernelIdeal.S384x128 .f32) (x9 : FVec Ideal Cert.KernelIdeal.S384 .f32) (x10 : FVec Ideal Cert.KernelIdeal.S384 .f32) (x11 : FVec Ideal Cert.KernelIdeal.S128x128 .f32) (x12 : FVec Ideal Cert.KernelIdeal.S128x128 .f32) (x13 : FVec Ideal Cert.KernelIdeal.S384x128 .f32) (x14 : FVec Ideal Cert.KernelIdeal.S384x128 .f32) (x15 : FVec Ideal Cert.KernelIdeal.S384 .f32) (x16 : FVec Ideal Cert.KernelIdeal.S384 .f32) (x17 : FVec Ideal Cert.KernelIdeal.S128x128 .f32) (x18 : FVec Ideal Cert.KernelIdeal.S128x128 .f32) (x19 : FVec Ideal Cert.KernelIdeal.S384x128 .f32) (x20 : FVec Ideal Cert.KernelIdeal.S384x128 .f32) (x21 : FVec Ideal Cert.KernelIdeal.S384 .f32) (x22 : FVec Ideal Cert.KernelIdeal.S384 .f32) :
    Cert.KV.result x0 x1 x2 x3 x4 x5 x6 x7 x8 x9 x10 x11 x12 x13 x14 x15 x16 x17 x18 x19 x20 x21 x22 = Cert.RV.result x0 x1 x2 x3 x4 x5 x6 x7 x8 x9 x10 x11 x12 x13 x14 x15 x16 x17 x18 x19 x20 x21 x22 := rfl

end Cert.Bridge

end
-- ==== Proof.lean ====
/-
  The certificate of the heterogeneous gated graph convolution: a kernel program of four tiled kernels (two fused
  projections, a single and a double recurrent cell) around host gathers and segment sums, against the plain reference.

  Both programs compute, for three edge types, the cell of the projected target features and the per-node sum of the
  projected source features gathered along the edges; the kernel's take fills a row whose index is out of range with a
  not-a-number where the reference's indexing clamps, so the two agree exactly where every source index is a row number
  of the table, which the precondition states. Under it both results are `result` of the arguments (Proof/KDefs.lean,
  Proof/RDefs.lean): the kernel's by reading its four pipelines block by block and its host operations through the
  run's boundaries, the reference's by reading its operations one at a time.
-/
import proofs.«408718_j59854664237684_1_alg».proof.Defs
import proofs.«408718_j59854664237684_1_alg».proof.Proof.Gen.Kernel
import proofs.«408718_j59854664237684_1_alg».proof.Proof.Gen.Kernel.Skeleton
import proofs.«408718_j59854664237684_1_alg».proof.Proof.Gen.Kernel.Launch
import proofs.«408718_j59854664237684_1_alg».proof.Proof.Gen.Kernel.Points
import proofs.«408718_j59854664237684_1_alg».proof.Proof.Gen.Kernel.Frame
import proofs.«408718_j59854664237684_1_alg».proof.Proof.Gen.KernelIdeal
import proofs.«408718_j59854664237684_1_alg».proof.Proof.Gen.KernelIdeal.Skeleton
import proofs.«408718_j59854664237684_1_alg».proof.Proof.Gen.KernelIdeal.Launch
import proofs.«408718_j59854664237684_1_alg».proof.Proof.Gen.KernelIdeal.Points
import proofs.«408718_j59854664237684_1_alg».proof.Proof.Gen.KernelIdeal.Frame
import proofs.«408718_j59854664237684_1_alg».proof.Proof.Gen.ReferenceIdeal
import proofs.«408718_j59854664237684_1_alg».proof.Proof.Gen.ReferenceIdeal.Run
import proofs.«408718_j59854664237684_1_alg».proof.Proof.Gen.ReferenceIdeal.Read
import proofs.«408718_j59854664237684_1_alg».proof.Proof.Gen.Pre_finite_inputs
import proofs.«408718_j59854664237684_1_alg».proof.Proof.KernelRun
import proofs.«408718_j59854664237684_1_alg».proof.Proof.PreIdx
import proofs.«408718_j59854664237684_1_alg».proof.Proof.KWalk3
import proofs.«408718_j59854664237684_1_alg».proof.Proof.RTail
import proofs.«408718_j59854664237684_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result buffer at `result` of the arguments, which agree. -/
theorem algebraic : Cert.algebraic_KernelIdeal_ReferenceIdeal := by
  intro m ρ m' ρ' hpre hagree
  refine ⟨fun c => Cert.KV.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22)), ?_, ?_⟩
  · -- the kernel's run ends with the result buffer at the last boundary's contents, which are `result` of the arguments
    refine (θ_run Cert.KernelIdeal.defs _ _).mono (fun r h c => ⟨(h c).1.trans ?_, (h c).2⟩)
      (Cert.KernelIdeal.Gen.run_main (F := Ideal) m ρ)
    obtain ⟨h2, h3, h4⟩ := Cert.KV.inRange_of_pre m hpre c
    exact Cert.KV.W13_v48 m ρ c h2 h3 h4
  · -- the reference's run ends with the result at its operations' composed term, which is `result` of its arguments
    refine (θ_run Cert.ReferenceIdeal.defs _ _).mono (fun r h c => ⟨(h c).1.trans ?_, (h c).2⟩)
      (Cert.ReferenceIdeal.Value.run (F := Ideal) m' ρ')
    rw [Cert.ReferenceIdeal.Read.val_main_v175_eq, Cert.RV.v175_result,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2]
    exact (Cert.Bridge.result_eq _ _ _ _ _ _ _ _ _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
